-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x32 : Shape := ⟨2, ![2000000, 32]⟩
abbrev S1000x32 : Shape := ⟨2, ![1000, 32]⟩
abbrev S1000x1 : Shape := ⟨2, ![1000, 1]⟩
abbrev S2000000 : Shape := ⟨1, ![2000000]⟩
abbrev S_ : Shape := ⟨0, ![]⟩

class Facts : Prop where
  bcast_S_S2000000x32 : S_.BroadcastsInDim S2000000x32 (![] : Fin 0 → Fin S2000000x32.rank)
  reducesTo_S2000000x32_S_d0_1 : S2000000x32.ReducesTo [0, 1] S_
  h_S_ : 0 < S_.numel
  bcast_S_S1000x32 : S_.BroadcastsInDim S1000x32 (![] : Fin 0 → Fin S1000x32.rank)
  reducesTo_S1000x32_S_d0_1 : S1000x32.ReducesTo [0, 1] S_
  bcast_S_S1000x1 : S_.BroadcastsInDim S1000x1 (![] : Fin 0 → Fin S1000x1.rank)
  reducesTo_S1000x1_S_d0_1 : S1000x1.ReducesTo [0, 1] S_
  bcast_S_S2000000 : S_.BroadcastsInDim S2000000 (![] : Fin 0 → Fin S2000000.rank)
  reducesTo_S2000000_S_d0 : S2000000.ReducesTo [0] S_

variable [Facts]

def fn_part1 {F : FTy → Type} [FloatOps F] (main_arg3 : FVec F S1000x1 .f32) (main_arg4 : IVec S2000000 32) (main_v13 : IVec S_ 1) (main_v16 : IVec S1000x1 1) : IVec S_ 1 :=
  let main_c_5 : IVec S_ 1 := constantI S_ 1 1#1
  let main_v17 : IVec S_ 1 := (fun x v => Host.reduce IntOp.andi x v reducesTo_S1000x1_S_d0_1 h_S_) main_v16 main_c_5
  let main_v18 : IVec S_ 1 := andi main_v13 main_v17
  let main_cst_6 : FVec F S_ .f32 := constant S_ .f32 0x3F800000#32
  let main_v19 : FVec F S1000x1 .f32 := broadcastInDim S1000x1 ![] bcast_S_S1000x1 main_cst_6
  let main_v20 : IVec S1000x1 1 := cmpf .oge main_arg3 main_v19
  let main_c_7 : IVec S_ 1 := constantI S_ 1 1#1
  let main_v21 : IVec S_ 1 := (fun x v => Host.reduce IntOp.andi x v reducesTo_S1000x1_S_d0_1 h_S_) main_v20 main_c_7
  let main_v22 : IVec S_ 1 := andi main_v18 main_v21
  let main_c_8 : IVec S_ 32 := constantI S_ 32 0#32
  let main_v23 : IVec S2000000 32 := broadcastInDim S2000000 ![] bcast_S_S2000000 main_c_8
  let main_v24 : IVec S2000000 1 := cmpi .sge main_arg4 main_v23
  let main_c_9 : IVec S_ 32 := constantI S_ 32 1000#32
  let main_v25 : IVec S2000000 32 := broadcastInDim S2000000 ![] bcast_S_S2000000 main_c_9
  let main_v26 : IVec S2000000 1 := cmpi .slt main_arg4 main_v25
  let main_v27 : IVec S2000000 1 := andi main_v24 main_v26
  let main_c_10 : IVec S_ 1 := constantI S_ 1 1#1
  let main_v28 : IVec S_ 1 := (fun x v => Host.reduce IntOp.andi x v reducesTo_S2000000_S_d0 h_S_) main_v27 main_c_10
  let main_v29 : IVec S_ 1 := andi main_v22 main_v28
  main_v29

def fn {F : FTy → Type} [FloatOps F] (main_arg0 : FVec F S2000000x32 .f32) (main_arg1 : FVec F S1000x32 .f32) (main_arg2 : FVec F S1000x1 .f32) (main_arg3 : FVec F S1000x1 .f32) (main_arg4 : IVec S2000000 32) : IVec S_ 1 :=
  let main_v0 : FVec F S2000000x32 .f32 := Host.absf main_arg0
  let main_cst : FVec F S_ .f32 := constant S_ .f32 0x7F800000#32
  let main_v1 : FVec F S2000000x32 .f32 := broadcastInDim S2000000x32 ![] bcast_S_S2000000x32 main_cst
  let main_v2 : IVec S2000000x32 1 := cmpf .olt main_v0 main_v1
  let main_c : IVec S_ 1 := constantI S_ 1 1#1
  let main_v3 : IVec S_ 1 := (fun x v => Host.reduce IntOp.andi x v reducesTo_S2000000x32_S_d0_1 h_S_) main_v2 main_c
  let main_v4 : FVec F S1000x32 .f32 := Host.absf main_arg1
  let main_cst_0 : FVec F S_ .f32 := constant S_ .f32 0x7F800000#32
  let main_v5 : FVec F S1000x32 .f32 := broadcastInDim S1000x32 ![] bcast_S_S1000x32 main_cst_0
  let main_v6 : IVec S1000x32 1 := cmpf .olt main_v4 main_v5
  let main_c_1 : IVec S_ 1 := constantI S_ 1 1#1
  let main_v7 : IVec S_ 1 := (fun x v => Host.reduce IntOp.andi x v reducesTo_S1000x32_S_d0_1 h_S_) main_v6 main_c_1
  let main_v8 : IVec S_ 1 := andi main_v3 main_v7
  let main_v9 : FVec F S1000x1 .f32 := Host.absf main_arg2
  let main_cst_2 : FVec F S_ .f32 := constant S_ .f32 0x7F800000#32
  let main_v10 : FVec F S1000x1 .f32 := broadcastInDim S1000x1 ![] bcast_S_S1000x1 main_cst_2
  let main_v11 : IVec S1000x1 1 := cmpf .olt main_v9 main_v10
  let main_c_3 : IVec S_ 1 := constantI S_ 1 1#1
  let main_v12 : IVec S_ 1 := (fun x v => Host.reduce IntOp.andi x v reducesTo_S1000x1_S_d0_1 h_S_) main_v11 main_c_3
  let main_v13 : IVec S_ 1 := andi main_v8 main_v12
  let main_v14 : FVec F S1000x1 .f32 := Host.absf main_arg3
  let main_cst_4 : FVec F S_ .f32 := constant S_ .f32 0x7F800000#32
  let main_v15 : FVec F S1000x1 .f32 := broadcastInDim S1000x1 ![] bcast_S_S1000x1 main_cst_4
  let main_v16 : IVec S1000x1 1 := cmpf .olt main_v14 main_v15
  fn_part1 (F := F) main_arg3 main_arg4 main_v13 main_v16
-- ==== Kernel.lean ====
abbrev S2000000x32 : Shape := ⟨2, ![2000000, 32]⟩
abbrev S1000x32 : Shape := ⟨2, ![1000, 32]⟩
abbrev S1000x1 : Shape := ⟨2, ![1000, 1]⟩
abbrev S2000000 : Shape := ⟨1, ![2000000]⟩
abbrev S_ : Shape := ⟨0, ![]⟩
abbrev S2000000x1 : Shape := ⟨2, ![2000000, 1]⟩
abbrev S1024x32 : Shape := ⟨2, ![1024, 32]⟩
abbrev S1024x1 : Shape := ⟨2, ![1024, 1]⟩
abbrev S2x1024x32 : Shape := ⟨3, ![2, 1024, 32]⟩
abbrev S2000x32 : Shape := ⟨2, ![2000, 32]⟩
abbrev S2000x1 : Shape := ⟨2, ![2000, 1]⟩
abbrev S1x1024x32 : Shape := ⟨3, ![1, 1024, 32]⟩
abbrev S2000x1024 : Shape := ⟨2, ![2000, 1024]⟩
abbrev S2x1024x1 : Shape := ⟨3, ![2, 1024, 1]⟩
abbrev S1x1024x1 : Shape := ⟨3, ![1, 1024, 1]⟩
abbrev S2000 : Shape := ⟨1, ![2000]⟩
abbrev S1000 : Shape := ⟨1, ![1000]⟩
abbrev S1x1000 : Shape := ⟨2, ![1, 1000]⟩
abbrev S1000x1000 : Shape := ⟨2, ![1000, 1000]⟩
abbrev S32x1000 : Shape := ⟨2, ![32, 1000]⟩
abbrev S1 : Shape := ⟨1, ![1]⟩

abbrev nBuf : Space → Nat
  | .hbm => 83
  | .vmem => 17
  | .smem => 0
  | _ => 0

abbrev bufTy : (tb : Table) → Fin (tcTables nBuf tb) → BufTy
  | .hbm, ⟨0, _⟩ => ⟨S2000000x32, .f32⟩
  | .hbm, ⟨1, _⟩ => ⟨S1000x32, .f32⟩
  | .hbm, ⟨2, _⟩ => ⟨S1000x1, .f32⟩
  | .hbm, ⟨3, _⟩ => ⟨S1000x1, .f32⟩
  | .hbm, ⟨4, _⟩ => ⟨S2000000, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x1, .f32⟩
  | .hbm, ⟨14, _⟩ => ⟨S2000000x1, .i32⟩
  | .hbm, ⟨15, _⟩ => ⟨S_, .f32⟩
  | .hbm, ⟨16, _⟩ => ⟨S_, .f32⟩
  | .hbm, ⟨17, _⟩ => ⟨S1024x32, .f32⟩
  | .hbm, ⟨18, _⟩ => ⟨S_, .f32⟩
  | .hbm, ⟨19, _⟩ => ⟨S_, .f32⟩
  | .hbm, ⟨20, _⟩ => ⟨S1024x1, .f32⟩
  | .hbm, ⟨21, _⟩ => ⟨S2x1024x32, .f32⟩
  | .hbm, ⟨22, _⟩ => ⟨S1x1024x32, .f32⟩
  | .hbm, ⟨23, _⟩ => ⟨S1024x32, .f32⟩
  | .hbm, ⟨24, _⟩ => ⟨S1024x32, .f32⟩
  | .hbm, ⟨25, _⟩ => ⟨S1x1024x32, .f32⟩
  | .hbm, ⟨26, _⟩ => ⟨S1024x32, .f32⟩
  | .hbm, ⟨27, _⟩ => ⟨S1024x32, .f32⟩
  | .hbm, ⟨28, _⟩ => ⟨S2x1024x1, .f32⟩
  | .hbm, ⟨29, _⟩ => ⟨S1x1024x1, .f32⟩
  | .hbm, ⟨30, _⟩ => ⟨S1024x1, .f32⟩
  | .hbm, ⟨31, _⟩ => ⟨S1024x1, .f32⟩
  | .hbm, ⟨32, _⟩ => ⟨S1x1024x1, .f32⟩
  | .hbm, ⟨33, _⟩ => ⟨S1024x1, .f32⟩
  | .hbm, ⟨34, _⟩ => ⟨S1024x1, .f32⟩
  | .hbm, ⟨35, _⟩ => ⟨S1000x32, .f32⟩
  | .hbm, ⟨36, _⟩ => ⟨S1000x1, .f32⟩
  | .hbm, ⟨37, _⟩ => ⟨S1000x1, .f32⟩
  | .hbm, ⟨38, _⟩ => ⟨S1000x1, .f32⟩
  | .hbm, ⟨39, _⟩ => ⟨S1000, .f32⟩
  | .hbm, ⟨40, _⟩ => ⟨S1000x32, .f32⟩
  | .hbm, ⟨41, _⟩ => ⟨S_, .f32⟩
  | .hbm, ⟨42, _⟩ => ⟨S1000, .f32⟩
  | .hbm, ⟨43, _⟩ => ⟨S1000x1, .f32⟩
  | .hbm, ⟨44, _⟩ => ⟨S1x1000, .f32⟩
  | .hbm, ⟨45, _⟩ => ⟨S1000x1000, .f32⟩
  | .hbm, ⟨46, _⟩ => ⟨S1000x1000, .f32⟩
  | .hbm, ⟨47, _⟩ => ⟨S1000x1000, .f32⟩
  | .hbm, ⟨48, _⟩ => ⟨S32x1000, .f32⟩
  | .hbm, ⟨49, _⟩ => ⟨S1000x1000, .f32⟩
  | .hbm, ⟨50, _⟩ => ⟨S_, .f32⟩
  | .hbm, ⟨51, _⟩ => ⟨S1000x1000, .f32⟩
  | .hbm, ⟨52, _⟩ => ⟨S1000x1000, .f32⟩
  | .hbm, ⟨53, _⟩ => ⟨S1000x1000, .f32⟩
  | .hbm, ⟨54, _⟩ => ⟨S_, .f32⟩
  | .hbm, ⟨55, _⟩ => ⟨S1000x1000, .f32⟩
  | .hbm, ⟨56, _⟩ => ⟨S1000x1000, .f32⟩
  | .hbm, ⟨57, _⟩ => ⟨S1000x1000, .f32⟩
  | .hbm, ⟨58, _⟩ => ⟨S1000x1000, .i32⟩
  | .hbm, ⟨59, _⟩ => ⟨S1000x1000, .i32⟩
  | .hbm, ⟨60, _⟩ => ⟨S_, .i32⟩
  | .hbm, ⟨61, _⟩ => ⟨S1000x1000, .i32⟩
  | .hbm, ⟨62, _⟩ => ⟨S1000x1000, .i32⟩
  | .hbm, ⟨63, _⟩ => ⟨S1000x1000, .i1⟩
  | .hbm, ⟨64, _⟩ => ⟨S1000x1, .f32⟩
  | .hbm, ⟨65, _⟩ => ⟨S1x1000, .f32⟩
  | .hbm, ⟨66, _⟩ => ⟨S1000x1000, .f32⟩
  | .hbm, ⟨67, _⟩ => ⟨S1000x1000, .f32⟩
  | .hbm, ⟨68, _⟩ => ⟨S1000x1000, .f32⟩
  | .hbm, ⟨69, _⟩ => ⟨S_, .f32⟩
  | .hbm, ⟨70, _⟩ => ⟨S_, .f32⟩
  | .hbm, ⟨71, _⟩ => ⟨S1000x1000, .f32⟩
  | .hbm, ⟨72, _⟩ => ⟨S1000x1000, .f32⟩
  | .hbm, ⟨73, _⟩ => ⟨S1000x1000, .f32⟩
  | .hbm, ⟨74, _⟩ => ⟨S_, .f32⟩
  | .hbm, ⟨75, _⟩ => ⟨S_, .f32⟩
  | .hbm, ⟨76, _⟩ => ⟨S1000x1000, .f32⟩
  | .hbm, ⟨77, _⟩ => ⟨S1000x1000, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1, .f32⟩
  | .local _ .vmem, ⟨0, _⟩ => ⟨S2000x32, .f32⟩
  | .local _ .vmem, ⟨1, _⟩ => ⟨S2000x32, .f32⟩
  | .local _ .vmem, ⟨2, _⟩ => ⟨S2000x1, .i32⟩
  | .local _ .vmem, ⟨3, _⟩ => ⟨S2000x1, .i32⟩
  | .local _ .vmem, ⟨4, _⟩ => ⟨S2000x1, .f32⟩
  | .local _ .vmem, ⟨5, _⟩ => ⟨S2000x1, .f32⟩
  | .local _ .vmem, ⟨6, _⟩ => ⟨S1x1024x32, .f32⟩
  | .local _ .vmem, ⟨7, _⟩ => ⟨S1x1024x32, .f32⟩
  | .local _ .vmem, ⟨8, _⟩ => ⟨S2000x32, .f32⟩
  | .local _ .vmem, ⟨9, _⟩ => ⟨S2000x32, .f32⟩
  | .local _ .vmem, ⟨10, _⟩ => ⟨S2000x1, .i32⟩
  | .local _ .vmem, ⟨11, _⟩ => ⟨S2000x1, .i32⟩
  | .local _ .vmem, ⟨12, _⟩ => ⟨S2000x1, .f32⟩
  | .local _ .vmem, ⟨13, _⟩ => ⟨S2000x1, .f32⟩
  | .local _ .vmem, ⟨14, _⟩ => ⟨S1024x32, .f32⟩
  | .local _ .vmem, ⟨15, _⟩ => ⟨S1x1024x1, .f32⟩
  | .local _ .vmem, ⟨16, _⟩ => ⟨S1x1024x1, .f32⟩
  | _, _ => ⟨S2000000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_call0_v0 : Ref sig .tc := ⟨.hbm, 16, rfl⟩
abbrev main_v8 : Ref sig .tc := ⟨.hbm, 17, rfl⟩
abbrev main_cst_1 : Ref sig .tc := ⟨.hbm, 18, rfl⟩
abbrev main_call1_v0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_3 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_c_5 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_v54 : Ref sig .tc := ⟨.hbm, 72, rfl⟩
abbrev main_v55 : Ref sig .tc := ⟨.hbm, 73, rfl⟩
abbrev main_cst_7 : Ref sig .tc := ⟨.hbm, 74, rfl⟩
abbrev main_call3_v0 : Ref sig .tc := ⟨.hbm, 75, rfl⟩
abbrev main_call3_v1 : Ref sig .tc := ⟨.hbm, 76, rfl⟩
abbrev main_v56 : Ref sig .tc := ⟨.hbm, 77, rfl⟩
abbrev main_cst_8 : Ref sig .tc := ⟨.hbm, 78, rfl⟩
abbrev main_v57 : Ref sig .tc := ⟨.hbm, 79, rfl⟩
abbrev main_cst_9 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨2, ![2, 500], ![false, false]⟩

def cc0_transform_0 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![2, 500], ![false, false]⟩

def cc1_transform_0 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S1024x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  shapeCasts_S2000000_S2000000x1 : S2000000.ShapeCasts S2000000x1
  pads_S1000x32_S1024x32_0240_000 : S1000x32.Pads (![0, 0] : Fin 2 → Nat) ![24, 0] ![0, 0] S1024x32
  h_S_ : 0 < S_.numel
  pads_S1000x1_S1024x1_0240_000 : S1000x1.Pads (![0, 0] : Fin 2 → Nat) ![24, 0] ![0, 0] S1024x1
  inb_S1x1024x32_S1x1024x32_0_0_0 : ∀ a, (![0, 0, 0] : Fin 3 → Nat) a + S1x1024x32.size a ≤ S1x1024x32.size a
  h_S1x1024x32 : 0 < S1x1024x32.numel
  shapeCasts_S1x1024x32_S1024x32 : S1x1024x32.ShapeCasts S1024x32
  shapeCasts_S1024x32_S1x1024x32 : S1024x32.ShapeCasts S1x1024x32
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x1024_d1_w32 : S2000x1024.Iotas .tc 32 [1]
  broadcasts_S2000x1_S2000x1024 : S2000x1.Broadcasts S2000x1024
  natLt_1_32 : 1 < 32
  bitsLt_bf16_f32 : FTy.bits .bf16 < FTy.bits .f32
  inb_S2000x32_S2000x32_0_0 : ∀ a, (![0, 0] : Fin 2 → Nat) a + S2000x32.size a ≤ S2000x32.size a
  h_S2000x32 : 0 < S2000x32.numel
  broadcasts_S2000x1_S2000x32 : S2000x1.Broadcasts S2000x32
  slices_S2x1024x32_S1x1024x32_0_0_0 : S2x1024x32.Slices ![0, 0, 0] S1x1024x32
  slices_S2x1024x32_S1x1024x32_1_0_0 : S2x1024x32.Slices ![1, 0, 0] S1x1024x32
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  shapeCasts_S1024x1_S1x1024x1 : S1024x1.ShapeCasts S1x1024x1
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  reduces_S2000x32_S2000 : S2000x32.Reduces [1] S2000
  shapeCasts_S2000_S2000x1 : S2000.ShapeCasts S2000x1
  slices_S2x1024x1_S1x1024x1_0_0_0 : S2x1024x1.Slices ![0, 0, 0] S1x1024x1
  slices_S2x1024x1_S1x1024x1_1_0_0 : S2x1024x1.Slices ![1, 0, 0] S1x1024x1
  slices_S1024x32_S1000x32_0_0 : S1024x32.Slices ![0, 0] S1000x32
  slices_S1024x1_S1000x1_0_0 : S1024x1.Slices ![0, 0] S1000x1
  shapeCasts_S1000x1_S1000 : S1000x1.ShapeCasts S1000
  reducesTo_S1000x32_S1000_d1 : S1000x32.ReducesTo [1] S1000
  bcast_S1000_S1000x1_0 : S1000.BroadcastsInDim S1000x1 (![0] : Fin 1 → Fin S1000x1.rank)
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x32_S32x1000_1_0 : S1000x32.Transposes [1, 0] S32x1000
  bcast_S_S1000x1000 : S_.BroadcastsInDim S1000x1000 (![] : Fin 0 → Fin S1000x1000.rank)
  reducesTo_S1000x1000_S_d0_1 : S1000x1000.ReducesTo [0, 1] S_
  shapeCasts_S_S1 : S_.ShapeCasts S1
  gather_S1000x1_S2000000x1_S2000000x1_1_0_n_n_0_1_11_wf : GatherDims.WF S1000x1 S2000000x1 S2000000x1 [1] [0] [] [0] [] 1 ![1, 1]
  dot_S2000x1024_S2000x32_S1024x32_0_0_1_1_n_n_wf : DotDims.WF S2000x1024 S2000x32 S1024x32 [0] [0] [1] [1] [] []
  dot_S2000x1024_S1024x32_S2000x32_1_0_0_1_n_n_wf : DotDims.WF S2000x1024 S1024x32 S2000x32 [1] [0] [0] [1] [] []
  dot_S2000x1024_S2000x1_S1024x1_0_0_1_1_n_n_wf : DotDims.WF S2000x1024 S2000x1 S1024x1 [0] [0] [1] [1] [] []
  dot_S1000x32_S32x1000_S1000x1000_1_0_0_1_n_n_wf : DotDims.WF S1000x32 S32x1000 S1000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S2000000x32.size a
  hwx0_0 : ∀ i : grid0.Coords, EltTy.bits .f32 = 32 ∨ (Rect.block (s := S2000000x32) S2000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S2000000x1.size a
  hwx0_1 : ∀ i : grid0.Coords, EltTy.bits .i32 = 32 ∨ (Rect.block (s := S2000000x1) S2000x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S2000000x1.size a
  hwx0_2 : ∀ i : grid0.Coords, EltTy.bits .f32 = 32 ∨ (Rect.block (s := S2000000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x32.size a ≤ S2x1024x32.size a
  hwx0_3 : ∀ i : grid0.Coords, EltTy.bits .f32 = 32 ∨ (Rect.block (s := S2x1024x32) S1x1024x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S2000000x32.size a
  hwx1_0 : ∀ i : grid1.Coords, EltTy.bits .f32 = 32 ∨ (Rect.block (s := S2000000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S2000000x1.size a
  hwx1_1 : ∀ i : grid1.Coords, EltTy.bits .i32 = 32 ∨ (Rect.block (s := S2000000x1) S2000x1.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S2000000x1.size a
  hwx1_2 : ∀ i : grid1.Coords, EltTy.bits .f32 = 32 ∨ (Rect.block (s := S2000000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S1024x32.size a
  hwx1_3 : ∀ i : grid1.Coords, EltTy.bits .f32 = 32 ∨ (Rect.block (s := S1024x32) S1024x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x1.size a ≤ S2x1024x1.size a
  hwx1_4 : ∀ i : grid1.Coords, EltTy.bits .f32 = 32 ∨ (Rect.block (s := S2x1024x1) S1x1024x1.size (cc1_transform_4 i) (hinb1_4 i)).WholeWords (EltTy.packing .f32)

variable [Facts₀]

def gather_S1000x1_S2000000x1_S2000000x1_1_0_n_n_0_1_11 : GatherDims S1000x1 S2000000x1 S2000000x1 where
  offsetDims := [1]
  collapsedSliceDims := [0]
  operandBatchingDims := []
  startIndicesBatchingDims := []
  startIndexMap := [0]
  indexVectorDim := 1
  sliceSizes := ![1, 1]
  wf := gather_S1000x1_S2000000x1_S2000000x1_1_0_n_n_0_1_11_wf
def dot_S2000x1024_S2000x32_S1024x32_0_0_1_1_n_n : DotDims S2000x1024 S2000x32 S1024x32 where
  lhsContracting := [0]
  rhsContracting := [0]
  lhsNonContracting := [1]
  rhsNonContracting := [1]
  lhsBatch := []
  rhsBatch := []
  wf := dot_S2000x1024_S2000x32_S1024x32_0_0_1_1_n_n_wf
def dot_S2000x1024_S1024x32_S2000x32_1_0_0_1_n_n : DotDims S2000x1024 S1024x32 S2000x32 where
  lhsContracting := [1]
  rhsContracting := [0]
  lhsNonContracting := [0]
  rhsNonContracting := [1]
  lhsBatch := []
  rhsBatch := []
  wf := dot_S2000x1024_S1024x32_S2000x32_1_0_0_1_n_n_wf
def dot_S2000x1024_S2000x1_S1024x1_0_0_1_1_n_n : DotDims S2000x1024 S2000x1 S1024x1 where
  lhsContracting := [0]
  rhsContracting := [0]
  lhsNonContracting := [1]
  rhsNonContracting := [1]
  lhsBatch := []
  rhsBatch := []
  wf := dot_S2000x1024_S2000x1_S1024x1_0_0_1_1_n_n_wf
def dot_S1000x32_S32x1000_S1000x1000_1_0_0_1_n_n : DotDims S1000x32 S32x1000 S1000x1000 where
  lhsContracting := [1]
  rhsContracting := [0]
  lhsNonContracting := [0]
  rhsNonContracting := [1]
  lhsBatch := []
  rhsBatch := []
  wf := dot_S1000x32_S32x1000_S1000x1000_1_0_0_1_n_n_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1024x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2000000x32 : Shape := ⟨2, ![2000000, 32]⟩
abbrev S1000x32 : Shape := ⟨2, ![1000, 32]⟩
abbrev S1000x1 : Shape := ⟨2, ![1000, 1]⟩
abbrev S2000000 : Shape := ⟨1, ![2000000]⟩
abbrev S_ : Shape := ⟨0, ![]⟩
abbrev S2000000x1 : Shape := ⟨2, ![2000000, 1]⟩
abbrev S1000 : Shape := ⟨1, ![1000]⟩
abbrev S1x1000 : Shape := ⟨2, ![1, 1000]⟩
abbrev S1000x1000 : Shape := ⟨2, ![1000, 1000]⟩
abbrev S32x1000 : Shape := ⟨2, ![32, 1000]⟩
abbrev S1 : Shape := ⟨1, ![1]⟩

abbrev nBuf : Space → Nat
  | .hbm => 95
  | .vmem => 0
  | .smem => 0
  | _ => 0

abbrev bufTy : (tb : Table) → Fin (tcTables nBuf tb) → BufTy
  | .hbm, ⟨0, _⟩ => ⟨S2000000x32, .f32⟩
  | .hbm, ⟨1, _⟩ => ⟨S1000x32, .f32⟩
  | .hbm, ⟨2, _⟩ => ⟨S1000x1, .f32⟩
  | .hbm, ⟨3, _⟩ => ⟨S1000x1, .f32⟩
  | .hbm, ⟨4, _⟩ => ⟨S2000000, .i32⟩
  | .hbm, ⟨5, _⟩ => ⟨S_, .i32⟩
  | .hbm, ⟨6, _⟩ => ⟨S2000000, .i32⟩
  | .hbm, ⟨7, _⟩ => ⟨S2000000, .i1⟩
  | .hbm, ⟨8, _⟩ => ⟨S_, .i32⟩
  | .hbm, ⟨9, _⟩ => ⟨S2000000, .i32⟩
  | .hbm, ⟨10, _⟩ => ⟨S2000000, .i32⟩
  | .hbm, ⟨11, _⟩ => ⟨S2000000, .i32⟩
  | .hbm, ⟨12, _⟩ => ⟨S2000000x1, .i32⟩
  | .hbm, ⟨13, _⟩ => ⟨S2000000x1, .f32⟩
  | .hbm, ⟨14, _⟩ => ⟨S2000000x32, .f32⟩
  | .hbm, ⟨15, _⟩ => ⟨S2000000x32, .f32⟩
  | .hbm, ⟨16, _⟩ => ⟨S_, .i32⟩
  | .hbm, ⟨17, _⟩ => ⟨S2000000, .i32⟩
  | .hbm, ⟨18, _⟩ => ⟨S2000000, .i1⟩
  | .hbm, ⟨19, _⟩ => ⟨S_, .i32⟩
  | .hbm, ⟨20, _⟩ => ⟨S2000000, .i32⟩
  | .hbm, ⟨21, _⟩ => ⟨S2000000, .i32⟩
  | .hbm, ⟨22, _⟩ => ⟨S2000000, .i32⟩
  | .hbm, ⟨23, _⟩ => ⟨S2000000x1, .i32⟩
  | .hbm, ⟨24, _⟩ => ⟨S1000x32, .f32⟩
  | .hbm, ⟨25, _⟩ => ⟨S_, .i32⟩
  | .hbm, ⟨26, _⟩ => ⟨S2000000, .i32⟩
  | .hbm, ⟨27, _⟩ => ⟨S2000000, .i1⟩
  | .hbm, ⟨28, _⟩ => ⟨S_, .i32⟩
  | .hbm, ⟨29, _⟩ => ⟨S2000000, .i32⟩
  | .hbm, ⟨30, _⟩ => ⟨S2000000, .i32⟩
  | .hbm, ⟨31, _⟩ => ⟨S2000000, .i32⟩
  | .hbm, ⟨32, _⟩ => ⟨S2000000x1, .i32⟩
  | .hbm, ⟨33, _⟩ => ⟨S2000000x32, .f32⟩
  | .hbm, ⟨34, _⟩ => ⟨S2000000x32, .f32⟩
  | .hbm, ⟨35, _⟩ => ⟨S2000000x32, .f32⟩
  | .hbm, ⟨36, _⟩ => ⟨S_, .f32⟩
  | .hbm, ⟨37, _⟩ => ⟨S2000000, .f32⟩
  | .hbm, ⟨38, _⟩ => ⟨S2000000, .f32⟩
  | .hbm, ⟨39, _⟩ => ⟨S2000000x1, .f32⟩
  | .hbm, ⟨40, _⟩ => ⟨S_, .i32⟩
  | .hbm, ⟨41, _⟩ => ⟨S2000000, .i32⟩
  | .hbm, ⟨42, _⟩ => ⟨S2000000, .i1⟩
  | .hbm, ⟨43, _⟩ => ⟨S_, .i32⟩
  | .hbm, ⟨44, _⟩ => ⟨S2000000, .i32⟩
  | .hbm, ⟨45, _⟩ => ⟨S2000000, .i32⟩
  | .hbm, ⟨46, _⟩ => ⟨S2000000, .i32⟩
  | .hbm, ⟨47, _⟩ => ⟨S2000000x1, .i32⟩
  | .hbm, ⟨48, _⟩ => ⟨S1000x1, .f32⟩
  | .hbm, ⟨49, _⟩ => ⟨S1000x1, .f32⟩
  | .hbm, ⟨50, _⟩ => ⟨S1000x1, .f32⟩
  | .hbm, ⟨51, _⟩ => ⟨S1000, .f32⟩
  | .hbm, ⟨52, _⟩ => ⟨S1000x32, .f32⟩
  | .hbm, ⟨53, _⟩ => ⟨S_, .f32⟩
  | .hbm, ⟨54, _⟩ => ⟨S1000, .f32⟩
  | .hbm, ⟨55, _⟩ => ⟨S1000x1, .f32⟩
  | .hbm, ⟨56, _⟩ => ⟨S1x1000, .f32⟩
  | .hbm, ⟨57, _⟩ => ⟨S1000x1000, .f32⟩
  | .hbm, ⟨58, _⟩ => ⟨S1000x1000, .f32⟩
  | .hbm, ⟨59, _⟩ => ⟨S1000x1000, .f32⟩
  | .hbm, ⟨60, _⟩ => ⟨S32x1000, .f32⟩
  | .hbm, ⟨61, _⟩ => ⟨S1000x1000, .f32⟩
  | .hbm, ⟨62, _⟩ => ⟨S_, .f32⟩
  | .hbm, ⟨63, _⟩ => ⟨S1000x1000, .f32⟩
  | .hbm, ⟨64, _⟩ => ⟨S1000x1000, .f32⟩
  | .hbm, ⟨65, _⟩ => ⟨S1000x1000, .f32⟩
  | .hbm, ⟨66, _⟩ => ⟨S_, .f32⟩
  | .hbm, ⟨67, _⟩ => ⟨S1000x1000, .f32⟩
  | .hbm, ⟨68, _⟩ => ⟨S1000x1000, .f32⟩
  | .hbm, ⟨69, _⟩ => ⟨S1000x1000, .f32⟩
  | .hbm, ⟨70, _⟩ => ⟨S1000x1000, .i32⟩
  | .hbm, ⟨71, _⟩ => ⟨S1000x1000, .i32⟩
  | .hbm, ⟨72, _⟩ => ⟨S_, .i32⟩
  | .hbm, ⟨73, _⟩ => ⟨S1000x1000, .i32⟩
  | .hbm, ⟨74, _⟩ => ⟨S1000x1000, .i32⟩
  | .hbm, ⟨75, _⟩ => ⟨S1000x1000, .i1⟩
  | .hbm, ⟨76, _⟩ => ⟨S1000x1, .f32⟩
  | .hbm, ⟨77, _⟩ => ⟨S1x1000, .f32⟩
  | .hbm, ⟨78, _⟩ => ⟨S1000x1000, .f32⟩
  | .hbm, ⟨79, _⟩ => ⟨S1000x1000, .f32⟩
  | .hbm, ⟨80, _⟩ => ⟨S1000x1000, .f32⟩
  | .hbm, ⟨81, _⟩ => ⟨S_, .f32⟩
  | .hbm, ⟨82, _⟩ => ⟨S_, .f32⟩
  | .hbm, ⟨83, _⟩ => ⟨S1000x1000, .f32⟩
  | .hbm, ⟨84, _⟩ => ⟨S1000x1000, .f32⟩
  | .hbm, ⟨85, _⟩ => ⟨S1000x1000, .f32⟩
  | .hbm, ⟨86, _⟩ => ⟨S_, .f32⟩
  | .hbm, ⟨87, _⟩ => ⟨S_, .f32⟩
  | .hbm, ⟨88, _⟩ => ⟨S1000x1000, .f32⟩
  | .hbm, ⟨89, _⟩ => ⟨S1000x1000, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S1, .f32⟩
  | _, _ => ⟨S2000000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_1 : Ref sig .tc := ⟨.hbm, 16, rfl⟩
abbrev main_v9 : Ref sig .tc := ⟨.hbm, 17, rfl⟩
abbrev main_v10 : Ref sig .tc := ⟨.hbm, 18, rfl⟩
abbrev main_c_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_cst : Ref sig .tc := ⟨.hbm, 36, rfl⟩
abbrev main_call0_v1 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_8 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_cst_10 : Ref sig .tc := ⟨.hbm, 81, rfl⟩
abbrev main_call1_v0 : Ref sig .tc := ⟨.hbm, 82, rfl⟩
abbrev main_call1_v1 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_call2_v0 : Ref sig .tc := ⟨.hbm, 87, rfl⟩
abbrev main_call2_v1 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_cst_13 : Ref sig .tc := ⟨.hbm, 92, rfl⟩
abbrev main_v65 : Ref sig .tc := ⟨.hbm, 93, rfl⟩
abbrev main_v66 : Ref sig .tc := ⟨.hbm, 94, rfl⟩

abbrev nD : Nat := 1
abbrev τ : Topo := Topo.v7x

variable {F : FTy → Type} [FloatOps F]

class Facts₀ : Prop where
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S2000000x1_S2000000x32_0_1 : S2000000x1.BroadcastsInDim S2000000x32 (![0, 1] : Fin 2 → Fin S2000000x32.rank)
  reducesTo_S2000000x32_S2000000_d1 : S2000000x32.ReducesTo [1] S2000000
  h_S_ : 0 < S_.numel
  shapeCasts_S1000x1_S1000 : S1000x1.ShapeCasts S1000
  reducesTo_S1000x32_S1000_d1 : S1000x32.ReducesTo [1] S1000
  bcast_S1000_S1000x1_0 : S1000.BroadcastsInDim S1000x1 (![0] : Fin 1 → Fin S1000x1.rank)
  bcast_S1000_S1x1000_1 : S1000.BroadcastsInDim S1x1000 (![1] : Fin 1 → Fin S1x1000.rank)
  bcast_S1000x1_S1000x1000_0_1 : S1000x1.BroadcastsInDim S1000x1000 (![0, 1] : Fin 2 → Fin S1000x1000.rank)
  bcast_S1x1000_S1000x1000_0_1 : S1x1000.BroadcastsInDim S1000x1000 (![0, 1] : Fin 2 → Fin S1000x1000.rank)
  transposes_S1000x32_S32x1000_1_0 : S1000x32.Transposes [1, 0] S32x1000
  bcast_S_S1000x1000 : S_.BroadcastsInDim S1000x1000 (![] : Fin 0 → Fin S1000x1000.rank)
  reducesTo_S1000x1000_S_d0_1 : S1000x1000.ReducesTo [0, 1] S_
  shapeCasts_S_S1 : S_.ShapeCasts S1
  gather_S1000x1_S2000000x1_S2000000x1_1_0_n_n_0_1_11_wf : GatherDims.WF S1000x1 S2000000x1 S2000000x1 [1] [0] [] [0] [] 1 ![1, 1]
  scatter_S1000x32_S2000000x1_S2000000x32_1_0_0_1_wf : ScatterDims.WF S1000x32 S2000000x1 S2000000x32 [1] [0] [0] 1
  gather_S1000x32_S2000000x1_S2000000x32_1_0_n_n_0_1_132_wf : GatherDims.WF S1000x32 S2000000x1 S2000000x32 [1] [0] [] [0] [] 1 ![1, 32]
  scatter_S1000x1_S2000000x1_S2000000x1_1_0_0_1_wf : ScatterDims.WF S1000x1 S2000000x1 S2000000x1 [1] [0] [0] 1
  dot_S1000x32_S32x1000_S1000x1000_1_0_0_1_n_n_wf : DotDims.WF S1000x32 S32x1000 S1000x1000 [1] [0] [0] [1] [] []

variable [Facts₀]

def gather_S1000x1_S2000000x1_S2000000x1_1_0_n_n_0_1_11 : GatherDims S1000x1 S2000000x1 S2000000x1 where
  offsetDims := [1]
  collapsedSliceDims := [0]
  operandBatchingDims := []
  startIndicesBatchingDims := []
  startIndexMap := [0]
  indexVectorDim := 1
  sliceSizes := ![1, 1]
  wf := gather_S1000x1_S2000000x1_S2000000x1_1_0_n_n_0_1_11_wf
def scatter_S1000x32_S2000000x1_S2000000x32_1_0_0_1 : ScatterDims S1000x32 S2000000x1 S2000000x32 where
  updateWindowDims := [1]
  insertedWindowDims := [0]
  scatterDimsToOperandDims := [0]
  indexVectorDim := 1
  wf := scatter_S1000x32_S2000000x1_S2000000x32_1_0_0_1_wf
def gather_S1000x32_S2000000x1_S2000000x32_1_0_n_n_0_1_132 : GatherDims S1000x32 S2000000x1 S2000000x32 where
  offsetDims := [1]
  collapsedSliceDims := [0]
  operandBatchingDims := []
  startIndicesBatchingDims := []
  startIndexMap := [0]
  indexVectorDim := 1
  sliceSizes := ![1, 32]
  wf := gather_S1000x32_S2000000x1_S2000000x32_1_0_n_n_0_1_132_wf
def scatter_S1000x1_S2000000x1_S2000000x1_1_0_0_1 : ScatterDims S1000x1 S2000000x1 S2000000x1 where
  updateWindowDims := [1]
  insertedWindowDims := [0]
  scatterDimsToOperandDims := [0]
  indexVectorDim := 1
  wf := scatter_S1000x1_S2000000x1_S2000000x1_1_0_0_1_wf
def dot_S1000x32_S32x1000_S1000x1000_1_0_0_1_n_n : DotDims S1000x32 S32x1000 S1000x1000 where
  lhsContracting := [1]
  rhsContracting := [0]
  lhsNonContracting := [0]
  rhsNonContracting := [1]
  lhsBatch := []
  rhsBatch := []
  wf := dot_S1000x32_S32x1000_S1000x1000_1_0_0_1_n_n_wf

class Facts : Prop extends Facts₀ where

variable [Facts]
-- ==== Proof.PreRead.lean ====
/-
  What the precondition says, read off its printed form: it is the conjunction, over all entries, of
  "every float entry is finite", "every entry of the classes' numbers is at least one" and "every class word,
  read signed, is at least 0 and below 1000". Of these the proof of the value claim uses the last two.
-/
import proofs.«400231_j59957743452612_2_alg».proof.Pre_finite_inputs
import Idealize.ShloMosaic.PureOps.Ideal
import Idealize.ShloMosaic.Lib.ReduceAll
import Idealize.ShloMosaic.Lib.StableHlo.Predicate
import Idealize.ShloMosaic.Lib.ValueIdx
import Idealize.ShloMosaic.Lib.ValueIdxRank1

noncomputable section

namespace Cert.PreRead

open Idealize.ShloMosaic Idealize.ShloMosaic.ValueIdx Cert.Pre_finite_inputs

variable [Cert.Pre_finite_inputs.Facts]

/-- The scalar shape has one index. -/
private instance subsingleton_scalar_idx : Subsingleton S_.Idx := ⟨fun a b => funext fun d => d.elim0⟩

private theorem toInt_zero32 : (0#32 : BitVec 32).toInt = 0 := by decide

private theorem toInt_thousand32 : (1000#32 : BitVec 32).toInt = 1000 := by decide

/-- Under the precondition every class's number is at least the word of 1.0, and every class word reads, signed,
    as a number from 0 to 999. -/
theorem of_pre (a0 : FVec Ideal S2000000x32 .f32) (a1 : FVec Ideal S1000x32 .f32) (a2 a3 : FVec Ideal S1000x1 .f32)
    (a4 : IVec S2000000 32) (h : Cert.Pre_finite_inputs.fn (F := Ideal) a0 a1 a2 a3 a4 = fun _ => 1#1) :
    (∀ r : Fin 1000, (Ideal.ofBits .f32 0x3F800000#32 : EReal) ≤ (a3 (ix2 r 0) : EReal))
      ∧ (∀ e : Fin 2000000, 0 ≤ (a4 (ix1 e)).toInt ∧ (a4 (ix1 e)).toInt < 1000) := by
  -- the predicate at its one index is a chain of one-bit conjunctions: split off the last two conjuncts
  have h0 := congrFun h ix0
  dsimp only [fn, fn_part1, Idealize.ShloMosaic.andi] at h0
  obtain ⟨h22, h28⟩ := IntOp.andi_eq_one.1 h0
  obtain ⟨_, h21⟩ := IntOp.andi_eq_one.1 h22
  clear h0 h22 h
  constructor
  · -- the conjunction over all entries of "the entry is at least the constant"
    intro r
    have h1 := Host.reduce_andi_all _ _ _ _ _ h21 (ix2 r 0)
    have h2 : Ideal.cmp .oge (a3 (ix2 r 0)) (Ideal.ofBits .f32 0x3F800000#32) = 1#1 := h1
    simp only [Ideal.cmp, StableHlo.Predicate.ofBool_eq_one_iff, decide_eq_true_eq] at h2
    exact h2
  · -- the conjunction over all entries of "the word is at least 0 and below 1000", read signed
    intro e
    have h1 := Host.reduce_andi_all _ _ _ _ _ h28 (ix1 e)
    obtain ⟨hge, hlt⟩ := IntOp.andi_eq_one.1 h1
    have hge' : IntOp.cmpi .sge (a4 (ix1 e)) 0#32 = 1#1 := hge
    have hlt' : IntOp.cmpi .slt (a4 (ix1 e)) 1000#32 = 1#1 := hlt
    rw [IntOp.cmpi_sge, toInt_zero32] at hge'
    rw [IntOp.cmpi_slt, toInt_thousand32] at hlt'
    exact ⟨hge', hlt'⟩

end Cert.PreRead

end
-- ==== Proof.Spec.lean ====
/-
  The mathematics both programs compute, over the extended reals, index by index.

  Two million points e, each with a class word tgt e and a row pred e of 32 numbers; a thousand classes r, each
  with a row cen r, a number dist r and a number cnt r.
    contrib e d = pred e d / cnt (row e)                       (the point's row divided by its class's number)
    cent2 r d   = cen r d + sum over e of class r of contrib e d   (the classes' rows, each moved by its points)
    vec e       = sqrt (sum over d of (cent2 (row e) d - contrib e d)^2)  (the point's distance to its class's moved row)
    spread r    = dist r + sum over e of class r of vec e
  The sums over the points of class r are taken in two ways: filtered out of all the points at once, or block by
  block (a thousand blocks of two thousand consecutive points, each point weighted one or zero, the blocks' totals
  added up in two halves of five hundred). Addition of extended reals is commutative and associative and a zero
  term adds nothing, so the two ways agree (halves_eq_filter); no finiteness is used.
-/
import Idealize.ShloMosaic.PureOps.Ideal
import Idealize.ShloMosaic.Lib.ValueIdx
import Idealize.ShloMosaic.Lib.ValueIdxRank1

noncomputable section

open scoped BigOperators

namespace Cert.Spec

open Idealize.ShloMosaic Idealize.ShloMosaic.ValueIdx

/-- Point n of block t: blocks are runs of two thousand consecutive points. -/
def pt (t : Fin 1000) (n : Fin 2000) : Fin 2000000 := ⟨2000 * t.val + n.val, by omega⟩

/-- Block j of half k: the first half is blocks 0 to 499, the second 500 to 999. -/
def blk (k : Fin 2) (j : Fin 500) : Fin 1000 := ⟨500 * k.val + j.val, by omega⟩

variable (pred : (⟨2, ![2000000, 32]⟩ : Shape).Idx → EReal) (cen : (⟨2, ![1000, 32]⟩ : Shape).Idx → EReal)
  (dist cnt : (⟨2, ![1000, 1]⟩ : Shape).Idx → EReal) (tgt : (⟨1, ![2000000]⟩ : Shape).Idx → BitVec 32)

/-- The table row a point's class word selects: the word read signed, a negative word sent to row 0, clipped to the
    last row. -/
def row (e : Fin 2000000) : Fin 1000 := ⟨min (tgt (ix1 e)).toInt.toNat 999, Nat.lt_succ_of_le (min_le_right _ _)⟩

/-- A point's row divided by its class's number. -/
def contrib (e : Fin 2000000) (d : Fin 32) : EReal := Ideal.div (pred (ix2 e d)) (cnt (ix2 (row tgt e) 0))

/-- The points of class r: those whose class word, read signed, is r. -/
def members (r : ℕ) : Finset (Fin 2000000) := Finset.univ.filter fun e => (tgt (ix1 e)).toInt = (r : ℤ)

/-- A class's row moved by the contributions of its points. -/
def cent2 (r : Fin 1000) (d : Fin 32) : EReal := cen (ix2 r d) + ∑ e ∈ members tgt r.val, contrib pred cnt tgt e d

/-- A point's distance from its class's moved row. -/
def vec (e : Fin 2000000) : EReal :=
  Ideal.sqrt (∑ d : Fin 32, (cent2 pred cen cnt tgt (row tgt e) d - contrib pred cnt tgt e d)
    * (cent2 pred cen cnt tgt (row tgt e) d - contrib pred cnt tgt e d))

/-- A class's number moved by the distances of its points. -/
def spread (r : Fin 1000) : EReal := dist (ix2 r 0) + ∑ e ∈ members tgt r.val, vec pred cen cnt tgt e

/-! ## The same sums block by block -/

/-- Block t's total of f over its points of class word r (a point of another class adds zero). -/
def blockSum (f : Fin 2000000 → EReal) (t : Fin 1000) (r : ℕ) : EReal :=
  ∑ n : Fin 2000, if tgt (ix1 (pt t n)) = BitVec.ofNat 32 r then f (pt t n) else 0

/-- Half k's total: its five hundred blocks' totals. -/
def halfSum (f : Fin 2000000 → EReal) (k : Fin 2) (r : ℕ) : EReal := ∑ j : Fin 500, blockSum tgt f (blk k j) r

/-- A class word equals the 32-bit word of r < 2^31 exactly when it reads r signed. -/
theorem eq_ofNat_iff (w : BitVec 32) (r : ℕ) (hr : r < 2147483648) : w = BitVec.ofNat 32 r ↔ w.toInt = (r : ℤ) := by
  have hw := w.isLt
  constructor
  · rintro rfl
    rw [BitVec.toInt_eq_toNat_cond]
    simp only [BitVec.toNat_ofNat]
    have hmod : r % 2 ^ 32 = r := Nat.mod_eq_of_lt (by omega)
    rw [hmod]
    split <;> omega
  · intro h
    apply BitVec.eq_of_toNat_eq
    rw [BitVec.toInt_eq_toNat_cond] at h
    simp only [BitVec.toNat_ofNat]
    have hmod : r % 2 ^ 32 = r := Nat.mod_eq_of_lt (by omega)
    rw [hmod]
    split at h <;> omega

/-- The points, re-indexed as (block, place in the block): e = 2000 t + n with t = e / 2000 and n = e % 2000. -/
private def ptEquiv : Fin 1000 × Fin 2000 ≃ Fin 2000000 where
  toFun p := pt p.1 p.2
  invFun e := (⟨e.val / 2000, by have := e.isLt; omega⟩, ⟨e.val % 2000, Nat.mod_lt _ (by norm_num)⟩)
  left_inv := by
    rintro ⟨t, n⟩
    have ht := t.isLt
    have hn := n.isLt
    refine Prod.ext (Fin.ext ?_) (Fin.ext ?_)
    · show (2000 * t.val + n.val) / 2000 = t.val
      omega
    · show (2000 * t.val + n.val) % 2000 = n.val
      omega
  right_inv := by
    intro e
    apply Fin.ext
    show 2000 * (e.val / 2000) + e.val % 2000 = e.val
    omega

/-- The blocks, re-indexed as (half, place in the half): t = 500 k + j with k = t / 500 and j = t % 500. -/
private def blkEquiv : Fin 2 × Fin 500 ≃ Fin 1000 where
  toFun p := blk p.1 p.2
  invFun t := (⟨t.val / 500, by have := t.isLt; omega⟩, ⟨t.val % 500, Nat.mod_lt _ (by norm_num)⟩)
  left_inv := by
    rintro ⟨k, j⟩
    have hk := k.isLt
    have hj := j.isLt
    refine Prod.ext (Fin.ext ?_) (Fin.ext ?_)
    · show (500 * k.val + j.val) / 500 = k.val
      omega
    · show (500 * k.val + j.val) % 500 = j.val
      omega
  right_inv := by
    intro t
    apply Fin.ext
    show 500 * (t.val / 500) + t.val % 500 = t.val
    omega

/-- The two halves' totals are the total over the class's points, whatever is added in front. -/
theorem halves_eq_filter (f : Fin 2000000 → EReal) (r : ℕ) (hr : r < 2147483648) (x : EReal) :
    x + halfSum tgt f 0 r + halfSum tgt f 1 r = x + ∑ e ∈ members tgt r, f e := by
  rw [add_assoc]
  refine congrArg (fun y => x + y) ?_
  have hfilter : ∑ e ∈ members tgt r, f e
      = ∑ e : Fin 2000000, if tgt (ix1 e) = BitVec.ofNat 32 r then f e else 0 := by
    unfold members
    rw [Finset.sum_filter]
    refine Finset.sum_congr rfl fun e _ => ?_
    exact if_congr (eq_ofNat_iff _ r hr).symm rfl rfl
  rw [hfilter, ← Equiv.sum_comp ptEquiv, Fintype.sum_prod_type, ← Equiv.sum_comp blkEquiv,
    Fintype.sum_prod_type, Fin.sum_univ_two]
  rfl

/-- A class word in range selects its own row. -/
theorem row_of_range (e : Fin 2000000) (h0 : 0 ≤ (tgt (ix1 e)).toInt) (h1 : (tgt (ix1 e)).toInt < 1000) :
    ((row tgt e).val : ℤ) = (tgt (ix1 e)).toInt := by
  show ((min (tgt (ix1 e)).toInt.toNat 999 : ℕ) : ℤ) = (tgt (ix1 e)).toInt
  have hle : (tgt (ix1 e)).toInt.toNat ≤ 999 := by omega
  rw [min_eq_left hle]
  exact Int.toNat_of_nonneg h0

/-- One point weighted by "its class word is r'", summed over all r' < 1024, picks the point's own row, when the
    class word is in range. -/
theorem sum_onehot_pick (g : Fin 1024 → EReal) (e : Fin 2000000) (h0 : 0 ≤ (tgt (ix1 e)).toInt)
    (h1 : (tgt (ix1 e)).toInt < 1000) :
    (∑ r' : Fin 1024, if tgt (ix1 e) = BitVec.ofNat 32 r'.val then g r' else 0)
      = g ⟨(row tgt e).val, by have := (row tgt e).isLt; omega⟩ := by
  have hrow := row_of_range tgt e h0 h1
  have hlt := (row tgt e).isLt
  rw [Finset.sum_eq_single (⟨(row tgt e).val, by omega⟩ : Fin 1024)]
  · rw [if_pos]
    exact (eq_ofNat_iff _ _ (by omega)).mpr hrow.symm
  · intro b _ hb
    rw [if_neg]
    intro h
    apply hb
    have hb' := (eq_ofNat_iff _ _ (by have := b.isLt; omega)).mp h
    apply Fin.ext
    show b.val = (row tgt e).val
    omega
  · intro h
    exact absurd (Finset.mem_univ _) h

end Cert.Spec

end
-- ==== Proof.HostB.lean ====
/-
  The end of the program, after the second accumulation: the table of spreads is the third argument padded with 24
  zero rows, plus the first half's table, plus the second half's table of the second accumulation's result; the
  first thousand rows of the table of moved rows and of the table of spreads are kept; and the result is a fixed
  function tailK of those two thousand-row tables and of the fourth argument (square roots, the pairwise distances
  between moved rows, the ratios off the diagonal, their mean), which this module names and never opens.
-/
import proofs.«400231_j59957743452612_2_alg».proof.Proof.Gen.KernelIdeal.Frame
import proofs.«400231_j59957743452612_2_alg».proof.Proof.Spec
import Idealize.ShloMosaic.Lib.Pipeline.Value
import Idealize.ShloMosaic.Lib.StableHlo.Run
import Idealize.ShloMosaic.Lib.ValueIdx
import Idealize.ShloMosaic.Lib.ValueLayout
import Idealize.ShloMosaic.Lib.KernelVsHost
import Idealize.ShloMosaic.PureOps.Ideal.Laws
import Idealize.ShloMosaic.Lib.Tactic

noncomputable section

open scoped BigOperators

namespace Cert.KernelIdeal.HostB

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The third and fourth arguments on core c, as plain arrays. -/
abbrev distM (c : Dev nD) : S1000x1.Idx → EReal := m ((c.tc : Thread nD τ).loc main_arg2)
abbrev cntM (c : Dev nD) : S1000x1.Idx → EReal := m ((c.tc : Thread nD τ).loc main_arg3)

/-- The second accumulation's result array. -/
abbrev O1 (c : Dev nD) : S2x1024x1.Idx → EReal := (dat1 (F := Ideal) (V6 m ρ) c).arrAt 4 cfg1.N

/-- The end of the program as one function of the thousand moved rows, the thousand spreads and the classes' numbers:
    the host operations from the square root of the spreads to the result, in the program's order. -/
def tailK (cent2 : FVec Ideal S1000x32 .f32) (s : FVec Ideal S1000x1 .f32) (cnt : FVec Ideal S1000x1 .f32) :
    FVec Ideal S1 .f32 :=
  let v26 : FVec Ideal S1000x1 .f32 := Host.sqrt (F := Ideal) s
  let v27 : FVec Ideal S1000x1 .f32 := Host.divf (F := Ideal) v26 cnt
  let v28 : FVec Ideal S1000 .f32 := shapeCast S1000 v27 shapeCasts_S1000x1_S1000
  let v29 : FVec Ideal S1000x32 .f32 := mulf (F := Ideal) cent2 cent2
  let cst2 : FVec Ideal S_ .f32 := constant (F := Ideal) S_ .f32 0x00000000#32
  let v30 : FVec Ideal S1000 .f32 := Host.reduceAdd (F := Ideal) v29 cst2 reducesTo_S1000x32_S1000_d1 h_S_
  let v31 : FVec Ideal S1000x1 .f32 := broadcastInDim S1000x1 ![0] bcast_S1000_S1000x1_0 v30
  let v32 : FVec Ideal S1x1000 .f32 := broadcastInDim S1x1000 ![1] bcast_S1000_S1x1000_1 v30
  let v33 : FVec Ideal S1000x1000 .f32 := broadcastInDim S1000x1000 ![0, 1] bcast_S1000x1_S1000x1000_0_1 v31
  let v34 : FVec Ideal S1000x1000 .f32 := broadcastInDim S1000x1000 ![0, 1] bcast_S1x1000_S1000x1000_0_1 v32
  let v35 : FVec Ideal S1000x1000 .f32 := addf (F := Ideal) v33 v34
  let v36 : FVec Ideal S32x1000 .f32 := transpose S32x1000 [1, 0] cent2 transposes_S1000x32_S32x1000_1_0
  let v37 : FVec Ideal S1000x1000 .f32 := Host.dotGeneral (F := Ideal) dot_S1000x32_S32x1000_S1000x1000_1_0_0_1_n_n none cent2 v36
  let cst3 : FVec Ideal S_ .f32 := constant (F := Ideal) S_ .f32 0x40000000#32
  let v38 : FVec Ideal S1000x1000 .f32 := broadcastInDim S1000x1000 ![] bcast_S_S1000x1000 cst3
  let v39 : FVec Ideal S1000x1000 .f32 := mulf (F := Ideal) v38 v37
  let v40 : FVec Ideal S1000x1000 .f32 := subf (F := Ideal) v35 v39
  let cst4 : FVec Ideal S_ .f32 := constant (F := Ideal) S_ .f32 0x00000000#32
  let v41 : FVec Ideal S1000x1000 .f32 := broadcastInDim S1000x1000 ![] bcast_S_S1000x1000 cst4
  let v42 : FVec Ideal S1000x1000 .f32 := maximumf (F := Ideal) v40 v41
  let v43 : FVec Ideal S1000x1000 .f32 := Host.sqrt (F := Ideal) v42
  let v44 : IVec S1000x1000 32 := iotaInDim S1000x1000 32 0
  let v45 : IVec S1000x1000 32 := iotaInDim S1000x1000 32 1
  let c5 : IVec S_ 32 := constantI S_ 32 0#32
  let v46 : IVec S1000x1000 32 := broadcastInDim S1000x1000 ![] bcast_S_S1000x1000 c5
  let v47 : IVec S1000x1000 32 := addi v44 v46
  let v48 : IVec S1000x1000 1 := cmpi .eq v47 v45
  let v49 : FVec Ideal S1000x1 .f32 := broadcastInDim S1000x1 ![0] bcast_S1000_S1000x1_0 v28
  let v50 : FVec Ideal S1x1000 .f32 := broadcastInDim S1x1000 ![1] bcast_S1000_S1x1000_1 v28
  let v51 : FVec Ideal S1000x1000 .f32 := broadcastInDim S1000x1000 ![0, 1] bcast_S1000x1_S1000x1000_0_1 v49
  let v52 : FVec Ideal S1000x1000 .f32 := broadcastInDim S1000x1000 ![0, 1] bcast_S1x1000_S1000x1000_0_1 v50
  let v53 : FVec Ideal S1000x1000 .f32 := addf (F := Ideal) v51 v52
  let cst6 : FVec Ideal S_ .f32 := constant (F := Ideal) S_ .f32 0x3F800000#32
  let w0 : FVec Ideal S_ .f32 := id cst6
  let w1 : FVec Ideal S1000x1000 .f32 := broadcastInDim S1000x1000 ![] bcast_S_S1000x1000 w0
  let v54 : FVec Ideal S1000x1000 .f32 := select v48 w1 v43
  let v55 : FVec Ideal S1000x1000 .f32 := Host.divf (F := Ideal) v53 v54
  let cst7 : FVec Ideal S_ .f32 := constant (F := Ideal) S_ .f32 0x00000000#32
  let u0 : FVec Ideal S_ .f32 := id cst7
  let u1 : FVec Ideal S1000x1000 .f32 := broadcastInDim S1000x1000 ![] bcast_S_S1000x1000 u0
  let v56 : FVec Ideal S1000x1000 .f32 := select v48 u1 v55
  let cst8 : FVec Ideal S_ .f32 := constant (F := Ideal) S_ .f32 0x00000000#32
  let v57 : FVec Ideal S_ .f32 := Host.reduceAdd (F := Ideal) v56 cst8 reducesTo_S1000x1000_S_d0_1 h_S_
  let cst9 : FVec Ideal S_ .f32 := constant (F := Ideal) S_ .f32 0x447A0000#32
  let v58 : FVec Ideal S_ .f32 := Host.divf (F := Ideal) v57 cst9
  shapeCast S1 v58 shapeCasts_S_S1

/-- The first thousand rows of the table of moved rows the second accumulation read. -/
def cent2K (m : (ℓ : Loc nD τ sig) → Buf (Elt Ideal) ℓ) (ρ : Dev nD → PrngReg) (c : Dev nD) : FVec Ideal S1000x32 .f32 :=
  extractStridedSlice S1000x32 ![0, 0] (V6 m ρ c main_v16 : S1024x32.Idx → EReal) slices_S1024x32_S1000x32_0_0

/-- The first thousand rows of the table of spreads. -/
def sK (m : (ℓ : Loc nD τ sig) → Buf (Elt Ideal) ℓ) (ρ : Dev nD → PrngReg) (c : Dev nD) : FVec Ideal S1000x1 .f32 :=
  let v9 : FVec Ideal S1024x1 .f32 :=
    pad S1024x1 ![0, 0] ![24, 0] ![0, 0] (distM m c) (id (constant (F := Ideal) S_ .f32 0x00000000#32)) pads_S1000x1_S1024x1_0240_000 h_S_
  let v18 : FVec Ideal S1x1024x1 .f32 := extractStridedSlice S1x1024x1 ![0, 0, 0] (O1 m ρ c) slices_S2x1024x1_S1x1024x1_0_0_0
  let v19 : FVec Ideal S1024x1 .f32 := shapeCast S1024x1 v18 shapeCasts_S1x1024x1_S1024x1
  let v20 : FVec Ideal S1024x1 .f32 := addf (F := Ideal) v9 v19
  let v21 : FVec Ideal S1x1024x1 .f32 := extractStridedSlice S1x1024x1 ![1, 0, 0] (O1 m ρ c) slices_S2x1024x1_S1x1024x1_1_0_0
  let v22 : FVec Ideal S1024x1 .f32 := shapeCast S1024x1 v21 shapeCasts_S1x1024x1_S1024x1
  let v23 : FVec Ideal S1024x1 .f32 := addf (F := Ideal) v20 v22
  extractStridedSlice S1000x1 ![0, 0] v23 slices_S1024x1_S1000x1_0_0

/-! ## The arrays the end of the program reads, as the second accumulation leaves them -/

private theorem W7_v17 (c : Dev nD) : W7 m ρ c (Proc.devRef .tc main_v17) = O1 m ρ c := W7_arr m ρ c 4

private theorem W7_v16 (c : Dev nD) : W7 m ρ c (Proc.devRef .tc main_v16) = V6 m ρ c main_v16 :=
  (W7_arr m ρ c 3).trans (((dat1 (V6 m ρ) c).arrAt_in 3 rfl _).trans (A_eq1 (V6 m ρ) c 3))

private theorem W7_arg3 (c : Dev nD) : W7 m ρ c (Proc.devRef .tc main_arg3) = cntM m c := by
  rw [W7_of_ne m ρ c main_arg3 (by decide)]
  show StableHlo.after hostOps1 (W5 m ρ c) (Proc.devRef .tc main_arg3) = _
  after_results
  rw [W5_of_ne m ρ c main_arg3 (by decide)]
  show StableHlo.after hostOps0_3 (W3 m ρ c) (Proc.devRef .tc main_arg3) = _
  after_results

private theorem W7_v9 (c : Dev nD) :
    W7 m ρ c (Proc.devRef .tc main_v9)
      = pad S1024x1 ![0, 0] ![24, 0] ![0, 0] (distM m c) (id (constant (F := Ideal) S_ .f32 0x00000000#32))
          pads_S1000x1_S1024x1_0240_000 h_S_ := by
  rw [W7_of_ne m ρ c main_v9 (by decide)]
  show StableHlo.after hostOps1 (W5 m ρ c) (Proc.devRef .tc main_v9) = _
  after_results
  rw [W5_of_ne m ρ c main_v9 (by decide)]
  show StableHlo.after hostOps0_3 (W3 m ρ c) (Proc.devRef .tc main_v9) = _
  after_results
  simp only [StableHlo.TRef.ofBuf, StableHlo.TRef.toBuf, cast_eq]

/-- The program's result is the tail of the two tables and the classes' numbers. -/
theorem result_eq (c : Dev nD) :
    W12 m ρ c (Proc.devRef .tc main_v59) = tailK (cent2K m ρ c) (sK m ρ c) (cntM m c) := by
  show StableHlo.after hostOps2_4 (W11 m ρ c) (Proc.devRef .tc main_v59) = _
  after_results_simp
  rw [W7_v17, W7_v16, W7_v9, W7_arg3]
  simp only [StableHlo.TRef.ofBuf, StableHlo.TRef.toBuf, cast_eq]
  unfold tailK cent2K sK
  generalize O1 m ρ c = o1
  generalize V6 m ρ c main_v16 = t16
  generalize distM m c = d2
  generalize cntM m c = n3
  rfl

/-- Row r of the kept moved rows is row r of the table the second accumulation read. -/
theorem cent2K_apply (c : Dev nD) (r : Fin 1000) (d : Fin 32) :
    (cent2K m ρ c : S1000x32.Idx → EReal) (ix2 r d)
      = (V6 m ρ c main_v16 : S1024x32.Idx → EReal) (ix2 ⟨r.val, by omega⟩ d) := by
  unfold cent2K
  refine extractStridedSlice_apply _ _ _ _ _ fun a => ?_
  match a with
  | ⟨0, _⟩ => show r.val = 0 + r.val; omega
  | ⟨1, _⟩ => show d.val = 0 + d.val; omega

/-- Row r < 1000 of the sum of a padded column and the two halves of a two-half table. -/
private theorem spreads_apply (d2 : FVec Ideal S1000x1 .f32) (o1 : FVec Ideal S2x1024x1 .f32) (z : FVec Ideal S_ .f32)
    (r : Fin 1000) (hr : r.val < 1024) :
    extractStridedSlice S1000x1 ![0, 0]
        (addf (F := Ideal) (φ := .f32)
          (addf (F := Ideal) (φ := .f32) (pad S1024x1 ![0, 0] ![24, 0] ![0, 0] d2 z pads_S1000x1_S1024x1_0240_000 h_S_)
            (shapeCast S1024x1 (extractStridedSlice S1x1024x1 ![0, 0, 0] o1 slices_S2x1024x1_S1x1024x1_0_0_0)
              shapeCasts_S1x1024x1_S1024x1))
          (shapeCast S1024x1 (extractStridedSlice S1x1024x1 ![1, 0, 0] o1 slices_S2x1024x1_S1x1024x1_1_0_0)
            shapeCasts_S1x1024x1_S1024x1))
        slices_S1024x1_S1000x1_0_0 (ix2 r 0)
      = d2 (ix2 r 0) + o1 (ix3 0 ⟨r.val, hr⟩ 0) + o1 (ix3 1 ⟨r.val, hr⟩ 0) := by
  have e0 : ∀ x : FVec Ideal S1024x1 .f32,
      extractStridedSlice S1000x1 ![0, 0] x slices_S1024x1_S1000x1_0_0 (ix2 r 0) = x (ix2 ⟨r.val, hr⟩ 0) := fun x =>
    extractStridedSlice_apply _ x _ _ _ fun a => by
      match a with
      | ⟨0, _⟩ => show r.val = 0 + r.val; omega
      | ⟨1, _⟩ => show (0 : Fin 1).val = 0 + (0 : Fin 1).val; omega
  have e1 : pad S1024x1 ![0, 0] ![24, 0] ![0, 0] d2 z pads_S1000x1_S1024x1_0240_000 h_S_ (ix2 ⟨r.val, hr⟩ 0)
      = d2 (ix2 r 0) :=
    pad_apply_of_inside _ _ _ _ _ _ _ _ _ fun a => by
      match a with
      | ⟨0, _⟩ => show r.val = 0 + r.val * (0 + 1); omega
      | ⟨1, _⟩ => show (0 : Fin 1).val = 0 + (0 : Fin 1).val * (0 + 1); omega
  have e2 : shapeCast S1024x1 (extractStridedSlice S1x1024x1 ![0, 0, 0] o1 slices_S2x1024x1_S1x1024x1_0_0_0)
      shapeCasts_S1x1024x1_S1024x1 (ix2 ⟨r.val, hr⟩ 0) = o1 (ix3 0 ⟨r.val, hr⟩ 0) := by
    rw [shapeCast_1ab_ab_apply]
    exact extractStridedSlice_apply _ _ _ _ _ fun a => by
      match a with
      | ⟨0, _⟩ => show (0 : Fin 2).val = 0 + (0 : Fin 1).val; rfl
      | ⟨1, _⟩ => show r.val = 0 + r.val; omega
      | ⟨2, _⟩ => show (0 : Fin 1).val = 0 + (0 : Fin 1).val; rfl
  have e3 : shapeCast S1024x1 (extractStridedSlice S1x1024x1 ![1, 0, 0] o1 slices_S2x1024x1_S1x1024x1_1_0_0)
      shapeCasts_S1x1024x1_S1024x1 (ix2 ⟨r.val, hr⟩ 0) = o1 (ix3 1 ⟨r.val, hr⟩ 0) := by
    rw [shapeCast_1ab_ab_apply]
    exact extractStridedSlice_apply _ _ _ _ _ fun a => by
      match a with
      | ⟨0, _⟩ => show (1 : Fin 2).val = 1 + (0 : Fin 1).val; rfl
      | ⟨1, _⟩ => show r.val = 0 + r.val; omega
      | ⟨2, _⟩ => show (0 : Fin 1).val = 0 + (0 : Fin 1).val; rfl
  rw [e0, addf_apply, addf_apply, e1, e2, e3]

/-- Row r of the kept spreads: the class's number plus both halves' tables at that row. -/
theorem sK_apply (c : Dev nD) (r : Fin 1000) :
    (sK m ρ c : S1000x1.Idx → EReal) (ix2 r 0)
      = distM m c (ix2 r 0)
        + O1 m ρ c (ix3 0 ⟨r.val, by omega⟩ 0) + O1 m ρ c (ix3 1 ⟨r.val, by omega⟩ 0) := by
  unfold sK
  exact spreads_apply (distM m c) (O1 m ρ c) _ r _

end Cert.KernelIdeal.HostB

end
-- ==== Proof.Pass1Body.lean ====
/-
  One grid point of the first accumulation, as values. The body's one covering store writes, over what the table
  held (the zero table at the first point of a half, where the body has just stored it), the table plus the
  product of the zero-one matrix "class word of point n = r" (1024 x 2000, from the block's class words) with the
  block's rows each divided by the larger of its class's number and one. Read at entry (r, d) and over the
  extended reals, where a change of float format is the identity, the product is the sum over the block's points n
  of the divided row's entry d where the class word is r.
-/
import proofs.«400231_j59957743452612_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pass1

open Idealize.ShloMosaic Idealize.ShloMosaic.TcCoe Idealize.SL.Sem Idealize.ShloMosaic.ValueIdx
open Cert.KernelIdeal Cert.KernelIdeal.Gen

private theorem hz2 : (![0, 0] : Fin 2 → Nat) = fun _ => 0 := funext fun a => by fin_cases a <;> rfl
private theorem hz3 : (![0, 0, 0] : Fin 3 → Nat) = fun _ => 0 := funext fun a => by fin_cases a <;> rfl

section AnyInstance
variable {F : FTy → Type} [FloatOps F]

/-- At the first point of a half the body leaves the store's value over the zero table it has just written. -/
theorem out_A (c : Dev nD) (i : grid0.Coords) (a2 : Memref sig .tc .vmem S2000x32 .f32) (h2 : a2.IsWhole)
    (a3 : Memref sig .tc .vmem S2000x1 .i32) (h3 : a3.IsWhole) (a4 : Memref sig .tc .vmem S2000x1 .f32) (h4 : a4.IsWhole)
    (a5 : Memref sig .tc .vmem S1x1024x32 .f32) (h5 : a5.IsWhole) (hc : cond0_0 i)
    (x0 : Vec F S2000x32 .f32) (x1 : Vec F S2000x1 .i32) (x2 : Vec F S2000x1 .f32) :
    out0_A_3 c i a2 h2 a3 h3 a4 h4 a5 h5 hc x0 x1 x2 = k0_pay2 x1 x2 x0 (k0_pay1 (F := F)) := by
  unfold out0_A_3
  rw [View.read_writes_eq_canon _ _ _ (cover0_A_3 c i a2 h2 a3 h3 a4 h4 a5 h5 hc x0 x1 x2)]
  unfold kernelRun0_A
  dsimp only
  sl_unfold_words
  rw [View.canon_cons_unit_zero (S := S1x1024x32) hz3, View.readCov_unit_zero (S := S1x1024x32) _ hz3]
  simp only [View.readAt_eq_ld, h2.read_unread, h3.read_unread, h4.read_unread,
    View.ld_unit_zero (S := S2000x32) hz2, View.ld_unit_zero (S := S2000x1) hz2]

/-- At any other point it leaves the store's value over what the point before left. -/
theorem out_B (c : Dev nD) (i : grid0.Coords) (a2 : Memref sig .tc .vmem S2000x32 .f32) (h2 : a2.IsWhole)
    (a3 : Memref sig .tc .vmem S2000x1 .i32) (h3 : a3.IsWhole) (a4 : Memref sig .tc .vmem S2000x1 .f32) (h4 : a4.IsWhole)
    (a5 : Memref sig .tc .vmem S1x1024x32 .f32) (h5 : a5.IsWhole) (hc : ¬cond0_0 i)
    (x0 : Vec F S2000x32 .f32) (x1 : Vec F S2000x1 .i32) (x2 : Vec F S2000x1 .f32) (xo : Vec F S1x1024x32 .f32) :
    out0_B_3 c i a2 h2 a3 h3 a4 h4 a5 h5 hc x0 x1 x2 xo = k0_pay2 x1 x2 x0 xo := by
  unfold out0_B_3
  rw [View.read_writes_eq_canon _ _ _ (cover0_B_3 c i a2 h2 a3 h3 a4 h4 a5 h5 hc x0 x1 x2 xo)]
  unfold kernelRun0_B
  dsimp only
  rw [View.canon_unit_zero hz3]
  simp only [View.readAt_eq_ld, h2.read_unread, h3.read_unread, h4.read_unread, h5.read_unread,
    View.ld_unit_zero (S := S2000x32) hz2, View.ld_unit_zero (S := S2000x1) hz2,
    View.ld_unit_zero (S := S1x1024x32) hz3]

end AnyInstance

/-! The contraction of the first product: both operands are contracted along their axis 0 (the block's points);
    the left operand's axis 1 is the result's axis 0, the right operand's axis 1 the result's axis 1. -/

private theorem lhs_dot_0 (i : S1024x32.Idx) (q : dot_S2000x1024_S2000x32_S1024x32_0_0_1_1_n_n.contr.Idx) :
    (dot_S2000x1024_S2000x32_S1024x32_0_0_1_1_n_n.lhsIdx i q 0).val = (q ⟨0, by decide⟩).val :=
  dot_S2000x1024_S2000x32_S1024x32_0_0_1_1_n_n.lhsIdx_val_of_single rfl i q
private theorem lhs_dot_1 (i : S1024x32.Idx) (q : dot_S2000x1024_S2000x32_S1024x32_0_0_1_1_n_n.contr.Idx) :
    (dot_S2000x1024_S2000x32_S1024x32_0_0_1_1_n_n.lhsIdx i q 1).val = (i 0).val := by
  unfold DotDims.lhsIdx
  rw [dif_neg (show ¬(1 : Fin S2000x1024.rank) ∈ dot_S2000x1024_S2000x32_S1024x32_0_0_1_1_n_n.lhsBatch by decide), dif_pos (show (1 : Fin S2000x1024.rank) ∈ dot_S2000x1024_S2000x32_S1024x32_0_0_1_1_n_n.lhsNonContracting by decide)]
  rfl
private theorem rhs_dot_0 (i : S1024x32.Idx) (q : dot_S2000x1024_S2000x32_S1024x32_0_0_1_1_n_n.contr.Idx) :
    (dot_S2000x1024_S2000x32_S1024x32_0_0_1_1_n_n.rhsIdx i q 0).val = (q ⟨0, by decide⟩).val :=
  dot_S2000x1024_S2000x32_S1024x32_0_0_1_1_n_n.rhsIdx_val_of_single rfl i q
private theorem rhs_dot_1 (i : S1024x32.Idx) (q : dot_S2000x1024_S2000x32_S1024x32_0_0_1_1_n_n.contr.Idx) :
    (dot_S2000x1024_S2000x32_S1024x32_0_0_1_1_n_n.rhsIdx i q 1).val = (i 1).val := by
  unfold DotDims.rhsIdx
  rw [dif_neg (show ¬(1 : Fin S2000x32.rank) ∈ dot_S2000x1024_S2000x32_S1024x32_0_0_1_1_n_n.rhsBatch by decide), dif_pos (show (1 : Fin S2000x32.rank) ∈ dot_S2000x1024_S2000x32_S1024x32_0_0_1_1_n_n.rhsNonContracting by decide)]
  rfl

/-- The product into the zero accumulator, at entry (r, d): the sum over the block's points n of the left operand
    at (n, r) times the right operand at (n, d). -/
private theorem dot_at (A : FVec Ideal S2000x1024 .bf16) (B : FVec Ideal S2000x32 .bf16) (r : Fin 1024) (d : Fin 32) :
    matmul dot_S2000x1024_S2000x32_S1024x32_0_0_1_1_n_n none A B (constant (F := Ideal) S1024x32 .f32 0x00000000#32) (ix2 r d)
      = ∑ n : Fin 2000, A (ix2 n r) * B (ix2 n d) := by
  simp only [matmul]
  rw [Ideal.matmul_constant_zero_apply, ← Equiv.sum_comp (contrEquiv1 dot_S2000x1024_S2000x32_S1024x32_0_0_1_1_n_n 2000 rfl rfl).symm]
  refine Finset.sum_congr rfl fun k _ => ?_
  have hk := contrEquiv1_symm_val dot_S2000x1024_S2000x32_S1024x32_0_0_1_1_n_n 2000 rfl rfl k
  have el : dot_S2000x1024_S2000x32_S1024x32_0_0_1_1_n_n.lhsIdx (ix2 r d) ((contrEquiv1 dot_S2000x1024_S2000x32_S1024x32_0_0_1_1_n_n 2000 rfl rfl).symm k) = ix2 k r := funext fun a => Fin.ext (by
    match a with
    | ⟨0, _⟩ => exact (lhs_dot_0 _ _).trans hk
    | ⟨1, _⟩ => exact lhs_dot_1 _ _)
  have er : dot_S2000x1024_S2000x32_S1024x32_0_0_1_1_n_n.rhsIdx (ix2 r d) ((contrEquiv1 dot_S2000x1024_S2000x32_S1024x32_0_0_1_1_n_n 2000 rfl rfl).symm k) = ix2 k d := funext fun a => Fin.ext (by
    match a with
    | ⟨0, _⟩ => exact (rhs_dot_0 _ _).trans hk
    | ⟨1, _⟩ => exact rhs_dot_1 _ _)
  rw [el, er]

/-- A column read along a row: the block's column of words, spread over 1024 columns, reads at (n, r) its entry n. -/
private theorem col_words_at (w : IVec S2000x1 32) (hs : S2000x1.ShapeCasts S2000x1) (hb : S2000x1.Broadcasts S2000x1024)
    (n : Fin 2000) (r : Fin 1024) :
    broadcastTo S2000x1024 (shapeCast S2000x1 w hs) hb (ix2 n r) = w (ix2 n 0) := by
  rw [shapeCast_self]
  refine broadcastTo_apply w hb (ix2 n r) (ix2 n 0) fun ax => ?_
  match ax with
  | ⟨0, _⟩ => show n.val = if (2000 : Nat) = 1 then 0 else n.val; rw [if_neg (by decide)]
  | ⟨1, _⟩ => show (0 : Fin 1).val = if (1 : Nat) = 1 then 0 else r.val; rw [if_pos rfl]; rfl

/-- The same for a column of extended reals spread over 32 columns. -/
private theorem col_reals_at (w : FVec Ideal S2000x1 .f32) (hb : S2000x1.Broadcasts S2000x32) (n : Fin 2000) (d : Fin 32) :
    broadcastTo S2000x32 w hb (ix2 n d) = w (ix2 n 0) := by
  refine broadcastTo_apply w hb (ix2 n d) (ix2 n 0) fun ax => ?_
  match ax with
  | ⟨0, _⟩ => show n.val = if (2000 : Nat) = 1 then 0 else n.val; rw [if_neg (by decide)]
  | ⟨1, _⟩ => show (0 : Fin 1).val = if (1 : Nat) = 1 then 0 else d.val; rw [if_pos rfl]; rfl

/-- The one-bit equality test of two words, widened to 32 bits and read as a signed integer, is one or zero. -/
private theorem flag_val (b c : BitVec 32) :
    ((((IntOp.cmpi .eq b c).setWidth 32).toInt : ℝ) : EReal) = if b = c then 1 else 0 := by
  by_cases h : b = c
  · have e : IntOp.cmpi .eq b c = 1#1 := by unfold IntOp.cmpi; simp [h]
    have e1 : ((1#1 : BitVec 1).setWidth 32).toInt = 1 := by decide
    rw [if_pos h, e, e1]; simp
  · have e : IntOp.cmpi .eq b c = 0#1 := by
      unfold IntOp.cmpi
      show BitVec.ofBool (b == c) = 0#1
      rw [beq_eq_false_iff_ne.mpr h]; rfl
    have e0 : ((0#1 : BitVec 1).setWidth 32).toInt = 0 := by decide
    rw [if_neg h, e, e0]; simp

/-- The zero-one matrix at (n, r): one where point n's class word is r, zero elsewhere. -/
private theorem hot_at (w : IVec S2000x1 32) (hs : S2000x1.ShapeCasts S2000x1) (hb : S2000x1.Broadcasts S2000x1024)
    (hi : S2000x1024.Iotas .tc 32 [1]) (h1 : 1 < 32) (ht : FTy.bits .bf16 < FTy.bits .f32) (n : Fin 2000) (r : Fin 1024) :
    (truncf .bf16 (sitofp .f32 (extui 32 (cmpi .eq (broadcastTo S2000x1024 (shapeCast S2000x1 w hs) hb)
        (iota .tc S2000x1024 32 [1] hi)) h1)) ht : FVec Ideal S2000x1024 .bf16) (ix2 n r)
      = if w (ix2 n 0) = BitVec.ofNat 32 r.val then (1 : EReal) else 0 := by
  show ((((IntOp.cmpi .eq (broadcastTo S2000x1024 (shapeCast S2000x1 w hs) hb (ix2 n r))
      (iota .tc S2000x1024 32 [1] hi (ix2 n r))).setWidth 32).toInt : ℝ) : EReal) = _
  rw [col_words_at, iota_single_apply]
  exact flag_val _ _

/-- The divided rows at (n, d): row n's entry d over the larger of the row's number and the constant. -/
private theorem row_at (u : FVec Ideal S2000x1 .f32) (x : FVec Ideal S2000x32 .f32) (hs : S2000x1.ShapeCasts S2000x1)
    (hb : S2000x1.Broadcasts S2000x32) (ht : FTy.bits .bf16 < FTy.bits .f32) (n : Fin 2000) (d : Fin 32) :
    (truncf .bf16 (divf x (broadcastTo S2000x32 (maximumf (shapeCast S2000x1 u hs)
        (broadcast S2000x1 (Scalar.ofBits (F := Ideal) .f32 0x3F800000#32))) hb)) ht : FVec Ideal S2000x32 .bf16) (ix2 n d)
      = Ideal.div (x (ix2 n d)) (max (u (ix2 n 0)) (Ideal.ofBits .f32 0x3F800000#32)) := by
  show Ideal.div (x (ix2 n d)) (broadcastTo S2000x32 (maximumf (shapeCast S2000x1 u hs)
      (broadcast S2000x1 (Scalar.ofBits (F := Ideal) .f32 0x3F800000#32))) hb (ix2 n d)) = _
  rw [col_reals_at, shapeCast_self]
  rfl

/-- The zero table, entry by entry. -/
theorem pay1_apply (r : Fin 1024) (d : Fin 32) : (k0_pay1 (F := Ideal) : S1x1024x32.Idx → EReal) (ix3 0 r d) = 0 := by
  unfold k0_pay1
  refine (shapeCast_ab_1ab_apply _ _ 0 r d).trans ?_
  show Ideal.ofBits .f32 0x00000000#32 = 0
  exact Ideal.ofBits_zero_f32

/-- The store's value at entry (r, d): what the table held there plus the block's divided rows' entries d over the
    points whose class word is r. -/
theorem pay2_apply (v3 : Vec Ideal S2000x1 .i32) (v11 : Vec Ideal S2000x1 .f32) (v15 : Vec Ideal S2000x32 .f32)
    (v20 : Vec Ideal S1x1024x32 .f32) (r : Fin 1024) (d : Fin 32) :
    (k0_pay2 v3 v11 v15 v20 : S1x1024x32.Idx → EReal) (ix3 0 r d)
      = (v20 (ix3 0 r d) : EReal) + ∑ n : Fin 2000,
          if (v3 (ix2 n 0) : BitVec 32) = BitVec.ofNat 32 r.val
          then Ideal.div (v15 (ix2 n d)) (max (v11 (ix2 n 0)) (Ideal.ofBits .f32 0x3F800000#32))
          else 0 := by
  unfold k0_pay2
  refine (shapeCast_ab_1ab_apply _ _ 0 r d).trans ?_
  rw [addf_apply]
  refine congrArg₂ (· + ·) (shapeCast_1ab_ab_apply v20 _ r d) ?_
  refine (dot_at _ _ r d).trans ?_
  refine Finset.sum_congr rfl fun n _ => ?_
  rw [hot_at, row_at]
  split_ifs <;> simp

end Cert.KernelIdeal.Pass1

end
-- ==== Proof.Pass1.lean ====
/-
  The first accumulation, read off its run. Each grid point (k, j) takes block 500 k + j of the points: two thousand
  rows of 32 numbers, their class words and their classes' numbers; it divides each row by the larger of its class's
  number and one, and adds to the 1024 x 32 table of half k, in row r, the rows of the block's points whose class
  word is r (a matrix product with the zero-one matrix "class word = r"). The table is zeroed at j = 0 and written
  back after j = 499. So entry (k, r, d) of the result is the sum, over the blocks j of half k and the points n of
  the block, of the divided row's entry d where the class word is r, and zero elsewhere.
-/
import proofs.«400231_j59957743452612_2_alg».proof.Proof.Gen.KernelIdeal.Frame
import proofs.«400231_j59957743452612_2_alg».proof.Proof.Spec
import proofs.«400231_j59957743452612_2_alg».proof.Proof.Pass1Body
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pass1

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

example : Pipeline.arrRef spec0 0 = main_arg0 := rfl
example : Pipeline.arrRef spec0 1 = main_v7 := rfl
example : Pipeline.arrRef spec0 2 = main_v6 := rfl
example : Pipeline.arrRef spec0 3 = main_v10 := rfl

/-! ## The blocks a point reads, and a block's sum -/

/-- Block t of the points' rows, of their class words, of their classes' numbers. -/
abbrev blkP (c : Dev nD) (t : Fin cfg0.N) : Vec Ideal S2000x32 .f32 := iblk0 V c 0 t
abbrev blkT (c : Dev nD) (t : Fin cfg0.N) : Vec Ideal S2000x1 .i32 := iblk0 V c 1 t
abbrev blkG (c : Dev nD) (t : Fin cfg0.N) : Vec Ideal S2000x1 .f32 := iblk0 V c 2 t

/-- Block t's sum at entry (r, d): the divided rows' entries d over the block's points whose class word is r. -/
def Ublk (c : Dev nD) (r : Fin 1024) (d : Fin 32) (t : Fin cfg0.N) : EReal :=
  ∑ n : Fin 2000,
    if (blkT V c t (ix2 n 0) : BitVec 32) = BitVec.ofNat 32 r.val
    then Ideal.div (blkP V c t (ix2 n d)) (max (blkG V c t (ix2 n 0)) (Ideal.ofBits .f32 0x3F800000#32))
    else 0

/-- The same over the natural numbers, zero past the grid. -/
def U (c : Dev nD) (r : Fin 1024) (d : Fin 32) (s : ℕ) : EReal :=
  if h : s < cfg0.N then Ublk V c r d ⟨s, h⟩ else 0

theorem U_val (c : Dev nD) (r : Fin 1024) (d : Fin 32) (t : Fin cfg0.N) : U V c r d t.val = Ublk V c r d t := by
  unfold U
  rw [dif_pos t.isLt]

/-! ## One point's step -/

/-- At the first point of a half the table holds the block's sum. -/
theorem step_A (c : Dev nD) (r : Fin 1024) (d : Fin 32) (t : Fin cfg0.N) (h0 : t.val % 500 = 0) :
    (outsAt0 V c t.val t.isLt : S1x1024x32.Idx → EReal) (ix3 0 r d) = U V c r d t.val := by
  rw [outsAt0_A V c t h0, U_val]
  refine (congrFun (out_A (F := Ideal) c (grid0.coords t) (ms0_0 t) (hs0_0 t) (ms0_1 t) (hs0_1 t) (ms0_2 t) (hs0_2 t)
    (ms0_3 t) (hs0_3 t) ((hcond0_0 t).mpr h0) (blkP V c t) (blkT V c t) (blkG V c t)) (ix3 0 r d)).trans ?_
  refine (pay2_apply (blkT V c t) (blkG V c t) (blkP V c t) (k0_pay1 (F := Ideal)) r d).trans ?_
  rw [pay1_apply, zero_add]
  rfl

/-- At any other point it holds what the point before left plus the block's sum. -/
theorem step_B (c : Dev nD) (r : Fin 1024) (d : Fin 32) (t : Fin cfg0.N) (h0 : ¬t.val % 500 = 0) :
    (outsAt0 V c t.val t.isLt : S1x1024x32.Idx → EReal) (ix3 0 r d)
      = (outsAt0 V c (t.val - 1) (Nat.lt_of_le_of_lt (Nat.sub_le _ _) t.isLt) : S1x1024x32.Idx → EReal) (ix3 0 r d)
        + U V c r d t.val := by
  rw [outsAt0_B V c t h0, U_val]
  refine (congrFun (out_B (F := Ideal) c (grid0.coords t) (ms0_0 t) (hs0_0 t) (ms0_1 t) (hs0_1 t) (ms0_2 t) (hs0_2 t)
    (ms0_3 t) (hs0_3 t) (fun h => h0 ((hcond0_0 t).mp h)) (blkP V c t) (blkT V c t) (blkG V c t)
    (outsAt0 V c (t.val - 1) (Nat.lt_of_le_of_lt (Nat.sub_le _ _) t.isLt))) (ix3 0 r d)).trans ?_
  refine (pay2_apply (blkT V c t) (blkG V c t) (blkP V c t)
    (outsAt0 V c (t.val - 1) (Nat.lt_of_le_of_lt (Nat.sub_le _ _) t.isLt)) r d).trans ?_
  rfl

/-! ## The running total -/

/-- After point n the table holds the sums of the blocks of n's half up to n. -/
theorem outsAt_eq (c : Dev nD) (r : Fin 1024) (d : Fin 32) : ∀ (n : ℕ) (h : n < cfg0.N),
    (outsAt0 V c n h : S1x1024x32.Idx → EReal) (ix3 0 r d)
      = ∑ i ∈ Finset.range (n % 500 + 1), U V c r d (n - n % 500 + i)
  | 0, h => by
    rw [show (0 : ℕ) % 500 + 1 = 1 from rfl, Finset.sum_range_one]
    exact step_A V c r d ⟨0, h⟩ rfl
  | n + 1, h => by
    by_cases h0 : (n + 1) % 500 = 0
    · rw [h0, Finset.sum_range_one]
      exact step_A V c r d ⟨n + 1, h⟩ h0
    · have e1 : (n + 1) % 500 + 1 = (n % 500 + 1) + 1 := by omega
      have e2 : n + 1 - (n + 1) % 500 = n - n % 500 := by omega
      have e3 : n - n % 500 + (n % 500 + 1) = n + 1 := by omega
      rw [e1, Finset.sum_range_succ, e2, e3, ← outsAt_eq c r d n (Nat.lt_of_succ_lt h)]
      exact step_B V c r d ⟨n + 1, h⟩ h0

/-! ## The blocks, read off the arrays -/

theorem idx0_0 : ∀ t : Fin cfg0.N, win0_0.index t 0 = t.val ∧ win0_0.index t 1 = 0 :=
  (by decide +kernel : ∀ t : Fin grid0.N, win0_0.index t 0 = t.val ∧ win0_0.index t 1 = 0)
theorem idx0_1 : ∀ t : Fin cfg0.N, win0_1.index t 0 = t.val ∧ win0_1.index t 1 = 0 :=
  (by decide +kernel : ∀ t : Fin grid0.N, win0_1.index t 0 = t.val ∧ win0_1.index t 1 = 0)
theorem idx0_2 : ∀ t : Fin cfg0.N, win0_2.index t 0 = t.val ∧ win0_2.index t 1 = 0 :=
  (by decide +kernel : ∀ t : Fin grid0.N, win0_2.index t 0 = t.val ∧ win0_2.index t 1 = 0)
theorem idx0_3 : ∀ t : Fin cfg0.N, win0_3.index t 0 = t.val / 500 ∧ win0_3.index t 1 = 0 ∧ win0_3.index t 2 = 0 :=
  (by decide +kernel : ∀ t : Fin grid0.N, win0_3.index t 0 = t.val / 500 ∧ win0_3.index t 1 = 0 ∧ win0_3.index t 2 = 0)

/-- Row n of block t of the points' rows is row 2000 t + n of the array. -/
theorem blkP_apply (c : Dev nD) (t : Fin cfg0.N) (t' : Fin 1000) (ht : t'.val = t.val) (n : Fin 2000) (d : Fin 32) :
    blkP V c t (ix2 n d) = (V c main_arg0 : S2000000x32.Idx → EReal) (ix2 (Cert.Spec.pt t' n) d) := by
  have hi := idx0_0 t
  unfold blkP iblk0
  rw [View.read_apply]
  show (V c main_arg0 : S2000000x32.Idx → EReal) _ = (V c main_arg0 : S2000000x32.Idx → EReal) _
  congr 1
  funext a
  apply Fin.ext
  match a with
  | ⟨0, _⟩ => show win0_0.index t 0 * 2000 + 1 * n.val = 2000 * t'.val + n.val; rw [hi.1, ht]; omega
  | ⟨1, _⟩ => show win0_0.index t 1 * 32 + 1 * d.val = d.val; rw [hi.2]; omega

/-- Entry n of block t of the class words is entry 2000 t + n of the array. -/
theorem blkT_apply (c : Dev nD) (t : Fin cfg0.N) (t' : Fin 1000) (ht : t'.val = t.val) (n : Fin 2000) :
    blkT V c t (ix2 n 0) = (V c main_v7 : S2000000x1.Idx → BitVec 32) (ix2 (Cert.Spec.pt t' n) 0) := by
  have hi := idx0_1 t
  unfold blkT iblk0
  rw [View.read_apply]
  show (V c main_v7 : S2000000x1.Idx → BitVec 32) _ = (V c main_v7 : S2000000x1.Idx → BitVec 32) _
  congr 1
  funext a
  apply Fin.ext
  match a with
  | ⟨0, _⟩ => show win0_1.index t 0 * 2000 + 1 * n.val = 2000 * t'.val + n.val; rw [hi.1, ht]; omega
  | ⟨1, _⟩ => show win0_1.index t 1 * 1 + 1 * 0 = 0; rw [hi.2]

/-- Entry n of block t of the classes' numbers is entry 2000 t + n of the array. -/
theorem blkG_apply (c : Dev nD) (t : Fin cfg0.N) (t' : Fin 1000) (ht : t'.val = t.val) (n : Fin 2000) :
    blkG V c t (ix2 n 0) = (V c main_v6 : S2000000x1.Idx → EReal) (ix2 (Cert.Spec.pt t' n) 0) := by
  have hi := idx0_2 t
  unfold blkG iblk0
  rw [View.read_apply]
  show (V c main_v6 : S2000000x1.Idx → EReal) _ = (V c main_v6 : S2000000x1.Idx → EReal) _
  congr 1
  funext a
  apply Fin.ext
  match a with
  | ⟨0, _⟩ => show win0_2.index t 0 * 2000 + 1 * n.val = 2000 * t'.val + n.val; rw [hi.1, ht]; omega
  | ⟨1, _⟩ => show win0_2.index t 1 * 1 + 1 * 0 = 0; rw [hi.2]

/-! ## From the table to the result array -/

/-- Half k's total at entry (r, d): its five hundred blocks' sums. -/
def Gval (c : Dev nD) (k : Fin 2) (r : Fin 1024) (d : Fin 32) : EReal :=
  ∑ i ∈ Finset.range 500, U V c r d (500 * k.val + i)

/-- The result array, entry by entry. -/
def Garr (c : Dev nD) : S2x1024x32.Idx → EReal := fun i =>
  Gval V c ⟨(i 0).val, (i 0).isLt⟩ ⟨(i 1).val, (i 1).isLt⟩ ⟨(i 2).val, (i 2).isLt⟩

theorem Garr_apply (c : Dev nD) (k : Fin 2) (r : Fin 1024) (d : Fin 32) : Garr V c (ix3 k r d) = Gval V c k r d := rfl

/-- The write-back after the last block of a half writes the half's totals. -/
theorem flushed_eq (c : Dev nD) (t : Fin cfg0.N) (hf : (cfg0.win 3).flush t = true) :
    (dat0 V c).flushed 3 t = ((cfg0.win 3).blk t).view.read (Elt Ideal) (Garr V c) := by
  have hN : cfg0.N = 1000 := N_0
  have h499 : t.val % 500 = 499 := (flush0_3 t).mp hf
  have hi := idx0_3 t
  have hk : t.val / 500 < 2 := by have := t.isLt; omega
  show (cfg0.win 3).cut (grid0.coords t) ((dat0 V c).after 3 t) = _
  rw [after0_3]
  funext j
  obtain ⟨r, d, rfl⟩ : ∃ (r : Fin 1024) (d : Fin 32), j = ix3 (0 : Fin 1) r d :=
    ⟨j 1, j 2, by
      funext a
      match a with
      | ⟨0, _⟩ => exact Subsingleton.elim (α := Fin 1) _ _
      | ⟨1, _⟩ => rfl
      | ⟨2, _⟩ => rfl⟩
  rw [View.read_apply]
  show (outsAt0 V c t.val t.isLt : S1x1024x32.Idx → EReal) _ = Garr V c _
  have e1 : (outsAt0 V c t.val t.isLt : S1x1024x32.Idx → EReal) (win0_3.xinj (grid0.coords t) (ix3 (0 : Fin 1) r d))
      = (outsAt0 V c t.val t.isLt : S1x1024x32.Idx → EReal) (ix3 0 r d) := by
    congr 1
  have e2 : Garr V c (((cfg0.win 3).blk t).view.emb (ix3 (0 : Fin 1) r d)) = Garr V c (ix3 ⟨t.val / 500, hk⟩ r d) := by
    congr 1
    funext a
    apply Fin.ext
    match a with
    | ⟨0, _⟩ => show win0_3.index t 0 * 1 + 1 * 0 = t.val / 500; rw [hi.1]; omega
    | ⟨1, _⟩ => show win0_3.index t 1 * 1024 + 1 * r.val = r.val; rw [hi.2.1]; omega
    | ⟨2, _⟩ => show win0_3.index t 2 * 32 + 1 * d.val = d.val; rw [hi.2.2]; omega
  refine e1.trans ?_
  refine Eq.trans ?_ e2.symm
  rw [Garr_apply, outsAt_eq V c r d t.val t.isLt, h499]
  unfold Gval
  refine Finset.sum_congr rfl fun i _ => ?_
  congr 1
  show t.val - 499 + i = 500 * (t.val / 500) + i
  omega

/-- So the result array ends holding the halves' totals: the two write-backs cover it. -/
theorem final_o (c : Dev nD) : (dat0 V c).arrAt 3 cfg0.N = Garr V c :=
  (dat0 V c).arrAt_eq_of_cover 3 (Garr V c) (flushed_eq V c) fun i => by
    have hN : cfg0.N = 1000 := N_0
    have h0 : (i 0 : Nat) < 2 := (i 0).isLt
    have h1 : (i 1 : Nat) < 1024 := (i 1).isLt
    have h2 : (i 2 : Nat) < 32 := (i 2).isLt
    have ht : 500 * (i 0 : Nat) + 499 < cfg0.N := by omega
    refine ⟨⟨500 * (i 0 : Nat) + 499, ht⟩, (flush0_3 _).mpr (by show (500 * (i 0 : Nat) + 499) % 500 = 499; omega), ?_⟩
    have hi := idx0_3 ⟨500 * (i 0 : Nat) + 499, ht⟩
    have hq : (500 * (i 0 : Nat) + 499) / 500 = (i 0 : Nat) := by omega
    show i ∈ ((View.whole main_v10).slice (win0_3.rect ⟨500 * (i 0 : Nat) + 499, ht⟩)).set
    rw [View.set_slice_whole, Rect.mem_set_unit]
    intro a
    match a with
    | ⟨0, _⟩ =>
      show win0_3.index ⟨500 * (i 0 : Nat) + 499, ht⟩ 0 * 1 ≤ (i 0 : Nat)
        ∧ (i 0 : Nat) < win0_3.index ⟨500 * (i 0 : Nat) + 499, ht⟩ 0 * 1 + 1
      rw [hi.1]
      show (500 * (i 0 : Nat) + 499) / 500 * 1 ≤ (i 0 : Nat) ∧ (i 0 : Nat) < (500 * (i 0 : Nat) + 499) / 500 * 1 + 1
      rw [hq]; omega
    | ⟨1, _⟩ =>
      show win0_3.index ⟨500 * (i 0 : Nat) + 499, ht⟩ 1 * 1024 ≤ (i 1 : Nat)
        ∧ (i 1 : Nat) < win0_3.index ⟨500 * (i 0 : Nat) + 499, ht⟩ 1 * 1024 + 1024
      rw [hi.2.1]; omega
    | ⟨2, _⟩ =>
      show win0_3.index ⟨500 * (i 0 : Nat) + 499, ht⟩ 2 * 32 ≤ (i 2 : Nat)
        ∧ (i 2 : Nat) < win0_3.index ⟨500 * (i 0 : Nat) + 499, ht⟩ 2 * 32 + 32
      rw [hi.2.2]; omega

/-- A block's sum over the arrays: the block's point n is the array's point 2000 t + n. -/
theorem Ublk_arr (c : Dev nD) (r : Fin 1024) (d : Fin 32) (t : Fin cfg0.N) (t' : Fin 1000) (ht : t'.val = t.val) :
    Ublk V c r d t = ∑ n : Fin 2000,
      if (V c main_v7 : S2000000x1.Idx → BitVec 32) (ix2 (Cert.Spec.pt t' n) 0) = BitVec.ofNat 32 r.val
      then Ideal.div ((V c main_arg0 : S2000000x32.Idx → EReal) (ix2 (Cert.Spec.pt t' n) d))
        (max ((V c main_v6 : S2000000x1.Idx → EReal) (ix2 (Cert.Spec.pt t' n) 0)) (Ideal.ofBits .f32 0x3F800000#32))
      else 0 := by
  unfold Ublk
  refine Finset.sum_congr rfl fun n _ => ?_
  rw [blkP_apply V c t t' ht n d, blkT_apply V c t t' ht n, blkG_apply V c t t' ht n]

/-- The first accumulation's result array, entry by entry, from the three arrays the region reads: the points' rows P,
    their class words T and their classes' numbers G. -/
theorem arr_final (c : Dev nD)
    (P : (⟨2, ![2000000, 32]⟩ : Shape).Idx → EReal) (T : (⟨2, ![2000000, 1]⟩ : Shape).Idx → BitVec 32)
    (G : (⟨2, ![2000000, 1]⟩ : Shape).Idx → EReal)
    (hP : V c main_arg0 = P) (hT : V c main_v7 = T) (hG : V c main_v6 = G)
    (k : Fin 2) (r : Fin 1024) (d : Fin 32) :
    ((dat0 (F := Ideal) V c).arrAt 3 cfg0.N : (⟨3, ![2, 1024, 32]⟩ : Shape).Idx → EReal) (ix3 k r d)
      = ∑ j : Fin 500, ∑ n : Fin 2000,
          if T (ix2 (Cert.Spec.pt (Cert.Spec.blk k j) n) 0) = BitVec.ofNat 32 r.val
          then Ideal.div (P (ix2 (Cert.Spec.pt (Cert.Spec.blk k j) n) d))
            (max (G (ix2 (Cert.Spec.pt (Cert.Spec.blk k j) n) 0)) (Ideal.ofBits .f32 0x3F800000#32))
          else 0 := by
  subst hP hT hG
  have hN : cfg0.N = 1000 := N_0
  have hfin : ((dat0 (F := Ideal) V c).arrAt 3 cfg0.N : S2x1024x32.Idx → EReal) (ix3 k r d) = Gval V c k r d :=
    congrFun (final_o V c) (ix3 k r d)
  refine hfin.trans ?_
  show @Eq EReal _ _
  unfold Gval
  rw [Finset.sum_range]
  refine Finset.sum_congr rfl fun j _ => ?_
  have hj : 500 * k.val + j.val < cfg0.N := by have := k.isLt; have := j.isLt; omega
  have e : U V c r d (500 * k.val + j.val) = Ublk V c r d ⟨500 * k.val + j.val, hj⟩ := U_val V c r d ⟨500 * k.val + j.val, hj⟩
  rw [e, Ublk_arr V c r d ⟨500 * k.val + j.val, hj⟩ (Cert.Spec.blk k j) rfl]

end Cert.KernelIdeal.Pass1

end
-- ==== Proof.Pass2Body.lean ====
/-
  One grid point of the second accumulation, as values. From the block's class words the body forms the zero-one
  matrix "class word of point n = r'" (2000 x 1024); its product with the 1024 x 32 table of moved rows picks, for
  each point, its class's moved row; the point's distance is the square root of the sum over d of the squared
  difference between that row and the point's own row divided by the larger of its class's number and one; and the
  transposed product of the zero-one matrix with the distances adds, in row r of the 1024 x 1 table, the distances
  of the block's points whose class word is r. Over the extended reals a change of float format is the identity.
-/
import proofs.«400231_j59957743452612_2_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open scoped BigOperators

namespace Cert.KernelIdeal.Pass2

open Idealize.ShloMosaic Idealize.ShloMosaic.TcCoe Idealize.SL.Sem Idealize.ShloMosaic.ValueIdx
open Cert.KernelIdeal Cert.KernelIdeal.Gen

private theorem hz3 : (![0, 0, 0] : Fin 3 → Nat) = fun _ => 0 := funext fun a => by fin_cases a <;> rfl
private theorem hz2 : (![0, 0] : Fin 2 → Nat) = fun _ => 0 := funext fun a => by fin_cases a <;> rfl

section AnyInstance
variable {F : FTy → Type} [FloatOps F]

/-- At the first point of a half the body leaves the store's value over the zero table it has just written. -/
theorem out_A (c : Dev nD) (i : grid1.Coords) (a2 : Memref sig .tc .vmem S2000x32 .f32) (h2 : a2.IsWhole)
    (a3 : Memref sig .tc .vmem S2000x1 .i32) (h3 : a3.IsWhole) (a4 : Memref sig .tc .vmem S2000x1 .f32) (h4 : a4.IsWhole)
    (a5 : Memref sig .tc .vmem S1024x32 .f32) (h5 : a5.IsWhole) (a6 : Memref sig .tc .vmem S1x1024x1 .f32) (h6 : a6.IsWhole)
    (hc : cond1_0 i)
    (x0 : Vec F S2000x32 .f32) (x1 : Vec F S2000x1 .i32) (x2 : Vec F S2000x1 .f32) (x3 : Vec F S1024x32 .f32) :
    out1_A_4 c i a2 h2 a3 h3 a4 h4 a5 h5 a6 h6 hc x0 x1 x2 x3 = k1_pay2 x1 x2 x0 x3 (k1_pay1 (F := F)) := by
  unfold out1_A_4
  rw [View.read_writes_eq_canon _ _ _ (cover1_A_4 c i a2 h2 a3 h3 a4 h4 a5 h5 a6 h6 hc x0 x1 x2 x3)]
  unfold kernelRun1_A
  dsimp only
  sl_unfold_words
  rw [View.canon_cons_unit_zero (S := S1x1024x1) hz3, View.readCov_unit_zero (S := S1x1024x1) _ hz3]
  simp only [View.readAt_eq_ld, h2.read_unread, h3.read_unread, h4.read_unread, h5.read_unread,
    View.ld_unit_zero (S := S2000x32) hz2, View.ld_unit_zero (S := S2000x1) hz2, View.ld_unit_zero (S := S1024x32) hz2]

/-- At any other point it leaves the store's value over what the point before left. -/
theorem out_B (c : Dev nD) (i : grid1.Coords) (a2 : Memref sig .tc .vmem S2000x32 .f32) (h2 : a2.IsWhole)
    (a3 : Memref sig .tc .vmem S2000x1 .i32) (h3 : a3.IsWhole) (a4 : Memref sig .tc .vmem S2000x1 .f32) (h4 : a4.IsWhole)
    (a5 : Memref sig .tc .vmem S1024x32 .f32) (h5 : a5.IsWhole) (a6 : Memref sig .tc .vmem S1x1024x1 .f32) (h6 : a6.IsWhole)
    (hc : ¬cond1_0 i)
    (x0 : Vec F S2000x32 .f32) (x1 : Vec F S2000x1 .i32) (x2 : Vec F S2000x1 .f32) (x3 : Vec F S1024x32 .f32)
    (xo : Vec F S1x1024x1 .f32) :
    out1_B_4 c i a2 h2 a3 h3 a4 h4 a5 h5 a6 h6 hc x0 x1 x2 x3 xo = k1_pay2 x1 x2 x0 x3 xo := by
  unfold out1_B_4
  rw [View.read_writes_eq_canon _ _ _ (cover1_B_4 c i a2 h2 a3 h3 a4 h4 a5 h5 a6 h6 hc x0 x1 x2 x3 xo)]
  unfold kernelRun1_B
  dsimp only
  rw [View.canon_unit_zero hz3]
  simp only [View.readAt_eq_ld, h2.read_unread, h3.read_unread, h4.read_unread, h5.read_unread, h6.read_unread,
    View.ld_unit_zero (S := S2000x32) hz2, View.ld_unit_zero (S := S2000x1) hz2, View.ld_unit_zero (S := S1024x32) hz2,
    View.ld_unit_zero (S := S1x1024x1) hz3]

end AnyInstance

/-- The zero table, entry by entry. -/
theorem pay1_apply (r : Fin 1024) : (k1_pay1 (F := Ideal) : S1x1024x1.Idx → EReal) (ix3 0 r 0) = 0 := by
  unfold k1_pay1
  refine (shapeCast_ab_1ab_apply _ shapeCasts_S1024x1_S1x1024x1 0 r 0).trans ?_
  show Ideal.ofBits .f32 0x00000000#32 = 0
  exact Ideal.ofBits_zero_f32

/-- The moved row the zero-one matrix picks for point n, entry d. -/
def picked (v3 : Vec Ideal S2000x1 .i32) (v18 : Vec Ideal S1024x32 .f32) (n : Fin 2000) (d : Fin 32) : EReal :=
  ∑ r' : Fin 1024, if (v3 (ix2 n 0) : BitVec 32) = BitVec.ofNat 32 r'.val then (v18 (ix2 r' d) : EReal) else 0

/-- Point n's own row divided by the larger of its class's number and one, entry d. -/
def scaled (v11 : Vec Ideal S2000x1 .f32) (v15 : Vec Ideal S2000x32 .f32) (n : Fin 2000) (d : Fin 32) : EReal :=
  Ideal.div (v15 (ix2 n d)) (max (v11 (ix2 n 0)) (Ideal.ofBits .f32 0x3F800000#32))

/-- The factor a class word contributes: one when the two words agree, zero otherwise. -/
private theorem word_factor (x y : BitVec 32) :
    ((((IntOp.cmpi .eq x y).setWidth 32).toInt : ℝ) : EReal) = if x = y then 1 else 0 := by
  by_cases h : x = y
  · rw [if_pos h]; subst h
    have e : IntOp.cmpi .eq x x = 1#1 := by simp [IntOp.cmpi]
    rw [e]
    have e2 : ((1#1 : BitVec 1).setWidth 32).toInt = 1 := by decide
    rw [e2]; simp
  · rw [if_neg h]
    have e : IntOp.cmpi .eq x y = 0#1 := by
      show BitVec.ofBool (x == y) = 0#1
      rw [beq_eq_false_iff_ne.mpr h]; rfl
    rw [e]
    have e2 : ((0#1 : BitVec 1).setWidth 32).toInt = 0 := by decide
    rw [e2]; simp

/-- The zero-one matrix of the block's class words. -/
private def onehot (v3 : Vec Ideal S2000x1 .i32) : FVec Ideal S2000x1024 .bf16 :=
  truncf .bf16 (sitofp .f32 (extui 32 (cmpi .eq
    (broadcastTo S2000x1024 (shapeCast S2000x1 v3 shapeCasts_S2000x1_S2000x1) broadcasts_S2000x1_S2000x1024)
    (iota .tc S2000x1024 32 [1] iota_S2000x1024_d1_w32)) natLt_1_32)) bitsLt_bf16_f32

/-- Entry (n, r) of the zero-one matrix: one when point n's class word is r. -/
private theorem onehot_apply (v3 : Vec Ideal S2000x1 .i32) (n : Fin 2000) (r : Fin 1024) :
    (onehot v3 : S2000x1024.Idx → EReal) (ix2 n r)
      = if (v3 (ix2 n 0) : BitVec 32) = BitVec.ofNat 32 r.val then 1 else 0 := by
  have hb : broadcastTo S2000x1024 (shapeCast S2000x1 v3 shapeCasts_S2000x1_S2000x1) broadcasts_S2000x1_S2000x1024 (ix2 n r)
      = v3 (ix2 n 0) := by
    rw [shapeCast_self]
    exact broadcastTo_apply v3 broadcasts_S2000x1_S2000x1024 (ix2 n r) (ix2 n 0) (fun a => match a with
      | ⟨0, _⟩ => by show n.val = if (2000 : Nat) = 1 then 0 else n.val; rw [if_neg (by decide)]
      | ⟨1, _⟩ => by show 0 = if (1 : Nat) = 1 then 0 else r.val; rw [if_pos rfl])
  have hi : iota .tc S2000x1024 32 [1] iota_S2000x1024_d1_w32 (ix2 n r) = BitVec.ofNat 32 r.val :=
    iota_single_apply .tc S2000x1024 32 1 iota_S2000x1024_d1_w32 (ix2 n r)
  show ((((IntOp.cmpi .eq
      (broadcastTo S2000x1024 (shapeCast S2000x1 v3 shapeCasts_S2000x1_S2000x1) broadcasts_S2000x1_S2000x1024 (ix2 n r))
      (iota .tc S2000x1024 32 [1] iota_S2000x1024_d1_w32 (ix2 n r))).setWidth 32).toInt : ℝ) : EReal) = _
  rw [hb, hi]
  exact word_factor _ _

/-! The first product: rows of the zero-one matrix against the table of moved rows. -/

private theorem lhs1_0 (i : S2000x32.Idx) (q : dot_S2000x1024_S1024x32_S2000x32_1_0_0_1_n_n.contr.Idx) :
    (dot_S2000x1024_S1024x32_S2000x32_1_0_0_1_n_n.lhsIdx i q 0).val = (i 0).val := by
  unfold DotDims.lhsIdx
  rw [dif_neg (show ¬(0 : Fin S2000x1024.rank) ∈ dot_S2000x1024_S1024x32_S2000x32_1_0_0_1_n_n.lhsBatch by decide), dif_pos (show (0 : Fin S2000x1024.rank) ∈ dot_S2000x1024_S1024x32_S2000x32_1_0_0_1_n_n.lhsNonContracting by decide)]
  rfl
private theorem lhs1_1 (i : S2000x32.Idx) (q : dot_S2000x1024_S1024x32_S2000x32_1_0_0_1_n_n.contr.Idx) :
    (dot_S2000x1024_S1024x32_S2000x32_1_0_0_1_n_n.lhsIdx i q 1).val = (q ⟨0, by decide⟩).val :=
  dot_S2000x1024_S1024x32_S2000x32_1_0_0_1_n_n.lhsIdx_val_of_single rfl i q
private theorem rhs1_0 (i : S2000x32.Idx) (q : dot_S2000x1024_S1024x32_S2000x32_1_0_0_1_n_n.contr.Idx) :
    (dot_S2000x1024_S1024x32_S2000x32_1_0_0_1_n_n.rhsIdx i q 0).val = (q ⟨0, by decide⟩).val :=
  dot_S2000x1024_S1024x32_S2000x32_1_0_0_1_n_n.rhsIdx_val_of_single rfl i q
private theorem rhs1_1 (i : S2000x32.Idx) (q : dot_S2000x1024_S1024x32_S2000x32_1_0_0_1_n_n.contr.Idx) :
    (dot_S2000x1024_S1024x32_S2000x32_1_0_0_1_n_n.rhsIdx i q 1).val = (i 1).val := by
  unfold DotDims.rhsIdx
  rw [dif_neg (show ¬(1 : Fin S1024x32.rank) ∈ dot_S2000x1024_S1024x32_S2000x32_1_0_0_1_n_n.rhsBatch by decide), dif_pos (show (1 : Fin S1024x32.rank) ∈ dot_S2000x1024_S1024x32_S2000x32_1_0_0_1_n_n.rhsNonContracting by decide)]
  rfl

/-- The first product at (n, d): the moved row picked for point n, entry d. -/
private theorem prod1_apply (v3 : Vec Ideal S2000x1 .i32) (v18 : Vec Ideal S1024x32 .f32) (n : Fin 2000) (d : Fin 32) :
    (matmul dot_S2000x1024_S1024x32_S2000x32_1_0_0_1_n_n none (onehot v3)
        (truncf .bf16 (shapeCast S1024x32 v18 shapeCasts_S1024x32_S1024x32) bitsLt_bf16_f32)
        (constant (F := Ideal) S2000x32 .f32 0x00000000#32) : S2000x32.Idx → EReal) (ix2 n d)
      = picked v3 v18 n d := by
  refine (Ideal.matmul_constant_zero_apply dot_S2000x1024_S1024x32_S2000x32_1_0_0_1_n_n none _ _ (ix2 n d)).trans ?_
  rw [← Equiv.sum_comp (contrEquiv1 dot_S2000x1024_S1024x32_S2000x32_1_0_0_1_n_n 1024 rfl rfl).symm]
  unfold picked
  refine Finset.sum_congr rfl fun k _ => ?_
  have hk := contrEquiv1_symm_val dot_S2000x1024_S1024x32_S2000x32_1_0_0_1_n_n 1024 rfl rfl k
  have el : dot_S2000x1024_S1024x32_S2000x32_1_0_0_1_n_n.lhsIdx (ix2 n d) ((contrEquiv1 dot_S2000x1024_S1024x32_S2000x32_1_0_0_1_n_n 1024 rfl rfl).symm k) = ix2 n k := funext fun a => Fin.ext (by
    match a with
    | ⟨0, _⟩ => exact lhs1_0 _ _
    | ⟨1, _⟩ => exact (lhs1_1 _ _).trans hk)
  have er : dot_S2000x1024_S1024x32_S2000x32_1_0_0_1_n_n.rhsIdx (ix2 n d) ((contrEquiv1 dot_S2000x1024_S1024x32_S2000x32_1_0_0_1_n_n 1024 rfl rfl).symm k) = ix2 k d := funext fun a => Fin.ext (by
    match a with
    | ⟨0, _⟩ => exact (rhs1_0 _ _).trans hk
    | ⟨1, _⟩ => exact rhs1_1 _ _)
  rw [el, er, onehot_apply, shapeCast_self]
  show (if (v3 (ix2 n 0) : BitVec 32) = BitVec.ofNat 32 k.val then (1 : EReal) else 0) * (v18 (ix2 k d) : EReal) = _
  by_cases h : (v3 (ix2 n 0) : BitVec 32) = BitVec.ofNat 32 k.val
  · rw [if_pos h, if_pos h, one_mul]
  · rw [if_neg h, if_neg h, zero_mul]

/-- Point n's own row over the larger of its class's number and one, as the body forms it. -/
private theorem scaled_apply (v11 : Vec Ideal S2000x1 .f32) (v15 : Vec Ideal S2000x32 .f32) (n : Fin 2000) (d : Fin 32) :
    (divf v15 (broadcastTo S2000x32 (maximumf (shapeCast S2000x1 v11 shapeCasts_S2000x1_S2000x1)
        (broadcast S2000x1 (Scalar.ofBits (F := Ideal) .f32 0x3F800000#32))) broadcasts_S2000x1_S2000x32) : S2000x32.Idx → EReal) (ix2 n d)
      = scaled v11 v15 n d := by
  rw [shapeCast_self]
  have hb : broadcastTo S2000x32 (maximumf v11 (broadcast S2000x1 (Scalar.ofBits (F := Ideal) .f32 0x3F800000#32))) broadcasts_S2000x1_S2000x32 (ix2 n d)
      = maximumf v11 (broadcast S2000x1 (Scalar.ofBits (F := Ideal) .f32 0x3F800000#32)) (ix2 n 0) :=
    broadcastTo_apply _ broadcasts_S2000x1_S2000x32 (ix2 n d) (ix2 n 0) (fun a => match a with
      | ⟨0, _⟩ => by show n.val = if (2000 : Nat) = 1 then 0 else n.val; rw [if_neg (by decide)]
      | ⟨1, _⟩ => by show 0 = if (1 : Nat) = 1 then 0 else d.val; rw [if_pos rfl])
  show Ideal.div (v15 (ix2 n d)) (broadcastTo S2000x32 (maximumf v11 (broadcast S2000x1 (Scalar.ofBits (F := Ideal) .f32 0x3F800000#32))) broadcasts_S2000x1_S2000x32 (ix2 n d)) = _
  rw [hb]
  rfl

/-- The sum along a row of a 2000 x 32 table. -/
private theorem red_apply (w : FVec Ideal S2000x32 .f32) (n : Fin 2000) :
    (multiReduction (F := Ideal) .add [1] S2000 w 0x00000000#32 reduces_S2000x32_S2000 (.inl rfl) rfl : S2000.Idx → EReal) (ix1 n)
      = ∑ d : Fin 32, (w (ix2 n d) : EReal) := by
  refine (Ideal.multiReduction_add_single w 0x00000000#32 reduces_S2000x32_S2000 (.inl rfl) rfl (ix1 n)).trans ?_
  show ∑ k : Fin 32, (w (reduces_S2000x32_S2000.lift (ix1 n) k) : EReal) = _
  refine Finset.sum_congr rfl fun k _ => congrArg w ?_
  funext c
  apply Fin.ext
  match c with
  | ⟨0, _⟩ => rfl
  | ⟨1, _⟩ => rfl

/-- The square root of a row's sum, as a column. -/
private theorem dist_apply (w : FVec Ideal S2000x32 .f32) (n : Fin 2000) :
    (truncf .bf16 (sqrt (shapeCast S2000x1 (multiReduction (F := Ideal) .add [1] S2000 w 0x00000000#32 reduces_S2000x32_S2000 (.inl rfl) rfl)
        shapeCasts_S2000_S2000x1)) bitsLt_bf16_f32 : S2000x1.Idx → EReal) (ix2 n 0)
      = Ideal.sqrt (∑ d : Fin 32, (w (ix2 n d) : EReal)) := by
  show Ideal.sqrt (shapeCast S2000x1 (multiReduction (F := Ideal) .add [1] S2000 w 0x00000000#32 reduces_S2000x32_S2000 (.inl rfl) rfl)
        shapeCasts_S2000_S2000x1 (ix2 n 0)) = _
  refine congrArg Ideal.sqrt ?_
  refine (shapeCast_apply _ shapeCasts_S2000_S2000x1 (ix2 n 0) (ix1 n) ?_).trans (red_apply w n)
  rw [Shape.rowMajor_val_one, Shape.rowMajor_val_two]
  show n.val = n.val * 1 + 0
  omega

/-! The second product: columns of the zero-one matrix against the column of distances. -/

private theorem lhs2_0 (i : S1024x1.Idx) (q : dot_S2000x1024_S2000x1_S1024x1_0_0_1_1_n_n.contr.Idx) :
    (dot_S2000x1024_S2000x1_S1024x1_0_0_1_1_n_n.lhsIdx i q 0).val = (q ⟨0, by decide⟩).val :=
  dot_S2000x1024_S2000x1_S1024x1_0_0_1_1_n_n.lhsIdx_val_of_single rfl i q
private theorem lhs2_1 (i : S1024x1.Idx) (q : dot_S2000x1024_S2000x1_S1024x1_0_0_1_1_n_n.contr.Idx) :
    (dot_S2000x1024_S2000x1_S1024x1_0_0_1_1_n_n.lhsIdx i q 1).val = (i 0).val := by
  unfold DotDims.lhsIdx
  rw [dif_neg (show ¬(1 : Fin S2000x1024.rank) ∈ dot_S2000x1024_S2000x1_S1024x1_0_0_1_1_n_n.lhsBatch by decide), dif_pos (show (1 : Fin S2000x1024.rank) ∈ dot_S2000x1024_S2000x1_S1024x1_0_0_1_1_n_n.lhsNonContracting by decide)]
  rfl
private theorem rhs2_0 (i : S1024x1.Idx) (q : dot_S2000x1024_S2000x1_S1024x1_0_0_1_1_n_n.contr.Idx) :
    (dot_S2000x1024_S2000x1_S1024x1_0_0_1_1_n_n.rhsIdx i q 0).val = (q ⟨0, by decide⟩).val :=
  dot_S2000x1024_S2000x1_S1024x1_0_0_1_1_n_n.rhsIdx_val_of_single rfl i q
private theorem rhs2_1 (i : S1024x1.Idx) (q : dot_S2000x1024_S2000x1_S1024x1_0_0_1_1_n_n.contr.Idx) :
    (dot_S2000x1024_S2000x1_S1024x1_0_0_1_1_n_n.rhsIdx i q 1).val = (i 1).val := by
  unfold DotDims.rhsIdx
  rw [dif_neg (show ¬(1 : Fin S2000x1.rank) ∈ dot_S2000x1024_S2000x1_S1024x1_0_0_1_1_n_n.rhsBatch by decide), dif_pos (show (1 : Fin S2000x1.rank) ∈ dot_S2000x1024_S2000x1_S1024x1_0_0_1_1_n_n.rhsNonContracting by decide)]
  rfl

/-- The second product at row r: the entries of the column at the points whose class word is r, summed. -/
private theorem prod2_apply (v3 : Vec Ideal S2000x1 .i32) (z : FVec Ideal S2000x1 .bf16) (r : Fin 1024) :
    (matmul dot_S2000x1024_S2000x1_S1024x1_0_0_1_1_n_n none (onehot v3) z (constant (F := Ideal) S1024x1 .f32 0x00000000#32) : S1024x1.Idx → EReal) (ix2 r 0)
      = ∑ n : Fin 2000, if (v3 (ix2 n 0) : BitVec 32) = BitVec.ofNat 32 r.val then (z (ix2 n 0) : EReal) else 0 := by
  refine (Ideal.matmul_constant_zero_apply dot_S2000x1024_S2000x1_S1024x1_0_0_1_1_n_n none _ _ (ix2 r 0)).trans ?_
  rw [← Equiv.sum_comp (contrEquiv1 dot_S2000x1024_S2000x1_S1024x1_0_0_1_1_n_n 2000 rfl rfl).symm]
  refine Finset.sum_congr rfl fun k _ => ?_
  have hk := contrEquiv1_symm_val dot_S2000x1024_S2000x1_S1024x1_0_0_1_1_n_n 2000 rfl rfl k
  have el : dot_S2000x1024_S2000x1_S1024x1_0_0_1_1_n_n.lhsIdx (ix2 r 0) ((contrEquiv1 dot_S2000x1024_S2000x1_S1024x1_0_0_1_1_n_n 2000 rfl rfl).symm k) = ix2 k r := funext fun a => Fin.ext (by
    match a with
    | ⟨0, _⟩ => exact (lhs2_0 _ _).trans hk
    | ⟨1, _⟩ => exact lhs2_1 _ _)
  have er : dot_S2000x1024_S2000x1_S1024x1_0_0_1_1_n_n.rhsIdx (ix2 r 0) ((contrEquiv1 dot_S2000x1024_S2000x1_S1024x1_0_0_1_1_n_n 2000 rfl rfl).symm k) = ix2 k 0 := funext fun a => Fin.ext (by
    match a with
    | ⟨0, _⟩ => exact (rhs2_0 _ _).trans hk
    | ⟨1, _⟩ => exact rhs2_1 _ _)
  rw [el, er, onehot_apply]
  by_cases h : (v3 (ix2 k 0) : BitVec 32) = BitVec.ofNat 32 r.val
  · rw [if_pos h, if_pos h, one_mul]
  · rw [if_neg h, if_neg h, zero_mul]

/-- The store's value at row r: what the table held there plus the distances of the block's points whose class word
    is r. -/
theorem pay2_apply (v3 : Vec Ideal S2000x1 .i32) (v11 : Vec Ideal S2000x1 .f32) (v15 : Vec Ideal S2000x32 .f32)
    (v18 : Vec Ideal S1024x32 .f32) (v29 : Vec Ideal S1x1024x1 .f32) (r : Fin 1024) :
    (k1_pay2 v3 v11 v15 v18 v29 : S1x1024x1.Idx → EReal) (ix3 0 r 0)
      = (v29 (ix3 0 r 0) : EReal) + ∑ n : Fin 2000,
          if (v3 (ix2 n 0) : BitVec 32) = BitVec.ofNat 32 r.val
          then Ideal.sqrt (∑ d : Fin 32, (picked v3 v18 n d - scaled v11 v15 n d) * (picked v3 v18 n d - scaled v11 v15 n d))
          else 0 := by
  have e : k1_pay2 v3 v11 v15 v18 v29
      = shapeCast S1x1024x1 (addf (shapeCast S1024x1 v29 shapeCasts_S1x1024x1_S1024x1)
          (matmul dot_S2000x1024_S2000x1_S1024x1_0_0_1_1_n_n none (onehot v3)
            (truncf .bf16 (sqrt (shapeCast S2000x1 (multiReduction (F := Ideal) .add [1] S2000
              (mulf
                (subf (matmul dot_S2000x1024_S1024x32_S2000x32_1_0_0_1_n_n none (onehot v3)
                    (truncf .bf16 (shapeCast S1024x32 v18 shapeCasts_S1024x32_S1024x32) bitsLt_bf16_f32)
                    (constant (F := Ideal) S2000x32 .f32 0x00000000#32))
                  (divf v15 (broadcastTo S2000x32 (maximumf (shapeCast S2000x1 v11 shapeCasts_S2000x1_S2000x1)
                    (broadcast S2000x1 (Scalar.ofBits (F := Ideal) .f32 0x3F800000#32))) broadcasts_S2000x1_S2000x32)))
                (subf (matmul dot_S2000x1024_S1024x32_S2000x32_1_0_0_1_n_n none (onehot v3)
                    (truncf .bf16 (shapeCast S1024x32 v18 shapeCasts_S1024x32_S1024x32) bitsLt_bf16_f32)
                    (constant (F := Ideal) S2000x32 .f32 0x00000000#32))
                  (divf v15 (broadcastTo S2000x32 (maximumf (shapeCast S2000x1 v11 shapeCasts_S2000x1_S2000x1)
                    (broadcast S2000x1 (Scalar.ofBits (F := Ideal) .f32 0x3F800000#32))) broadcasts_S2000x1_S2000x32))))
              0x00000000#32 reduces_S2000x32_S2000 (.inl rfl) rfl) shapeCasts_S2000_S2000x1)) bitsLt_bf16_f32)
            (constant (F := Ideal) S1024x1 .f32 0x00000000#32))) shapeCasts_S1024x1_S1x1024x1 := rfl
  rw [e]
  refine (shapeCast_ab_1ab_apply _ shapeCasts_S1024x1_S1x1024x1 0 r 0).trans ?_
  refine (addf_apply _ _ (ix2 r 0)).trans ?_
  rw [shapeCast_1ab_ab_apply v29 shapeCasts_S1x1024x1_S1024x1 r 0, prod2_apply]
  refine congrArg (fun t => (v29 (ix3 0 r 0) : EReal) + t) (Finset.sum_congr rfl fun n _ => ?_)
  rw [dist_apply]
  by_cases h : (v3 (ix2 n 0) : BitVec 32) = BitVec.ofNat 32 r.val
  · rw [if_pos h, if_pos h]
    refine congrArg Ideal.sqrt (Finset.sum_congr rfl fun d _ => ?_)
    refine (mulf_apply _ _ (ix2 n d)).trans ?_
    rw [subf_apply, prod1_apply, scaled_apply]
  · rw [if_neg h, if_neg h]

end Cert.KernelIdeal.Pass2

end
-- ==== Proof.Pass2.lean ====
/-
  The second accumulation, read off its run. Each grid point (k, j) takes block 500 k + j of the points with their
  class words and their classes' numbers, and the whole 1024 x 32 table of moved rows; for each point it picks its
  class's moved row, takes the distance to the point's own row divided by the larger of its class's number and one,
  and adds the distance into row r of half k's 1024 x 1 table for the points whose class word is r. The table is
  zeroed at j = 0 and written back after j = 499. So entry (k, r, 0) of the result is the sum, over the blocks j of
  half k and the points n of the block, of the point's distance where the class word is r, and zero elsewhere.
-/
import proofs.«400231_j59957743452612_2_alg».proof.Proof.Gen.KernelIdeal.Frame
import proofs.«400231_j59957743452612_2_alg».proof.Proof.Spec
import proofs.«400231_j59957743452612_2_alg».proof.Proof.Pass2Body
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Pass2

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

example : Pipeline.arrRef spec1 0 = main_arg0 := rfl
example : Pipeline.arrRef spec1 1 = main_v7 := rfl
example : Pipeline.arrRef spec1 2 = main_v6 := rfl
example : Pipeline.arrRef spec1 3 = main_v16 := rfl
example : Pipeline.arrRef spec1 4 = main_v17 := rfl

/-- The moved row point e's class word picks out of the 1024-row table Q, entry d. -/
def pickedAt (T : (⟨2, ![2000000, 1]⟩ : Shape).Idx → BitVec 32) (Q : (⟨2, ![1024, 32]⟩ : Shape).Idx → EReal)
    (e : Fin 2000000) (d : Fin 32) : EReal :=
  ∑ r' : Fin 1024, if T (ix2 e 0) = BitVec.ofNat 32 r'.val then Q (ix2 r' d) else 0

/-- Point e's own row divided by the larger of its class's number and one, entry d. -/
def scaledAt (P : (⟨2, ![2000000, 32]⟩ : Shape).Idx → EReal) (G : (⟨2, ![2000000, 1]⟩ : Shape).Idx → EReal)
    (e : Fin 2000000) (d : Fin 32) : EReal :=
  Ideal.div (P (ix2 e d)) (max (G (ix2 e 0)) (Ideal.ofBits .f32 0x3F800000#32))

/-- Point e's distance from the row it picks. -/
def distAt (P : (⟨2, ![2000000, 32]⟩ : Shape).Idx → EReal) (T : (⟨2, ![2000000, 1]⟩ : Shape).Idx → BitVec 32)
    (G : (⟨2, ![2000000, 1]⟩ : Shape).Idx → EReal) (Q : (⟨2, ![1024, 32]⟩ : Shape).Idx → EReal) (e : Fin 2000000) : EReal :=
  Ideal.sqrt (∑ d : Fin 32, (pickedAt T Q e d - scaledAt P G e d) * (pickedAt T Q e d - scaledAt P G e d))

/-! ## The blocks a grid point reads, and the four arrays -/

/-- The block of the points' rows at a grid point. -/
private abbrev xb0 (c : Dev nD) (t : Fin cfg1.N) : Vec Ideal S2000x32 .f32 := iblk1 V c 0 t
/-- The block of class words at a grid point. -/
private abbrev xb1 (c : Dev nD) (t : Fin cfg1.N) : Vec Ideal S2000x1 .i32 := iblk1 V c 1 t
/-- The block of the classes' numbers at a grid point. -/
private abbrev xb2 (c : Dev nD) (t : Fin cfg1.N) : Vec Ideal S2000x1 .f32 := iblk1 V c 2 t
/-- The table of moved rows as a grid point reads it. -/
private abbrev xb3 (c : Dev nD) (t : Fin cfg1.N) : Vec Ideal S1024x32 .f32 := iblk1 V c 3 t

/-- The four arrays the region reads. -/
private abbrev arrP (c : Dev nD) : (⟨2, ![2000000, 32]⟩ : Shape).Idx → EReal := V c main_arg0
private abbrev arrT (c : Dev nD) : (⟨2, ![2000000, 1]⟩ : Shape).Idx → BitVec 32 := V c main_v7
private abbrev arrG (c : Dev nD) : (⟨2, ![2000000, 1]⟩ : Shape).Idx → EReal := V c main_v6
private abbrev arrQ (c : Dev nD) : (⟨2, ![1024, 32]⟩ : Shape).Idx → EReal := V c main_v16

/-- The block indices, decided once over the grid: every input block moves with the point, the table stays, and the
    result's block is the half the point lies in. -/
private theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 3) = t.val / 500 ∧ win1_4.index t (1 : Fin 3) = 0 ∧ win1_4.index t (2 : Fin 3) = 0 :=
  (by decide +kernel : ∀ t : Fin grid1.N, _)

private theorem lt_N (t : Fin 1000) : t.val < cfg1.N := lt_of_lt_of_eq t.isLt (show (1000 : ℕ) = cfg1.N from N_1.symm)

/-! ## A block read at an index is the array read at the global point -/

private theorem xb0_apply (c : Dev nD) (t : Fin 1000) (n : Fin 2000) (d : Fin 32) :
    (xb0 V c ⟨t.val, lt_N t⟩ (ix2 n d) : EReal) = arrP V c (ix2 (Cert.Spec.pt t n) d) := by
  obtain ⟨e0, e1, -⟩ := idx_facts ⟨t.val, lt_N t⟩
  unfold xb0 iblk1
  rw [View.read_apply]
  show V c main_arg0 _ = V c main_arg0 _
  refine congrArg (V c main_arg0) ?_
  funext a; apply Fin.ext
  match a with
  | ⟨0, _⟩ => show win1_0.index ⟨t.val, lt_N t⟩ (0 : Fin 2) * 2000 + 1 * n.val = 2000 * t.val + n.val; rw [e0]; show t.val * 2000 + 1 * n.val = 2000 * t.val + n.val; omega
  | ⟨1, _⟩ => show win1_0.index ⟨t.val, lt_N t⟩ (1 : Fin 2) * 32 + 1 * d.val = d.val; rw [e1]; omega

private theorem xb1_apply (c : Dev nD) (t : Fin 1000) (n : Fin 2000) :
    (xb1 V c ⟨t.val, lt_N t⟩ (ix2 n 0) : BitVec 32) = arrT V c (ix2 (Cert.Spec.pt t n) 0) := by
  obtain ⟨-, -, e0, e1, -⟩ := idx_facts ⟨t.val, lt_N t⟩
  unfold xb1 iblk1
  rw [View.read_apply]
  show V c main_v7 _ = V c main_v7 _
  refine congrArg (V c main_v7) ?_
  funext a; apply Fin.ext
  match a with
  | ⟨0, _⟩ => show win1_1.index ⟨t.val, lt_N t⟩ (0 : Fin 2) * 2000 + 1 * n.val = 2000 * t.val + n.val; rw [e0]; show t.val * 2000 + 1 * n.val = 2000 * t.val + n.val; omega
  | ⟨1, _⟩ => show win1_1.index ⟨t.val, lt_N t⟩ (1 : Fin 2) * 1 + 1 * 0 = 0; rw [e1]

private theorem xb2_apply (c : Dev nD) (t : Fin 1000) (n : Fin 2000) :
    (xb2 V c ⟨t.val, lt_N t⟩ (ix2 n 0) : EReal) = arrG V c (ix2 (Cert.Spec.pt t n) 0) := by
  obtain ⟨-, -, -, -, e0, e1, -⟩ := idx_facts ⟨t.val, lt_N t⟩
  unfold xb2 iblk1
  rw [View.read_apply]
  show V c main_v6 _ = V c main_v6 _
  refine congrArg (V c main_v6) ?_
  funext a; apply Fin.ext
  match a with
  | ⟨0, _⟩ => show win1_2.index ⟨t.val, lt_N t⟩ (0 : Fin 2) * 2000 + 1 * n.val = 2000 * t.val + n.val; rw [e0]; show t.val * 2000 + 1 * n.val = 2000 * t.val + n.val; omega
  | ⟨1, _⟩ => show win1_2.index ⟨t.val, lt_N t⟩ (1 : Fin 2) * 1 + 1 * 0 = 0; rw [e1]

private theorem xb3_apply (c : Dev nD) (t : Fin 1000) (r' : Fin 1024) (d : Fin 32) :
    (xb3 V c ⟨t.val, lt_N t⟩ (ix2 r' d) : EReal) = arrQ V c (ix2 r' d) := by
  obtain ⟨-, -, -, -, -, -, e0, e1, -⟩ := idx_facts ⟨t.val, lt_N t⟩
  unfold xb3 iblk1
  rw [View.read_apply]
  show V c main_v16 _ = V c main_v16 _
  refine congrArg (V c main_v16) ?_
  funext a; apply Fin.ext
  match a with
  | ⟨0, _⟩ => show win1_3.index ⟨t.val, lt_N t⟩ (0 : Fin 2) * 1024 + 1 * r'.val = r'.val; rw [e0]; omega
  | ⟨1, _⟩ => show win1_3.index ⟨t.val, lt_N t⟩ (1 : Fin 2) * 32 + 1 * d.val = d.val; rw [e1]; omega

/-! ## One block's total, and the running total over a half -/

/-- Block s's total for row r: the distances of the block's points whose class word is r, over the block's own
    contents (zero past the grid). -/
private def blockTerm (c : Dev nD) (s : ℕ) (r : Fin 1024) : EReal :=
  if h : s < cfg1.N then
    ∑ n : Fin 2000, if (xb1 V c ⟨s, h⟩ (ix2 n 0) : BitVec 32) = BitVec.ofNat 32 r.val then
        Ideal.sqrt (∑ d : Fin 32,
          (picked (xb1 V c ⟨s, h⟩) (xb3 V c ⟨s, h⟩) n d - scaled (xb2 V c ⟨s, h⟩) (xb0 V c ⟨s, h⟩) n d)
            * (picked (xb1 V c ⟨s, h⟩) (xb3 V c ⟨s, h⟩) n d - scaled (xb2 V c ⟨s, h⟩) (xb0 V c ⟨s, h⟩) n d))
      else 0
  else 0

/-- At the first block of a half the table holds that block's total. -/
private theorem step_A (c : Dev nD) (t : Fin cfg1.N) (h0 : t.val % 500 = 0) (r : Fin 1024) :
    (outsAt1 V c t.val t.isLt : S1x1024x1.Idx → EReal) (ix3 0 r 0) = blockTerm V c t.val r := by
  rw [outsAt1_A V c t h0]
  refine (congrFun (out_A (F := Ideal) c (grid1.coords t) (ms1_0 t) (hs1_0 t) (ms1_1 t) (hs1_1 t) (ms1_2 t) (hs1_2 t)
    (ms1_3 t) (hs1_3 t) (ms1_4 t) (hs1_4 t) ((hcond1_0 t).mpr h0) (xb0 V c t) (xb1 V c t) (xb2 V c t) (xb3 V c t))
    (ix3 0 r 0)).trans ?_
  rw [pay2_apply, pay1_apply, zero_add]
  unfold blockTerm
  rw [dif_pos t.isLt]

/-- At a later block the table holds what the block before left plus this block's total. -/
private theorem step_B (c : Dev nD) (p : ℕ) (h : p + 1 < cfg1.N) (h0 : ¬(p + 1) % 500 = 0) (r : Fin 1024) :
    (outsAt1 V c (p + 1) h : S1x1024x1.Idx → EReal) (ix3 0 r 0)
      = (outsAt1 V c p (Nat.lt_of_succ_lt h) : S1x1024x1.Idx → EReal) (ix3 0 r 0) + blockTerm V c (p + 1) r := by
  rw [outsAt1_B V c ⟨p + 1, h⟩ h0]
  refine (congrFun (out_B (F := Ideal) c (grid1.coords ⟨p + 1, h⟩) (ms1_0 ⟨p + 1, h⟩) (hs1_0 ⟨p + 1, h⟩)
    (ms1_1 ⟨p + 1, h⟩) (hs1_1 ⟨p + 1, h⟩) (ms1_2 ⟨p + 1, h⟩) (hs1_2 ⟨p + 1, h⟩) (ms1_3 ⟨p + 1, h⟩) (hs1_3 ⟨p + 1, h⟩)
    (ms1_4 ⟨p + 1, h⟩) (hs1_4 ⟨p + 1, h⟩) (fun hc => h0 ((hcond1_0 ⟨p + 1, h⟩).mp hc))
    (xb0 V c ⟨p + 1, h⟩) (xb1 V c ⟨p + 1, h⟩) (xb2 V c ⟨p + 1, h⟩) (xb3 V c ⟨p + 1, h⟩)
    (outsAt1 V c p (Nat.lt_of_succ_lt h))) (ix3 0 r 0)).trans ?_
  rw [pay2_apply]
  unfold blockTerm
  rw [dif_pos h]

/-- The table after block j of half q holds the totals of the half's blocks 0 to j. -/
private theorem run_eq (c : Dev nD) (q : ℕ) : ∀ (j : ℕ), j < 500 → ∀ (h : 500 * q + j < cfg1.N) (r : Fin 1024),
    (outsAt1 V c (500 * q + j) h : S1x1024x1.Idx → EReal) (ix3 0 r 0)
      = ∑ s ∈ Finset.range (j + 1), blockTerm V c (500 * q + s) r
  | 0, _, h, r => by
    rw [Finset.sum_range_one]
    exact step_A V c ⟨500 * q + 0, h⟩ (by show (500 * q + 0) % 500 = 0; omega) r
  | j + 1, hj, h, r => by
    rw [Finset.sum_range_succ, ← run_eq c q j (by omega) (by omega) r]
    exact step_B V c (500 * q + j) h (by omega) r

/-- The running total does not depend on how the block's number is written. -/
private theorem outsAt_congr (c : Dev nD) (u u' : ℕ) (e : u = u') (hu : u < cfg1.N) (hu' : u' < cfg1.N) :
    outsAt1 V c u hu = outsAt1 V c u' hu' := by
  subst e; rfl

/-! ## A block's total over the arrays -/

/-- The row a block's point picks is the row the global point picks. -/
private theorem picked_eq (c : Dev nD) (t : Fin 1000) (n : Fin 2000) (d : Fin 32) :
    picked (xb1 V c ⟨t.val, lt_N t⟩) (xb3 V c ⟨t.val, lt_N t⟩) n d
      = pickedAt (arrT V c) (arrQ V c) (Cert.Spec.pt t n) d := by
  unfold picked pickedAt
  refine Finset.sum_congr rfl fun r' _ => ?_
  rw [xb1_apply V c t n, xb3_apply V c t r' d]

/-- A block's point's scaled row is the global point's. -/
private theorem scaled_eq (c : Dev nD) (t : Fin 1000) (n : Fin 2000) (d : Fin 32) :
    scaled (xb2 V c ⟨t.val, lt_N t⟩) (xb0 V c ⟨t.val, lt_N t⟩) n d
      = scaledAt (arrP V c) (arrG V c) (Cert.Spec.pt t n) d := by
  unfold scaled scaledAt
  rw [xb0_apply V c t n d, xb2_apply V c t n]

/-- Block t's total, over the arrays: the distances of its points of class word r. -/
private theorem blockTerm_eq (c : Dev nD) (t : Fin 1000) (r : Fin 1024) :
    blockTerm V c t.val r = ∑ n : Fin 2000,
      if arrT V c (ix2 (Cert.Spec.pt t n) 0) = BitVec.ofNat 32 r.val
      then distAt (arrP V c) (arrT V c) (arrG V c) (arrQ V c) (Cert.Spec.pt t n)
      else 0 := by
  unfold blockTerm
  rw [dif_pos (lt_N t)]
  refine Finset.sum_congr rfl fun n _ => ?_
  rw [xb1_apply V c t n]
  refine if_congr Iff.rfl ?_ rfl
  unfold distAt
  refine congrArg Ideal.sqrt (Finset.sum_congr rfl fun d _ => ?_)
  rw [picked_eq V c t n d, scaled_eq V c t n d]

/-! ## From the table to the result array -/

/-- What the result array ends holding: entry (k, r, 0) is the total of half k's five hundred blocks for row r. -/
private def halfTotal (c : Dev nD) : (⟨3, ![2, 1024, 1]⟩ : Shape).Idx → EReal :=
  fun i => ∑ s ∈ Finset.range 500, blockTerm V c (500 * (i 0).val + s) (i 1)

/-- Every index of the 1 x 1024 x 1 table is (0, r, 0). -/
private theorem idx_form (y : (⟨3, ![1, 1024, 1]⟩ : Shape).Idx) : y = ix3 (0 : Fin 1) (y 1) (0 : Fin 1) := by
  funext a
  match a with
  | ⟨0, _⟩ => exact Fin.ext (by have h : (y 0).val < 1 := (y 0).isLt; show (y 0).val = 0; omega)
  | ⟨1, _⟩ => rfl
  | ⟨2, _⟩ => exact Fin.ext (by have h : (y 2).val < 1 := (y 2).isLt; show (y 2).val = 0; omega)

/-- The last block of a half writes back the half's block of the totals. -/
private theorem flushed_eq (c : Dev nD) (t : Fin cfg1.N) (hf : (cfg1.win 4).flush t = true) :
    (dat1 (F := Ideal) V c).flushed 4 t = ((cfg1.win 4).blk t).view.read (Elt Ideal) (halfTotal V c) := by
  have h499 : t.val % 500 = 499 := (flush1_4 t).mp hf
  have hN : t.val < 1000 := lt_of_lt_of_eq t.isLt (show cfg1.N = 1000 from N_1)
  obtain ⟨-, -, -, -, -, -, -, -, e0, e1, e2⟩ := idx_facts t
  show (cfg1.win 4).cut (grid1.coords t) ((dat1 (F := Ideal) V c).after 4 t) = _
  rw [after1_4]
  refine funext fun (y : (⟨3, ![1, 1024, 1]⟩ : Shape).Idx) => ?_
  rw [View.read_apply]
  have hemb : ((cfg1.win 4).blk t).view.emb y = (ix3 ⟨t.val / 500, by omega⟩ (y 1) 0 : (⟨3, ![2, 1024, 1]⟩ : Shape).Idx) := by
    funext a; apply Fin.ext
    match a with
    | ⟨0, _⟩ => show win1_4.index t (0 : Fin 3) * 1 + 1 * (y 0).val = t.val / 500; rw [e0]; have h : (y 0).val < 1 := (y 0).isLt; omega
    | ⟨1, _⟩ => show win1_4.index t (1 : Fin 3) * 1024 + 1 * (y 1).val = (y 1).val; rw [e1]; omega
    | ⟨2, _⟩ => show win1_4.index t (2 : Fin 3) * 1 + 1 * (y 2).val = 0; rw [e2]; have h : (y 2).val < 1 := (y 2).isLt; omega
  show (outsAt1 V c t.val t.isLt : S1x1024x1.Idx → EReal) y = halfTotal V c (((cfg1.win 4).blk t).view.emb y)
  rw [hemb, idx_form y]
  show (outsAt1 V c t.val t.isLt : S1x1024x1.Idx → EReal) (ix3 0 (y 1) 0)
    = ∑ s ∈ Finset.range 500, blockTerm V c (500 * (t.val / 500) + s) (y 1)
  have hlt : 500 * (t.val / 500) + 499 < cfg1.N := lt_of_lt_of_eq (by omega) (show (1000 : ℕ) = cfg1.N from N_1.symm)
  rw [outsAt_congr V c t.val (500 * (t.val / 500) + 499) (by omega) t.isLt hlt]
  exact run_eq V c (t.val / 500) 499 (by omega) hlt (y 1)

/-- An index of the result array is in a point's block iff each coordinate is in the block's range on its axis. -/
private theorem mem_blk (t : Fin cfg1.N) (i : (⟨3, ![2, 1024, 1]⟩ : Shape).Idx) :
    i ∈ ((cfg1.win 4).blk t).view.set ↔ ∀ a : Fin 3, win1_4.index t a * S1x1024x1.size a ≤ (i a).val
      ∧ (i a).val < win1_4.index t a * S1x1024x1.size a + S1x1024x1.size a := by
  show i ∈ ((View.whole main_v17).slice (win1_4.rect t)).set ↔ _
  rw [View.set_slice_whole, Rect.mem_set_unit]
  exact Iff.rfl

/-- So the result array ends holding the halves' totals: the last block of half k covers its rows. -/
private theorem final_arr (c : Dev nD) : (dat1 (F := Ideal) V c).arrAt 4 cfg1.N = halfTotal V c :=
  (dat1 (F := Ideal) V c).arrAt_eq_of_cover 4 (halfTotal V c) (flushed_eq V c) fun i => by
    have hi0 : (i 0).val < 2 := (i 0).isLt
    have hi1 : (i 1).val < 1024 := (i 1).isLt
    have hi2 : (i 2).val < 1 := (i 2).isLt
    have hlt : 500 * (i 0).val + 499 < cfg1.N := lt_of_lt_of_eq (by omega) (show (1000 : ℕ) = cfg1.N from N_1.symm)
    refine ⟨⟨500 * (i 0).val + 499, hlt⟩, (flush1_4 _).mpr (by show (500 * (i 0).val + 499) % 500 = 499; omega), ?_⟩
    obtain ⟨-, -, -, -, -, -, -, -, e0, e1, e2⟩ := idx_facts ⟨500 * (i 0).val + 499, hlt⟩
    rw [mem_blk]
    intro a
    match a with
    | ⟨0, _⟩ =>
      show win1_4.index ⟨500 * (i 0).val + 499, hlt⟩ (0 : Fin 3) * 1 ≤ (i 0).val
        ∧ (i 0).val < win1_4.index ⟨500 * (i 0).val + 499, hlt⟩ (0 : Fin 3) * 1 + 1
      rw [e0]; show (500 * (i 0).val + 499) / 500 * 1 ≤ (i 0).val ∧ (i 0).val < (500 * (i 0).val + 499) / 500 * 1 + 1; omega
    | ⟨1, _⟩ =>
      show win1_4.index ⟨500 * (i 0).val + 499, hlt⟩ (1 : Fin 3) * 1024 ≤ (i 1).val
        ∧ (i 1).val < win1_4.index ⟨500 * (i 0).val + 499, hlt⟩ (1 : Fin 3) * 1024 + 1024
      rw [e1]; omega
    | ⟨2, _⟩ =>
      show win1_4.index ⟨500 * (i 0).val + 499, hlt⟩ (2 : Fin 3) * 1 ≤ (i 2).val
        ∧ (i 2).val < win1_4.index ⟨500 * (i 0).val + 499, hlt⟩ (2 : Fin 3) * 1 + 1
      rw [e2]; omega

/-- The second accumulation's result array, entry by entry, from the four arrays the region reads: the points' rows P,
    their class words T, their classes' numbers G and the table of moved rows Q. -/
theorem arr_final (c : Dev nD)
    (P : (⟨2, ![2000000, 32]⟩ : Shape).Idx → EReal) (T : (⟨2, ![2000000, 1]⟩ : Shape).Idx → BitVec 32)
    (G : (⟨2, ![2000000, 1]⟩ : Shape).Idx → EReal) (Q : (⟨2, ![1024, 32]⟩ : Shape).Idx → EReal)
    (hP : V c main_arg0 = P) (hT : V c main_v7 = T) (hG : V c main_v6 = G) (hQ : V c main_v16 = Q)
    (k : Fin 2) (r : Fin 1024) :
    ((dat1 (F := Ideal) V c).arrAt 4 cfg1.N : (⟨3, ![2, 1024, 1]⟩ : Shape).Idx → EReal) (ix3 k r 0)
      = ∑ j : Fin 500, ∑ n : Fin 2000,
          if T (ix2 (Cert.Spec.pt (Cert.Spec.blk k j) n) 0) = BitVec.ofNat 32 r.val
          then distAt P T G Q (Cert.Spec.pt (Cert.Spec.blk k j) n)
          else 0 := by
  subst hP hT hG hQ
  refine (congrFun (final_arr V c) (ix3 k r 0)).trans ?_
  show ∑ s ∈ Finset.range 500, blockTerm V c (500 * k.val + s) r = _
  rw [Finset.sum_range]
  refine Finset.sum_congr rfl fun j _ => ?_
  exact blockTerm_eq V c (Cert.Spec.blk k j) r

end Cert.KernelIdeal.Pass2

end
-- ==== Proof.LibGS.lean ====
/-
  Three index-level readings of the host's gather and accumulating scatter, for the dimension numbers of a row
  lookup `table[idx]` and of the segment sums `zeros.at[idx].add(updates)` over rows and over scalars.

  * rows gather: entry `(e, k)` of the result is the table's entry `(r, k)`, `r` the start word of edge `e` read
    signed, negative words sent to row 0, clipped to the last row;
  * rows scatter-add: entry `(s, k)` of the result is the operand's entry plus the sum of the updates' entries
    `(e, k)` over the edges `e` whose start word, read signed and not clipped, is `s`;
  * vector scatter-add: the same with scalars in place of rows.

  Each is stated over the record given by its literal fields, with the well-formedness proof a variable, so that it
  applies to any program's record with those fields by unfolding the record's name.
-/
import Idealize.ShloMosaic.PureOps.Ideal
import Idealize.ShloMosaic.Lib.ValueIdx
import Idealize.ShloMosaic.Lib.ValueIdxRank1

noncomputable section

open scoped BigOperators

namespace Cert.LibGS

open Idealize.ShloMosaic Idealize.ShloMosaic.ValueIdx

/-! ## The records -/

/-- The scalar segment sum's dimension numbers: operand `[N]`, indices `[E, 1]`, updates `[E]`. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The row segment sum's dimension numbers: operand `[N, C]`, indices `[E, 1]`, updates `[E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The row lookup's dimension numbers: table `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-! ## When an update lands on an element -/

/-- An update lands on operand element `i` exactly when, on every axis, its start plus its window coordinate is
    `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  constructor
  · intro h
    split at h
    · rename_i H
      intro a
      have h1 := congrFun (Option.some.inj h) a
      have h2 := congrArg Fin.val h1
      simp only at h2
      have := H a
      omega
    · exact absurd h (by simp)
  · intro h
    have H : ∀ a, 0 ≤ d.start j idx a + (d.window j a : ℤ) ∧ d.start j idx a + (d.window j a : ℤ) < s.size a := by
      intro a
      have := h a
      have := (i a).isLt
      omega
    rw [dif_pos H]
    congr 1
    funext a
    apply Fin.ext
    have := h a
    simp only
    omega

/-! ## The scalar segment sum -/

section Vec
variable {N E w : Nat} (wf : ScatterDims.WF ⟨1, ![N]⟩ ⟨2, ![E, 1]⟩ ⟨1, ![E]⟩ [] [0] [0] 1)

/-- Update `j` starts at the word `idx[j, 0]`, read signed. -/
theorem vec_start (idx : IVec ⟨2, ![E, 1]⟩ w) (j : (⟨1, ![E]⟩ : Shape).Idx) :
    (vecScatterDims N E wf).start j idx 0 = (idx (ix2 (j 0) 0)).toInt := by
  unfold ScatterDims.start
  rw [dif_pos (show (0 : Fin 1) ∈ (vecScatterDims N E wf).scatterDimsToOperandDims from List.mem_singleton.mpr rfl)]
  have hsi : (vecScatterDims N E wf).siIdx j ⟨List.idxOf (0 : Fin 1) (vecScatterDims N E wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no window coordinate. -/
theorem vec_window (j : (⟨1, ![E]⟩ : Shape).Idx) : (vecScatterDims N E wf).window j 0 = 0 := by
  unfold ScatterDims.window
  rw [dif_neg]
  show (0 : Fin 1) ∉ (List.finRange 1).filter (fun a => a ∉ [(0 : Fin 1)])
  decide

/-- Update `j` lands on element `s` exactly when its start word, read signed, is `s`. -/
theorem vec_resultIdx?_iff (idx : IVec ⟨2, ![E, 1]⟩ w) (j : (⟨1, ![E]⟩ : Shape).Idx) (s : Fin N) :
    (vecScatterDims N E wf).resultIdx? j idx = some (ix1 s) ↔ (idx (ix2 (j 0) 0)).toInt = (s.val : ℤ) := by
  rw [resultIdx?_eq_some_iff]
  constructor
  · intro h
    have h0 := h 0
    rw [vec_start, vec_window] at h0
    have h1 : (idx (ix2 (j 0) 0)).toInt + ((0 : ℕ) : ℤ) = (s.val : ℤ) := h0
    simpa using h1
  · intro h a
    obtain rfl : a = 0 := Subsingleton.elim _ _
    rw [vec_start, vec_window]
    show (idx (ix2 (j 0) 0)).toInt + ((0 : ℕ) : ℤ) = (s.val : ℤ)
    simpa using h

end Vec

/-- THE SCALAR SEGMENT SUM READ AT `s`: the operand's entry plus the updates of the edges whose start word, read
    signed, is `s`. -/
theorem scatterAdd_vec_apply {N E w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (s : Fin N) :
    Ideal.hostScatterAdd (vecScatterDims N E wf) x idx upd (ix1 s)
      = x (ix1 s) + ∑ e ∈ Finset.univ.filter (fun e : Fin E => (idx (ix2 e 0)).toInt = (s.val : ℤ)), upd (ix1 e) := by
  unfold Ideal.hostScatterAdd
  congr 1
  rw [Finset.sum_filter, Finset.sum_filter, ← Equiv.sum_comp (idxEquiv1 (n := E)).symm]
  refine Finset.sum_congr rfl fun e _ => ?_
  exact if_congr (vec_resultIdx?_iff wf idx (ix1 e) s) rfl rfl

/-! ## The row segment sum -/

section Rows
variable {N E C w : Nat} (wf : ScatterDims.WF ⟨2, ![N, C]⟩ ⟨2, ![E, 1]⟩ ⟨2, ![E, C]⟩ [1] [0] [0] 1)

/-- On the row axis update `j` starts at the word `idx[j₀, 0]`, read signed … -/
theorem rows_start0 (idx : IVec ⟨2, ![E, 1]⟩ w) (j : (⟨2, ![E, C]⟩ : Shape).Idx) :
    (rowScatterDims N E C wf).start j idx 0 = (idx (ix2 (j 0) 0)).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- … and on the column axis at `0`. -/
theorem rows_start1 (idx : IVec ⟨2, ![E, 1]⟩ w) (j : (⟨2, ![E, C]⟩ : Shape).Idx) :
    (rowScatterDims N E C wf).start j idx 1 = 0 := by
  unfold ScatterDims.start
  rw [dif_neg]
  show (1 : Fin 2) ∉ [(0 : Fin 2)]
  decide

/-- The row axis is inserted: no window coordinate there … -/
theorem rows_window0 (j : (⟨2, ![E, C]⟩ : Shape).Idx) : (rowScatterDims N E C wf).window j 0 = 0 := by
  unfold ScatterDims.window
  rw [dif_neg]
  show (0 : Fin 2) ∉ (List.finRange 2).filter (fun a => a ∉ [(0 : Fin 2)])
  decide

/-- … and the column axis carries the update's column. -/
theorem rows_window1 (j : (⟨2, ![E, C]⟩ : Shape).Idx) : (rowScatterDims N E C wf).window j 1 = (j 1).val := by
  unfold ScatterDims.window
  have hm : (1 : Fin 2) ∈ (rowScatterDims N E C wf).sKept := by
    show (1 : Fin 2) ∈ (List.finRange 2).filter (fun a => a ∉ [(0 : Fin 2)])
    decide
  rw [dif_pos hm]
  rfl

/-- Update `j` lands on element `(s, k)` exactly when its start word, read signed, is `s` and its column is `k`. -/
theorem rows_resultIdx?_iff (idx : IVec ⟨2, ![E, 1]⟩ w) (j : (⟨2, ![E, C]⟩ : Shape).Idx) (s : Fin N) (k : Fin C) :
    (rowScatterDims N E C wf).resultIdx? j idx = some (ix2 s k)
      ↔ (idx (ix2 (j 0) 0)).toInt = (s.val : ℤ) ∧ j 1 = k := by
  rw [resultIdx?_eq_some_iff]
  constructor
  · intro h
    have h0 := h 0
    have h1 := h 1
    rw [rows_start0, rows_window0] at h0
    rw [rows_start1, rows_window1] at h1
    have h0' : (idx (ix2 (j 0) 0)).toInt + ((0 : ℕ) : ℤ) = (s.val : ℤ) := h0
    have h1' : (0 : ℤ) + (((j 1).val : ℕ) : ℤ) = (k.val : ℤ) := h1
    refine ⟨by simpa using h0', Fin.ext ?_⟩
    omega
  · rintro ⟨h0, h1⟩ a
    match a with
    | ⟨0, _⟩ =>
      show (rowScatterDims N E C wf).start j idx 0 + (((rowScatterDims N E C wf).window j 0 : ℕ) : ℤ) = (s.val : ℤ)
      rw [rows_start0, rows_window0]
      simpa using h0
    | ⟨1, _⟩ =>
      show (rowScatterDims N E C wf).start j idx 1 + (((rowScatterDims N E C wf).window j 1 : ℕ) : ℤ) = (k.val : ℤ)
      rw [rows_start1, rows_window1, h1]
      simp

end Rows

/-- THE ROW SEGMENT SUM READ AT `(s, k)`: the operand's entry plus the updates' entries `(e, k)` of the edges whose
    start word, read signed, is `s`. -/
theorem scatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w) (upd : (⟨2, ![E, C]⟩ : Shape).Idx → EReal)
    (s : Fin N) (k : Fin C) :
    Ideal.hostScatterAdd (rowScatterDims N E C wf) x idx upd (ix2 s k)
      = x (ix2 s k)
        + ∑ e ∈ Finset.univ.filter (fun e : Fin E => (idx (ix2 e 0)).toInt = (s.val : ℤ)), upd (ix2 e k) := by
  unfold Ideal.hostScatterAdd
  congr 1
  rw [Finset.sum_filter, Finset.sum_filter, sum_idx2]
  refine Finset.sum_congr rfl fun e _ => ?_
  by_cases hP : (idx (ix2 e 0)).toInt = (s.val : ℤ)
  · rw [if_pos hP, Finset.sum_eq_single k]
    · exact if_pos ((rows_resultIdx?_iff wf idx (ix2 e k) s k).2 ⟨hP, rfl⟩)
    · intro b _ hb
      exact if_neg fun h => hb ((rows_resultIdx?_iff wf idx (ix2 e b) s k).1 h).2
    · intro h
      exact absurd (Finset.mem_univ k) h
  · rw [if_neg hP]
    exact Finset.sum_eq_zero fun b _ => if_neg fun h => hP ((rows_resultIdx?_iff wf idx (ix2 e b) s k).1 h).1

/-! ## The row lookup -/

/-- THE ROW LOOKUP READ AT `(e, k)`: the table's entry `(r, k)`, `r` the start word of `e` read signed, a negative
    word sent to `0`, clipped to the last row. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowGatherDims N E C wf).start (ix2 e k) idx 0 + (rowGatherDims N E C wf).batchCoord (ix2 e k) 0
      + (rowGatherDims N E C wf).offCoord (ix2 e k) 0 = min (idx (ix2 e 0)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e k) ⟨List.idxOf (0 : Fin 2) (rowGatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N E C wf).start (ix2 e k) idx 1 + (rowGatherDims N E C wf).batchCoord (ix2 e k) 1
      + (rowGatherDims N E C wf).offCoord (ix2 e k) 1 = k.val
    rw [GatherDims.batchCoord_eq_zero _ _ _ List.not_mem_nil]
    have hs : (rowGatherDims N E C wf).start (ix2 e k) idx 1 = 0 := by
      unfold GatherDims.start
      rw [dif_neg]
      show (1 : Fin 2) ∉ [(0 : Fin 2)]
      decide
    have ho : (rowGatherDims N E C wf).offCoord (ix2 e k) 1 = k.val := by
      unfold GatherDims.offCoord
      have hm : (1 : Fin 2) ∈ (rowGatherDims N E C wf).sKept := by
        show (1 : Fin 2) ∈ (List.finRange 2).filter (fun a => a ∉ [(0 : Fin 2)] ++ [])
        decide
      rw [dif_pos hm]
      rfl
    rw [hs, ho]
    omega

end Cert.LibGS

end
-- ==== Proof.HostA.lean ====
/-
  What the two accumulations find in the arrays they read, in terms of the program's arguments.
  Before the first: the points' rows are the first argument itself; the class words are the last argument laid out
  one to a row; each point's class's number is looked up in the fourth argument at the row the point's class word
  selects (a class word that is not negative is looked up as it is, clipped to the last row).
  Before the second: the same three arrays, unchanged, and the table of moved rows: the second argument padded
  with 24 zero rows, plus the first half's table, plus the second half's table of the first accumulation's result.
-/
import proofs.«400231_j59957743452612_2_alg».proof.Proof.Gen.KernelIdeal.Frame
import proofs.«400231_j59957743452612_2_alg».proof.Proof.Spec
import proofs.«400231_j59957743452612_2_alg».proof.Proof.LibGS
import Idealize.ShloMosaic.Lib.Pipeline.Value
import Idealize.ShloMosaic.Lib.StableHlo.Run
import Idealize.ShloMosaic.Lib.ValueIdx
import Idealize.ShloMosaic.Lib.ValueLayout
import Idealize.ShloMosaic.PureOps.Ideal.Laws
import Idealize.ShloMosaic.Lib.Tactic
import Idealize.ShloMosaic.Lib.KernelVsHost

noncomputable section

open scoped BigOperators

namespace Cert.KernelIdeal.HostA

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The program's arguments on core c, as plain arrays. -/
abbrev predM (c : Dev nD) : S2000000x32.Idx → EReal := m ((c.tc : Thread nD τ).loc main_arg0)
abbrev cenM (c : Dev nD) : S1000x32.Idx → EReal := m ((c.tc : Thread nD τ).loc main_arg1)
abbrev distM (c : Dev nD) : S1000x1.Idx → EReal := m ((c.tc : Thread nD τ).loc main_arg2)
abbrev cntM (c : Dev nD) : S1000x1.Idx → EReal := m ((c.tc : Thread nD τ).loc main_arg3)
abbrev tgtM (c : Dev nD) : S2000000.Idx → BitVec 32 := m ((c.tc : Thread nD τ).loc main_arg4)

/-- The first accumulation's result array. -/
abbrev O0 (c : Dev nD) : S2x1024x32.Idx → EReal := (dat0 (F := Ideal) (V4 m ρ) c).arrAt 3 cfg0.N

/-! ## Before the first accumulation -/

/-- A buffer that no operation of a stretch writes keeps its contents over the stretch. -/
local macro "unwritten " b:term " by " h:ident : tactic =>
  `(tactic| exact StableHlo.after_of_forall_not_mem (b := Proc.devRef .tc $b) _ _ (List.forall_iff_forall_mem.mp (by
          simp only [$h:ident, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide))))

/-- The first argument is as launched when the first accumulation starts: no operation before it writes it. -/
private theorem W4_arg0 (c : Dev nD) : W4 (F := Ideal) m ρ c (Proc.devRef .tc main_arg0) = m ((c : Thread nD τ).loc main_arg0) :=
  calc W4 (F := Ideal) m ρ c (Proc.devRef .tc main_arg0)
    _ = W3 m ρ c (Proc.devRef .tc main_arg0) := by unwritten main_arg0 by hostOps0_3
    _ = W2 m ρ c (Proc.devRef .tc main_arg0) := by unwritten main_arg0 by hostOps0_2
    _ = W1 m ρ c (Proc.devRef .tc main_arg0) := by unwritten main_arg0 by hostOps0_1
    _ = W0 m ρ c (Proc.devRef .tc main_arg0) := by unwritten main_arg0 by hostOps0
    _ = m ((c : Thread nD τ).loc main_arg0) := rfl

theorem V4_arg0 (c : Dev nD) : V4 m ρ c main_arg0 = predM m c :=
  W4_arg0 m ρ c

/-- The class words' column is written by the first stretch only. -/
private theorem W4_v7 (c : Dev nD) : W4 (F := Ideal) m ρ c (Proc.devRef .tc main_v7) = W1 m ρ c (Proc.devRef .tc main_v7) :=
  calc W4 (F := Ideal) m ρ c (Proc.devRef .tc main_v7)
    _ = W3 m ρ c (Proc.devRef .tc main_v7) := by unwritten main_v7 by hostOps0_3
    _ = W2 m ρ c (Proc.devRef .tc main_v7) := by unwritten main_v7 by hostOps0_2
    _ = W1 m ρ c (Proc.devRef .tc main_v7) := by unwritten main_v7 by hostOps0_1

theorem V4_v7 (c : Dev nD) (e : Fin 2000000) :
    (V4 m ρ c main_v7 : S2000000x1.Idx → BitVec 32) (ix2 e 0) = tgtM m c (ix1 e) := by
  show (W4 (F := Ideal) m ρ c (Proc.devRef .tc main_v7) : S2000000x1.Idx → BitVec 32) (ix2 e 0) = _
  rw [W4_v7]
  show (StableHlo.after hostOps0 (W0 (F := Ideal) m ρ c) (Proc.devRef .tc main_v7) : S2000000x1.Idx → BitVec 32) (ix2 e 0) = _
  after_results
  show shapeCast S2000000x1 (tgtM m c) shapeCasts_S2000000_S2000000x1 (ix2 e 0) = _
  refine shapeCast_apply _ _ _ (ix1 e) ?_
  rw [Shape.rowMajor_val_one, Shape.rowMajor_val_two]
  show e.val = e.val * 1 + 0
  omega

/-- The looked-up numbers' column is written by the first stretch only. -/
private theorem W4_v6 (c : Dev nD) : W4 (F := Ideal) m ρ c (Proc.devRef .tc main_v6) = W1 m ρ c (Proc.devRef .tc main_v6) :=
  calc W4 (F := Ideal) m ρ c (Proc.devRef .tc main_v6)
    _ = W3 m ρ c (Proc.devRef .tc main_v6) := by unwritten main_v6 by hostOps0_3
    _ = W2 m ρ c (Proc.devRef .tc main_v6) := by unwritten main_v6 by hostOps0_2
    _ = W1 m ρ c (Proc.devRef .tc main_v6) := by unwritten main_v6 by hostOps0_1

/-- A word that is not negative is not below zero, so the choice keeps it. -/
private theorem select_of_nonneg (t a : BitVec 32) (h : 0 ≤ t.toInt) :
    Scalar.select (IntOp.cmpi CmpIPredicate.slt t 0#32) a t = t := by
  have hs : t.slt 0#32 = false := by
    simp only [BitVec.slt, BitVec.toInt_zero, decide_eq_false_iff_not, not_lt]
    exact h
  simp [Scalar.select, IntOp.cmpi, hs]

theorem V4_v6 (c : Dev nD) (e : Fin 2000000) (h0 : 0 ≤ (tgtM m c (ix1 e)).toInt) :
    (V4 m ρ c main_v6 : S2000000x1.Idx → EReal) (ix2 e 0) = cntM m c (ix2 (Cert.Spec.row (tgtM m c) e) 0) := by
  show (W4 (F := Ideal) m ρ c (Proc.devRef .tc main_v6) : S2000000x1.Idx → EReal) (ix2 e 0) = _
  rw [W4_v6]
  show (StableHlo.after hostOps0 (W0 (F := Ideal) m ρ c) (Proc.devRef .tc main_v6) : S2000000x1.Idx → EReal) (ix2 e 0) = _
  after_results
  -- the looked-up word of the point is its class word
  have hidx : (broadcastInDim S2000000x1 ![0] bcast_S2000000_S2000000x1_0
        (select
          (cmpi CmpIPredicate.slt (tgtM m c)
            (broadcastInDim S2000000 ![] bcast_S_S2000000 (constantI S_ 32 0#32)))
          (addi (tgtM m c)
            (broadcastInDim S2000000 ![] bcast_S_S2000000 (constantI S_ 32 1000#32)))
          (tgtM m c)) : S2000000x1.Idx → BitVec 32) (ix2 e 0) = tgtM m c (ix1 e) := by
    refine (broadcastInDim_apply _ bcast_S2000000_S2000000x1_0 _ (ix2 e 0) (ix1 e) (fun a => match a with
      | ⟨0, _⟩ => by show e.val = if (2000000 : Nat) = 1 then 0 else e.val; rw [if_neg (by decide)])).trans ?_
    exact select_of_nonneg _ _ h0
  show Host.gather (Cert.LibGS.rowGatherDims 1000 2000000 1 gather_S1000x1_S2000000x1_S2000000x1_1_0_n_n_0_1_11_wf) (cntM m c)
      (broadcastInDim S2000000x1 ![0] bcast_S2000000_S2000000x1_0
        (select
          (cmpi CmpIPredicate.slt (tgtM m c)
            (broadcastInDim S2000000 ![] bcast_S_S2000000 (constantI S_ 32 0#32)))
          (addi (tgtM m c)
            (broadcastInDim S2000000 ![] bcast_S_S2000000 (constantI S_ 32 1000#32)))
          (tgtM m c)))
      (ix2 e 0) = _
  rw [Cert.LibGS.gather_rows_apply (by decide)]
  refine congrArg (cntM m c) (congrArg (fun q : Fin 1000 => (ix2 q 0 : S1000x1.Idx)) (Fin.ext ?_))
  show min (_ : BitVec 32).toInt.toNat (1000 - 1) = min (tgtM m c (ix1 e)).toInt.toNat 999
  rw [hidx]

/-! ## Before the second accumulation -/

theorem V6_arg0 (c : Dev nD) : V6 m ρ c main_arg0 = predM m c :=
  calc W6 (F := Ideal) m ρ c (Proc.devRef .tc main_arg0)
    _ = W5 m ρ c (Proc.devRef .tc main_arg0) := by unwritten main_arg0 by hostOps1
    _ = W4 m ρ c (Proc.devRef .tc main_arg0) := (W5_arr m ρ c 0).trans (((dat0 (V4 m ρ) c).arrAt_in 0 rfl _).trans (A_eq0 (V4 m ρ) c 0))
    _ = _ := W4_arg0 m ρ c

theorem V6_v7 (c : Dev nD) : V6 m ρ c main_v7 = V4 m ρ c main_v7 :=
  calc W6 (F := Ideal) m ρ c (Proc.devRef .tc main_v7)
    _ = W5 m ρ c (Proc.devRef .tc main_v7) := by unwritten main_v7 by hostOps1
    _ = W4 m ρ c (Proc.devRef .tc main_v7) := (W5_arr m ρ c 1).trans (((dat0 (V4 m ρ) c).arrAt_in 1 rfl _).trans (A_eq0 (V4 m ρ) c 1))

theorem V6_v6 (c : Dev nD) : V6 m ρ c main_v6 = V4 m ρ c main_v6 :=
  calc W6 (F := Ideal) m ρ c (Proc.devRef .tc main_v6)
    _ = W5 m ρ c (Proc.devRef .tc main_v6) := by unwritten main_v6 by hostOps1
    _ = W4 m ρ c (Proc.devRef .tc main_v6) := (W5_arr m ρ c 2).trans (((dat0 (V4 m ρ) c).arrAt_in 2 rfl _).trans (A_eq0 (V4 m ρ) c 2))

/-- The padded table is written by the second stretch only, and the first accumulation does not touch it. -/
private theorem W5_v8 (c : Dev nD) : W5 (F := Ideal) m ρ c (Proc.devRef .tc main_v8) = W2 m ρ c (Proc.devRef .tc main_v8) :=
  calc W5 (F := Ideal) m ρ c (Proc.devRef .tc main_v8)
    _ = W4 m ρ c (Proc.devRef .tc main_v8) := W5_of_ne m ρ c main_v8 (by decide)
    _ = W3 m ρ c (Proc.devRef .tc main_v8) := by unwritten main_v8 by hostOps0_3
    _ = W2 m ρ c (Proc.devRef .tc main_v8) := by unwritten main_v8 by hostOps0_2

/-- A row below 1000 of the padded table is the second argument's row. -/
private theorem W2_v8 (c : Dev nD) (r : Fin 1000) (d : Fin 32) :
    (W2 (F := Ideal) m ρ c (Proc.devRef .tc main_v8) : S1024x32.Idx → EReal) (ix2 ⟨r.val, by omega⟩ d) = cenM m c (ix2 r d) := by
  show (StableHlo.after hostOps0_1 (W1 (F := Ideal) m ρ c) (Proc.devRef .tc main_v8) : S1024x32.Idx → EReal) (ix2 ⟨r.val, by omega⟩ d) = _
  after_results
  refine pad_apply_of_inside (s := S1000x32) (t := S1024x32) ![0, 0] ![24, 0] ![0, 0] (cenM m c) _ pads_S1000x32_S1024x32_0240_000 h_S_
    (ix2 ⟨r.val, by omega⟩ d) (ix2 r d) (fun a => match a with
      | ⟨0, _⟩ => by show r.val = 0 + r.val * (0 + 1); omega
      | ⟨1, _⟩ => by show d.val = 0 + d.val * (0 + 1); omega)

/-- A sum of three arrays read at an index is the sum of the three entries. -/
private theorem addf3_apply (A B C : FVec Ideal S1024x32 .f32) (i : S1024x32.Idx) :
    (addf (addf A B) C i : EReal) = A i + B i + C i := rfl

/-- One half's table of a two-table array, read at a row: the array's entry of that half at that row. -/
private theorem half_apply (X : S2x1024x32.Idx → EReal) (h : Fin 2) (hs : S2x1024x32.Slices ![h.val, 0, 0] S1x1024x32)
    (r : Fin 1024) (d : Fin 32) :
    shapeCast S1024x32 (extractStridedSlice S1x1024x32 ![h.val, 0, 0] X hs) shapeCasts_S1x1024x32_S1024x32 (ix2 r d)
      = X (ix3 h r d) := by
  refine (shapeCast_apply _ _ (ix2 r d) (ix3 (0 : Fin 1) r d : S1x1024x32.Idx) ?_).trans
    (extractStridedSlice_apply _ _ _ _ (ix3 h r d) ?_)
  · rw [Shape.rowMajor_val_three, Shape.rowMajor_val_two]
    show (0 * 1024 + r.val) * 32 + d.val = r.val * 32 + d.val
    omega
  · intro a
    match a with
    | ⟨0, _⟩ => show h.val = h.val + 0; omega
    | ⟨1, _⟩ => show r.val = 0 + r.val; omega
    | ⟨2, _⟩ => show d.val = 0 + d.val; omega

/-- A row below 1000 of the table of moved rows: the class's row plus both halves' tables at that row. -/
theorem V6_v16 (c : Dev nD) (r : Fin 1000) (d : Fin 32) :
    (V6 m ρ c main_v16 : S1024x32.Idx → EReal) (ix2 ⟨r.val, by omega⟩ d)
      = cenM m c (ix2 r d) + O0 m ρ c (ix3 0 ⟨r.val, by omega⟩ d) + O0 m ρ c (ix3 1 ⟨r.val, by omega⟩ d) := by
  show (StableHlo.after hostOps1 (W5 (F := Ideal) m ρ c) (Proc.devRef .tc main_v16) : S1024x32.Idx → EReal) (ix2 ⟨r.val, by omega⟩ d) = _
  after_results
  have h10 : W5 (F := Ideal) m ρ c (Proc.devRef .tc main_v10) = O0 m ρ c := W5_arr m ρ c 3
  rw [h10, W5_v8]
  refine (addf3_apply _ _ _ _).trans (congrArg₂ (· + ·) (congrArg₂ (· + ·) ?_ ?_) ?_)
  · exact W2_v8 m ρ c r d
  · exact half_apply (O0 m ρ c) 0 slices_S2x1024x32_S1x1024x32_0_0_0 ⟨r.val, by omega⟩ d
  · exact half_apply (O0 m ρ c) 1 slices_S2x1024x32_S1x1024x32_1_0_0 ⟨r.val, by omega⟩ d

end Cert.KernelIdeal.HostA

end
-- ==== Proof.Bridge.lean ====
/-
  The two thousand-row tables the program's end is computed from are the specification's: row r of the kept moved
  rows is the class's row plus the two halves' block totals of its points' divided rows, which is the total over all
  the points of the class (halves_eq_filter); a point's divided row is its row over its class's number because the
  number is at least one, so the larger of it and one is the number itself; the moved row a point picks out of the
  1024-row table with the zero-one weights "class word = r'" is its own class's row because the class word is from
  0 to 999; hence the point's distance is the specification's, and row r of the kept spreads is the class's number
  plus the total over the class's points of their distances.
-/
import proofs.«400231_j59957743452612_2_alg».proof.Proof.Spec
import proofs.«400231_j59957743452612_2_alg».proof.Proof.Pass1
import proofs.«400231_j59957743452612_2_alg».proof.Proof.Pass2
import proofs.«400231_j59957743452612_2_alg».proof.Proof.HostA
import proofs.«400231_j59957743452612_2_alg».proof.Proof.HostB

noncomputable section

open scoped BigOperators

namespace Cert.KernelIdeal.Bridge

open Idealize.ShloMosaic Idealize.ShloMosaic.TcCoe Idealize.SL.Sem Idealize.ShloMosaic.ValueIdx
open Cert.KernelIdeal Cert.KernelIdeal.Gen Cert.KernelIdeal.HostA

variable (m : (ℓ : Loc nD τ sig) → Buf (Elt Ideal) ℓ) (ρ : Dev nD → PrngReg) (c : Dev nD)
variable (hcnt : ∀ r : Fin 1000, (Ideal.ofBits .f32 0x3F800000#32 : EReal) ≤ cntM m c (ix2 r 0))
variable (htgt : ∀ e : Fin 2000000, 0 ≤ (tgtM m c (ix1 e)).toInt ∧ (tgtM m c (ix1 e)).toInt < 1000)

/-- The class words and the looked-up numbers as the accumulations find them, as plain arrays. -/
abbrev wordsA : S2000000x1.Idx → BitVec 32 := V4 m ρ c main_v7
abbrev numsA : S2000000x1.Idx → EReal := V4 m ρ c main_v6
abbrev wordsB : S2000000x1.Idx → BitVec 32 := V6 m ρ c main_v7
abbrev numsB : S2000000x1.Idx → EReal := V6 m ρ c main_v6
abbrev movedB : S1024x32.Idx → EReal := V6 m ρ c main_v16

include hcnt htgt in
/-- A point's row over the larger of its class's number and one is its row over its class's number. -/
theorem scaled_eq (e : Fin 2000000) (d : Fin 32) :
    Ideal.div (predM m c (ix2 e d)) (max (numsA m ρ c (ix2 e 0)) (Ideal.ofBits .f32 0x3F800000#32))
      = Cert.Spec.contrib (predM m c) (cntM m c) (tgtM m c) e d := by
  have h := V4_v6 m ρ c e (htgt e).1
  show Ideal.div _ (max ((V4 m ρ c main_v6 : S2000000x1.Idx → EReal) (ix2 e 0)) _) = _
  rw [h, max_eq_left (hcnt _)]
  rfl

include hcnt htgt in
/-- Half k of the first accumulation's result at (r, d): the half's block totals of the divided rows' entries d over
    the points of class word r. -/
theorem O0_eq (k : Fin 2) (r : Fin 1024) (d : Fin 32) :
    O0 m ρ c (ix3 k r d)
      = Cert.Spec.halfSum (tgtM m c) (fun e => Cert.Spec.contrib (predM m c) (cntM m c) (tgtM m c) e d) k r.val := by
  have h : O0 m ρ c (ix3 k r d) = _ :=
    Cert.KernelIdeal.Pass1.arr_final (V4 m ρ) c (predM m c) (wordsA m ρ c) (numsA m ρ c) (V4_arg0 m ρ c) rfl rfl k r d
  rw [h]
  unfold Cert.Spec.halfSum Cert.Spec.blockSum
  refine Finset.sum_congr rfl fun j _ => Finset.sum_congr rfl fun n _ => ?_
  have hw : wordsA m ρ c (ix2 (Cert.Spec.pt (Cert.Spec.blk k j) n) 0) = tgtM m c (ix1 (Cert.Spec.pt (Cert.Spec.blk k j) n)) :=
    V4_v7 m ρ c _
  rw [hw, scaled_eq m ρ c hcnt htgt]

include hcnt htgt in
/-- Row r < 1000 of the table of moved rows is the class's moved row. -/
theorem moved_eq (r : Fin 1000) (d : Fin 32) :
    movedB m ρ c (ix2 ⟨r.val, by omega⟩ d) = Cert.Spec.cent2 (predM m c) (cenM m c) (cntM m c) (tgtM m c) r d := by
  have h := V6_v16 m ρ c r d
  refine h.trans ?_
  rw [O0_eq m ρ c hcnt htgt, O0_eq m ρ c hcnt htgt]
  exact Cert.Spec.halves_eq_filter (tgtM m c) _ r.val (by have := r.isLt; omega) _

include hcnt htgt in
/-- A point's distance as the second accumulation takes it is the specification's. -/
theorem dist_eq (e : Fin 2000000) :
    Cert.KernelIdeal.Pass2.distAt (predM m c) (wordsB m ρ c) (numsB m ρ c) (movedB m ρ c) e
      = Cert.Spec.vec (predM m c) (cenM m c) (cntM m c) (tgtM m c) e := by
  have hwB : wordsB m ρ c (ix2 e 0) = tgtM m c (ix1 e) := by
    show (V6 m ρ c main_v7 : S2000000x1.Idx → BitVec 32) (ix2 e 0) = _
    rw [V6_v7 m ρ c]; exact V4_v7 m ρ c e
  have hp : ∀ d : Fin 32, Cert.KernelIdeal.Pass2.pickedAt (wordsB m ρ c) (movedB m ρ c) e d
      = Cert.Spec.cent2 (predM m c) (cenM m c) (cntM m c) (tgtM m c) (Cert.Spec.row (tgtM m c) e) d := by
    intro d
    unfold Cert.KernelIdeal.Pass2.pickedAt
    rw [hwB]
    rw [Cert.Spec.sum_onehot_pick (tgtM m c) (fun r' => movedB m ρ c (ix2 r' d)) e (htgt e).1 (htgt e).2]
    exact moved_eq m ρ c hcnt htgt (Cert.Spec.row (tgtM m c) e) d
  have hs : ∀ d : Fin 32, Cert.KernelIdeal.Pass2.scaledAt (predM m c) (numsB m ρ c) e d
      = Cert.Spec.contrib (predM m c) (cntM m c) (tgtM m c) e d := by
    intro d
    unfold Cert.KernelIdeal.Pass2.scaledAt
    have : numsB m ρ c = numsA m ρ c := V6_v6 m ρ c
    rw [this]
    exact scaled_eq m ρ c hcnt htgt e d
  unfold Cert.KernelIdeal.Pass2.distAt Cert.Spec.vec
  exact congrArg Ideal.sqrt (Finset.sum_congr rfl fun d _ => by rw [hp d, hs d])

include hcnt htgt in
/-- Half k of the second accumulation's result at row r: the half's block totals of the distances over the points
    of class word r. -/
theorem O1_eq (k : Fin 2) (r : Fin 1024) :
    Cert.KernelIdeal.HostB.O1 m ρ c (ix3 k r 0)
      = Cert.Spec.halfSum (tgtM m c) (Cert.Spec.vec (predM m c) (cenM m c) (cntM m c) (tgtM m c)) k r.val := by
  have h : Cert.KernelIdeal.HostB.O1 m ρ c (ix3 k r 0) = _ :=
    Cert.KernelIdeal.Pass2.arr_final (V6 m ρ) c (predM m c) (wordsB m ρ c) (numsB m ρ c) (movedB m ρ c)
      (V6_arg0 m ρ c) rfl rfl rfl k r
  rw [h]
  unfold Cert.Spec.halfSum Cert.Spec.blockSum
  refine Finset.sum_congr rfl fun j _ => Finset.sum_congr rfl fun n _ => ?_
  have hwB : wordsB m ρ c (ix2 (Cert.Spec.pt (Cert.Spec.blk k j) n) 0) = tgtM m c (ix1 (Cert.Spec.pt (Cert.Spec.blk k j) n)) := by
    show (V6 m ρ c main_v7 : S2000000x1.Idx → BitVec 32) _ = _
    rw [V6_v7 m ρ c]; exact V4_v7 m ρ c _
  rw [dist_eq m ρ c hcnt htgt, hwB]

include hcnt htgt in
/-- The kept moved rows are the specification's, as a whole array. -/
theorem cent2K_eq :
    (Cert.KernelIdeal.HostB.cent2K m ρ c : S1000x32.Idx → EReal)
      = fun i => Cert.Spec.cent2 (predM m c) (cenM m c) (cntM m c) (tgtM m c) (i 0) (i 1) := by
  funext i
  obtain ⟨p, q, rfl⟩ : ∃ (p : Fin 1000) (q : Fin 32), i = ix2 p q := ⟨i 0, i 1, eq_ix2 i⟩
  exact (Cert.KernelIdeal.HostB.cent2K_apply m ρ c p q).trans (moved_eq m ρ c hcnt htgt p q)

include hcnt htgt in
/-- The kept spreads are the specification's, as a whole array. -/
theorem sK_eq :
    (Cert.KernelIdeal.HostB.sK m ρ c : S1000x1.Idx → EReal)
      = fun i => Cert.Spec.spread (predM m c) (cenM m c) (distM m c) (cntM m c) (tgtM m c) (i 0) := by
  funext i
  obtain ⟨p, q, rfl⟩ : ∃ (p : Fin 1000) (q : Fin 1), i = ix2 p q := ⟨i 0, i 1, eq_ix2 i⟩
  obtain rfl : q = 0 := Subsingleton.elim _ _
  refine (Cert.KernelIdeal.HostB.sK_apply m ρ c p).trans ?_
  rw [O1_eq m ρ c hcnt htgt, O1_eq m ρ c hcnt htgt]
  exact Cert.Spec.halves_eq_filter (tgtM m c) _ p.val (by have := p.isLt; omega) _

end Cert.KernelIdeal.Bridge

end
-- ==== Proof.RefVal.lean ====
/-
  The reference program's value. Its last stage is a fixed function tailR (square roots, the pairwise distances
  between moved rows, the ratios off the diagonal, their mean) of two accumulating scatters and the classes'
  numbers; this module names that function and never opens it. The two scatters, read at an index when every class
  word is from 0 to 999: a class word that is not negative is used as it is, the row lookups read the row it
  selects, and an accumulating scatter adds to entry r the updates of the points whose class word is r. So the
  first scatter is the classes' rows each moved by its points' rows divided by the class's number (cent2), and the
  second the classes' numbers each moved by its points' distances from their moved rows (spread).
-/
import proofs.«400231_j59957743452612_2_alg».proof.Proof.Gen.ReferenceIdeal.Read
import proofs.«400231_j59957743452612_2_alg».proof.Proof.Spec
import proofs.«400231_j59957743452612_2_alg».proof.Proof.LibGS
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-- The end of the program as one function of the thousand moved rows, the thousand spreads and the classes' numbers:
    the host operations from the square root of the spreads to the result, in the program's order. -/
def tailR (cent2 : FVec Ideal S1000x32 .f32) (s : FVec Ideal S1000x1 .f32) (cnt : FVec Ideal S1000x1 .f32) :
    FVec Ideal S1 .f32 :=
  have v33 : FVec Ideal S1000x1 .f32 := Host.sqrt s
  have v34 : FVec Ideal S1000x1 .f32 := Host.divf v33 cnt
  have v35 : FVec Ideal S1000 .f32 := shapeCast _ v34 shapeCasts_S1000x1_S1000
  have v36 : FVec Ideal S1000x32 .f32 := mulf cent2 cent2
  have cst : FVec Ideal S_ .f32 := constant S_ .f32 0x00000000#32
  have v37 : FVec Ideal S1000 .f32 := Host.reduceAdd v36 cst reducesTo_S1000x32_S1000_d1 h_S_
  have v38 : FVec Ideal S1000x1 .f32 := broadcastInDim S1000x1 ![0] bcast_S1000_S1000x1_0 v37
  have v39 : FVec Ideal S1x1000 .f32 := broadcastInDim S1x1000 ![1] bcast_S1000_S1x1000_1 v37
  have v40 : FVec Ideal S1000x1000 .f32 := broadcastInDim S1000x1000 ![0, 1] bcast_S1000x1_S1000x1000_0_1 v38
  have v41 : FVec Ideal S1000x1000 .f32 := broadcastInDim S1000x1000 ![0, 1] bcast_S1x1000_S1000x1000_0_1 v39
  have v42 : FVec Ideal S1000x1000 .f32 := addf v40 v41
  have v43 : FVec Ideal S32x1000 .f32 := transpose S32x1000 [1, 0] cent2 transposes_S1000x32_S32x1000_1_0
  have v44 : FVec Ideal S1000x1000 .f32 := Host.dotGeneral dot_S1000x32_S32x1000_S1000x1000_1_0_0_1_n_n none cent2 v43
  have cst_7 : FVec Ideal S_ .f32 := constant S_ .f32 0x40000000#32
  have v45 : FVec Ideal S1000x1000 .f32 := broadcastInDim S1000x1000 ![] bcast_S_S1000x1000 cst_7
  have v46 : FVec Ideal S1000x1000 .f32 := mulf v45 v44
  have v47 : FVec Ideal S1000x1000 .f32 := subf v42 v46
  have cst_8 : FVec Ideal S_ .f32 := constant S_ .f32 0x00000000#32
  have v48 : FVec Ideal S1000x1000 .f32 := broadcastInDim S1000x1000 ![] bcast_S_S1000x1000 cst_8
  have v49 : FVec Ideal S1000x1000 .f32 := maximumf v47 v48
  have v50 : FVec Ideal S1000x1000 .f32 := Host.sqrt v49
  have v51 : IVec S1000x1000 32 := iotaInDim S1000x1000 32 0
  have v52 : IVec S1000x1000 32 := iotaInDim S1000x1000 32 1
  have c_9 : IVec S_ 32 := constantI S_ 32 0#32
  have v53 : IVec S1000x1000 32 := broadcastInDim S1000x1000 ![] bcast_S_S1000x1000 c_9
  have v54 : IVec S1000x1000 32 := addi v51 v53
  have v55 : IVec S1000x1000 1 := cmpi .eq v54 v52
  have v56 : FVec Ideal S1000x1 .f32 := broadcastInDim S1000x1 ![0] bcast_S1000_S1000x1_0 v35
  have v57 : FVec Ideal S1x1000 .f32 := broadcastInDim S1x1000 ![1] bcast_S1000_S1x1000_1 v35
  have v58 : FVec Ideal S1000x1000 .f32 := broadcastInDim S1000x1000 ![0, 1] bcast_S1000x1_S1000x1000_0_1 v56
  have v59 : FVec Ideal S1000x1000 .f32 := broadcastInDim S1000x1000 ![0, 1] bcast_S1x1000_S1000x1000_0_1 v57
  have v60 : FVec Ideal S1000x1000 .f32 := addf v58 v59
  have cst_10 : FVec Ideal S_ .f32 := constant S_ .f32 0x3F800000#32
  have call1_v0 : FVec Ideal S_ .f32 := id cst_10
  have call1_v1 : FVec Ideal S1000x1000 .f32 := broadcastInDim S1000x1000 ![] bcast_S_S1000x1000 call1_v0
  have v61 : FVec Ideal S1000x1000 .f32 := select v55 call1_v1 v50
  have v62 : FVec Ideal S1000x1000 .f32 := Host.divf v60 v61
  have cst_11 : FVec Ideal S_ .f32 := constant S_ .f32 0x00000000#32
  have call2_v0 : FVec Ideal S_ .f32 := id cst_11
  have call2_v1 : FVec Ideal S1000x1000 .f32 := broadcastInDim S1000x1000 ![] bcast_S_S1000x1000 call2_v0
  have v63 : FVec Ideal S1000x1000 .f32 := select v55 call2_v1 v62
  have cst_12 : FVec Ideal S_ .f32 := constant S_ .f32 0x00000000#32
  have v64 : FVec Ideal S_ .f32 := Host.reduceAdd v63 cst_12 reducesTo_S1000x1000_S_d0_1 h_S_
  have cst_13 : FVec Ideal S_ .f32 := constant S_ .f32 0x447A0000#32
  have v65 : FVec Ideal S_ .f32 := Host.divf v64 cst_13
  shapeCast _ v65 shapeCasts_S_S1

/-- The reference's last stage is the tail of its two scatters and the classes' numbers. -/
theorem result_eq (x0 : FVec Ideal S2000000x32 .f32) (x1 : FVec Ideal S1000x32 .f32) (x2 x3 : FVec Ideal S1000x1 .f32)
    (x4 : IVec S2000000 32) :
    val_main_v66 (F := Ideal) x0 x1 x2 x3 x4
      = tailR (val_main_v15 (F := Ideal) x0 x1 x3 x4) (val_main_v32 (F := Ideal) x0 x1 x2 x3 x4) x3 := by
  simp only [val_main_v66, val_main_v65, val_main_cst_13, val_main_v64, val_main_cst_12, val_main_v63, val_main_call2_v1, val_main_call2_v0, val_main_cst_11, val_main_v62, val_main_v61, val_main_call1_v1, val_main_call1_v0, val_main_cst_10, val_main_v60, val_main_v59, val_main_v58, val_main_v57, val_main_v56, val_main_v55, val_main_v54, val_main_v53, val_main_c_9, val_main_v52, val_main_v51, val_main_v50, val_main_v49, val_main_v48, val_main_cst_8, val_main_v47, val_main_v46, val_main_v45, val_main_cst_7, val_main_v44, val_main_v43, val_main_v42, val_main_v41, val_main_v40, val_main_v39, val_main_v38, val_main_v37, val_main_cst, val_main_v36, val_main_v35, val_main_v34, val_main_v33]
  generalize val_main_v15 (F := Ideal) x0 x1 x3 x4 = A
  generalize val_main_v32 (F := Ideal) x0 x1 x2 x3 x4 = B
  rfl

/-- A class word that is not negative is used as it is: the signed comparison with zero fails, so the selection
    keeps the word. -/
private theorem norm_word (w : BitVec 32) (h0 : 0 ≤ w.toInt) :
    Scalar.select (IntOp.cmpi .slt w 0#32) (IntOp.addi w 1000#32) w = w := by
  have hs : w.slt 0#32 = false := by
    unfold BitVec.slt
    rw [BitVec.toInt_zero]
    exact decide_eq_false (by omega)
  show (if BitVec.ofBool (w.slt 0#32) = 1 then IntOp.addi w 1000#32 else w) = w
  rw [hs]
  exact if_neg (by decide)

/-- The column of class words the row lookup of the classes' numbers reads: at point e it is the point's class word. -/
private theorem idx5_apply (x4 : IVec S2000000 32) (e : Fin 2000000) (h0 : 0 ≤ (x4 (ix1 e)).toInt) :
    val_main_v5 (F := Ideal) x4 (ix2 e 0) = x4 (ix1 e) := by
  have hi : idx_main_v5 (ix2 e 0) = ix1 e := by
    funext a
    match a with
    | ⟨0, _⟩ => rfl
  rw [val_main_v5_apply, hi, val_main_v4_apply, val_main_v1_apply, val_main_v3_apply, val_main_v0_apply,
    val_main_v2_apply, val_main_c_apply, val_main_c_0_apply]
  exact norm_word _ h0

/-- The column of class words the first scatter reads: at point e it is the point's class word. -/
private theorem idx14_apply (x4 : IVec S2000000 32) (e : Fin 2000000) (h0 : 0 ≤ (x4 (ix1 e)).toInt) :
    val_main_v14 (F := Ideal) x4 (ix2 e 0) = x4 (ix1 e) := by
  have hi : idx_main_v14 (ix2 e 0) = ix1 e := by
    funext a
    match a with
    | ⟨0, _⟩ => rfl
  rw [val_main_v14_apply, hi, val_main_v13_apply, val_main_v10_apply, val_main_v12_apply, val_main_v9_apply,
    val_main_v11_apply, val_main_c_1_apply, val_main_c_2_apply]
  exact norm_word _ h0

/-- The first scatter's update at (e, d): the point's row entry divided by its class's number. -/
private theorem upd8_apply (x0 : FVec Ideal S2000000x32 .f32) (x3 : FVec Ideal S1000x1 .f32) (x4 : IVec S2000000 32)
    (e : Fin 2000000) (d : Fin 32) (h0 : 0 ≤ (x4 (ix1 e)).toInt) :
    (val_main_v8 (F := Ideal) x0 x3 x4 : S2000000x32.Idx → EReal) (ix2 e d) = Cert.Spec.contrib x0 x3 x4 e d := by
  have hi : idx_main_v7 (ix2 e d) = ix2 e 0 := by
    funext a
    match a with
    | ⟨0, _⟩ => rfl
    | ⟨1, _⟩ => rfl
  have hg : Host.gather gather_S1000x1_S2000000x1_S2000000x1_1_0_n_n_0_1_11 x3 (val_main_v5 (F := Ideal) x4) (ix2 e 0)
      = x3 (ix2 (Cert.Spec.row x4 e) 0) := by
    refine (Cert.LibGS.gather_rows_apply (N := 1000) (E := 2000000) (C := 1) (by decide) _ x3
      (val_main_v5 (F := Ideal) x4) e 0).trans ?_
    refine congrArg (fun q : Fin 1000 => x3 (ix2 q 0)) (Fin.ext ?_)
    show min ((val_main_v5 (F := Ideal) x4) (ix2 e 0)).toInt.toNat (1000 - 1) = min (x4 (ix1 e)).toInt.toNat 999
    rw [idx5_apply x4 e h0]
  rw [val_main_v8_apply, Ideal.hostDivf_def, val_main_v7_apply, hi]
  unfold val_main_v6
  rw [hg]
  rfl

/-- The first scatter at (r, d): the class's moved row. -/
theorem cent2_apply (x0 : FVec Ideal S2000000x32 .f32) (x1 : FVec Ideal S1000x32 .f32) (x3 : FVec Ideal S1000x1 .f32)
    (x4 : IVec S2000000 32) (htgt : ∀ e : Fin 2000000, 0 ≤ (x4 (ix1 e)).toInt ∧ (x4 (ix1 e)).toInt < 1000)
    (r : Fin 1000) (d : Fin 32) :
    (val_main_v15 (F := Ideal) x0 x1 x3 x4 : S1000x32.Idx → EReal) (ix2 r d) = Cert.Spec.cent2 x0 x1 x3 x4 r d := by
  have hs : Ideal.hostScatterAdd scatter_S1000x32_S2000000x1_S2000000x32_1_0_0_1 x1 (val_main_v14 (F := Ideal) x4)
        (val_main_v8 (F := Ideal) x0 x3 x4) (ix2 r d)
      = x1 (ix2 r d) + ∑ e ∈ Finset.univ.filter (fun e : Fin 2000000 =>
          ((val_main_v14 (F := Ideal) x4) (ix2 e 0)).toInt = (r.val : ℤ)), (val_main_v8 (F := Ideal) x0 x3 x4) (ix2 e d) :=
    Cert.LibGS.scatterAdd_rows_apply (N := 1000) (E := 2000000) (C := 32) _ x1 (val_main_v14 (F := Ideal) x4)
      (val_main_v8 (F := Ideal) x0 x3 x4) r d
  have hf : Finset.univ.filter (fun e : Fin 2000000 => ((val_main_v14 (F := Ideal) x4) (ix2 e 0)).toInt = (r.val : ℤ))
      = Cert.Spec.members x4 r.val := by
    unfold Cert.Spec.members
    refine Finset.filter_congr fun e _ => ?_
    rw [idx14_apply x4 e (htgt e).1]
  unfold val_main_v15
  simp only [Host.scatterAdd, Ideal.hostScatterAdd_def]
  rw [hs, hf]
  unfold Cert.Spec.cent2
  refine congrArg (fun y => x1 (ix2 r d) + y) (Finset.sum_congr rfl fun e _ => ?_)
  exact upd8_apply x0 x3 x4 e d (htgt e).1

end Cert.ReferenceIdeal.RefVal

end
-- ==== Proof.RefVal2.lean ====
/-
  The reference's second accumulating scatter, read at an index when every class word is from 0 to 999: to the
  class's number it adds, over the points whose class word is that class, the point's distance: the square root of
  the sum over d of the squared difference between the moved row the point's class word looks up (the first
  scatter's result, read as the class's moved row) and the point's own row divided by its class's number.
-/
import proofs.«400231_j59957743452612_2_alg».proof.Proof.RefVal

noncomputable section

open scoped BigOperators

namespace Cert.ReferenceIdeal.RefVal

open Idealize.ShloMosaic Idealize.ShloMosaic.TcCoe Idealize.SL.Sem Idealize.ShloMosaic.ValueIdx
open Cert.ReferenceIdeal Cert.ReferenceIdeal.Gen Cert.ReferenceIdeal.Read

/-- A class word that is not negative is kept by the normalisation (the signed comparison with zero is false). -/
private theorem norm_word (w : BitVec 32) (h0 : 0 ≤ w.toInt) :
    Scalar.select (IntOp.cmpi .slt w 0#32) (IntOp.addi w 1000#32) w = w := by
  have hs : w.slt 0#32 = false := by
    rw [BitVec.slt]
    simp only [BitVec.toInt_zero, decide_eq_false_iff_not, not_lt]
    exact h0
  unfold Scalar.select IntOp.cmpi
  simp only [hs]
  rw [if_neg (by decide)]

/-- The index buffer of the row lookup of the moved rows, at point e, is the point's class word. -/
private theorem v21_ix (x4 : IVec S2000000 32)
    (htgt : ∀ e : Fin 2000000, 0 ≤ (x4 (ix1 e)).toInt ∧ (x4 (ix1 e)).toInt < 1000) (e : Fin 2000000) :
    (val_main_v21 (F := Ideal) x4 : S2000000x1.Idx → BitVec 32) (ix2 e 0) = x4 (ix1 e) := by
  rw [val_main_v21_apply, val_main_v20_apply, val_main_v17_apply, val_main_v19_apply, val_main_v16_apply,
    val_main_v18_apply, val_main_c_3_apply, val_main_c_4_apply]
  have hidx : idx_main_v21 (ix2 e 0) = ix1 e := by
    funext a
    match a with
    | ⟨0, _⟩ => rfl
  rw [hidx]
  exact norm_word _ (htgt e).1

/-- The index buffer of the second scatter, at point e, is the point's class word. -/
private theorem v31_ix (x4 : IVec S2000000 32)
    (htgt : ∀ e : Fin 2000000, 0 ≤ (x4 (ix1 e)).toInt ∧ (x4 (ix1 e)).toInt < 1000) (e : Fin 2000000) :
    (val_main_v31 (F := Ideal) x4 : S2000000x1.Idx → BitVec 32) (ix2 e 0) = x4 (ix1 e) := by
  rw [val_main_v31_apply, val_main_v30_apply, val_main_v27_apply, val_main_v29_apply, val_main_v26_apply,
    val_main_v28_apply, val_main_c_5_apply, val_main_c_6_apply]
  have hidx : idx_main_v31 (ix2 e 0) = ix1 e := by
    funext a
    match a with
    | ⟨0, _⟩ => rfl
  rw [hidx]
  exact norm_word _ (htgt e).1

/-- The index buffer of the lookup of the classes' numbers, at point e, is the point's class word. -/
private theorem v5_ix (x4 : IVec S2000000 32)
    (htgt : ∀ e : Fin 2000000, 0 ≤ (x4 (ix1 e)).toInt ∧ (x4 (ix1 e)).toInt < 1000) (e : Fin 2000000) :
    (val_main_v5 (F := Ideal) x4 : S2000000x1.Idx → BitVec 32) (ix2 e 0) = x4 (ix1 e) := by
  rw [val_main_v5_apply, val_main_v4_apply, val_main_v1_apply, val_main_v3_apply, val_main_v0_apply,
    val_main_v2_apply, val_main_c_apply, val_main_c_0_apply]
  have hidx : idx_main_v5 (ix2 e 0) = ix1 e := by
    funext a
    match a with
    | ⟨0, _⟩ => rfl
  rw [hidx]
  exact norm_word _ (htgt e).1

/-- A point's row divided by the number its class word looks up is the point's contribution. -/
private theorem v8_ix (x0 : FVec Ideal S2000000x32 .f32) (x3 : FVec Ideal S1000x1 .f32) (x4 : IVec S2000000 32)
    (htgt : ∀ e : Fin 2000000, 0 ≤ (x4 (ix1 e)).toInt ∧ (x4 (ix1 e)).toInt < 1000) (e : Fin 2000000) (d : Fin 32) :
    (val_main_v8 (F := Ideal) x0 x3 x4 : S2000000x32.Idx → EReal) (ix2 e d) = Cert.Spec.contrib x0 x3 x4 e d := by
  rw [val_main_v8_apply, val_main_v7_apply, Ideal.hostDivf_def]
  have hidx : idx_main_v7 (ix2 e d) = ix2 e 0 := by
    funext a
    match a with
    | ⟨0, _⟩ => rfl
    | ⟨1, _⟩ => rfl
  rw [hidx]
  unfold Cert.Spec.contrib
  congr 1
  unfold val_main_v6
  refine (Cert.LibGS.gather_rows_apply (N := 1000) (E := 2000000) (C := 1) (by norm_num)
    gather_S1000x1_S2000000x1_S2000000x1_1_0_n_n_0_1_11_wf x3 (val_main_v5 (F := Ideal) x4) e 0).trans ?_
  refine congrArg (fun q : Fin 1000 => x3 (ix2 q 0)) (Fin.ext ?_)
  show min ((val_main_v5 (F := Ideal) x4 : S2000000x1.Idx → BitVec 32) (ix2 e 0)).toInt.toNat (1000 - 1)
    = min (x4 (ix1 e)).toInt.toNat 999
  rw [v5_ix x4 htgt e]

/-- The row lookup of the first scatter's result, at (e, d), is the moved row of the point's class. -/
private theorem v22_ix (x0 : FVec Ideal S2000000x32 .f32) (x1 : FVec Ideal S1000x32 .f32) (x3 : FVec Ideal S1000x1 .f32)
    (x4 : IVec S2000000 32)
    (htgt : ∀ e : Fin 2000000, 0 ≤ (x4 (ix1 e)).toInt ∧ (x4 (ix1 e)).toInt < 1000) (e : Fin 2000000) (d : Fin 32) :
    (val_main_v22 (F := Ideal) x0 x1 x3 x4 : S2000000x32.Idx → EReal) (ix2 e d)
      = Cert.Spec.cent2 x0 x1 x3 x4 (Cert.Spec.row x4 e) d := by
  unfold val_main_v22
  refine (Cert.LibGS.gather_rows_apply (N := 1000) (E := 2000000) (C := 32) (by norm_num)
    gather_S1000x32_S2000000x1_S2000000x32_1_0_n_n_0_1_132_wf (val_main_v15 (F := Ideal) x0 x1 x3 x4)
    (val_main_v21 (F := Ideal) x4) e d).trans ?_
  rw [← cent2_apply x0 x1 x3 x4 htgt (Cert.Spec.row x4 e) d]
  refine congrArg (fun q : Fin 1000 => (val_main_v15 (F := Ideal) x0 x1 x3 x4 : S1000x32.Idx → EReal) (ix2 q d))
    (Fin.ext ?_)
  show min ((val_main_v21 (F := Ideal) x4 : S2000000x1.Idx → BitVec 32) (ix2 e 0)).toInt.toNat (1000 - 1)
    = min (x4 (ix1 e)).toInt.toNat 999
  rw [v21_ix x4 htgt e]

/-- The update of the second scatter at point e is the point's distance from its class's moved row. -/
private theorem v25_ix (x0 : FVec Ideal S2000000x32 .f32) (x1 : FVec Ideal S1000x32 .f32) (x3 : FVec Ideal S1000x1 .f32)
    (x4 : IVec S2000000 32)
    (htgt : ∀ e : Fin 2000000, 0 ≤ (x4 (ix1 e)).toInt ∧ (x4 (ix1 e)).toInt < 1000) (e : Fin 2000000) :
    (val_main_v25 (F := Ideal) x0 x1 x3 x4 : S2000000x1.Idx → EReal) (ix2 e 0) = Cert.Spec.vec x0 x1 x3 x4 e := by
  rw [val_main_v25_apply, val_main_v24_apply, Ideal.hostUnary_sqrt_def, val_main_call0_v1_apply,
    val_main_call0_cst_apply]
  show Ideal.sqrt (Ideal.ofBits .f32 0x00000000#32 + _) = _
  rw [Ideal.ofBits_zero_f32, zero_add]
  unfold Cert.Spec.vec
  refine congrArg Ideal.sqrt (Finset.sum_congr rfl fun k _ => ?_)
  have hidx : idx_main_call0_v1 (idx_main_v25 (ix2 e 0)) k = ix2 e k := by
    funext a
    match a with
    | ⟨0, _⟩ => rfl
    | ⟨1, _⟩ => rfl
  rw [hidx, val_main_call0_v0_apply, val_main_v23_apply, Ideal.mulf_def, Ideal.subf_def,
    v22_ix x0 x1 x3 x4 htgt e k, v8_ix x0 x3 x4 htgt e k]

/-- The second scatter at (r, 0): the class's spread. -/
theorem spread_apply (x0 : FVec Ideal S2000000x32 .f32) (x1 : FVec Ideal S1000x32 .f32) (x2 x3 : FVec Ideal S1000x1 .f32)
    (x4 : IVec S2000000 32) (htgt : ∀ e : Fin 2000000, 0 ≤ (x4 (ix1 e)).toInt ∧ (x4 (ix1 e)).toInt < 1000)
    (r : Fin 1000) :
    (val_main_v32 (F := Ideal) x0 x1 x2 x3 x4 : S1000x1.Idx → EReal) (ix2 r 0) = Cert.Spec.spread x0 x1 x2 x3 x4 r := by
  unfold val_main_v32
  simp only [Host.scatterAdd, Ideal.hostScatterAdd_def]
  refine (Cert.LibGS.scatterAdd_rows_apply (N := 1000) (E := 2000000) (C := 1)
    scatter_S1000x1_S2000000x1_S2000000x1_1_0_0_1_wf x2 (val_main_v31 (F := Ideal) x4)
    (val_main_v25 (F := Ideal) x0 x1 x3 x4) r 0).trans ?_
  unfold Cert.Spec.spread Cert.Spec.members
  refine congrArg (fun y => x2 (ix2 r 0) + y) ?_
  have hfilter : (Finset.univ.filter fun e : Fin 2000000 =>
        ((val_main_v31 (F := Ideal) x4 : S2000000x1.Idx → BitVec 32) (ix2 e 0)).toInt = (r.val : ℤ))
      = Finset.univ.filter fun e : Fin 2000000 => (x4 (ix1 e)).toInt = (r.val : ℤ) := by
    refine Finset.filter_congr fun e _ => ?_
    rw [v31_ix x4 htgt e]
  rw [hfilter]
  exact Finset.sum_congr rfl fun e _ => v25_ix x0 x1 x3 x4 htgt e

end Cert.ReferenceIdeal.RefVal

end
-- ==== Proof.lean ====
/-
  The certificate's proof.

  The two programs take two million points (a row of 32 numbers and a class word each) and, per class, a row of 32
  numbers, a spread and a number. Both move each class's row by its points' rows divided by the class's number,
  then move each class's spread by its points' distances from their class's moved row, and end with the same fixed
  function of the thousand moved rows, the thousand spreads and the classes' numbers (the mean, over pairs of
  different classes, of the sum of the two spreads' normalised square roots over the distance between the two
  moved rows).

  The reference does the two moves with accumulating scatters over all the points. The kernel does them in two
  grids of 2 x 500 steps, each step taking a block of two thousand points, dividing by the larger of the class's
  number and one, and adding to a 1024-row table of its half the points' values in the rows their class words
  name, by a matrix product with the zero-one matrix "class word = row"; the halves' tables are added on the host.

  Under the precondition (every class's number is at least one, every class word is from 0 to 999) the two agree
  over the extended reals: the larger of a number that is at least one and one is the number; a zero-one weighted
  sum over a block adds exactly the points of the class; the blocks' and halves' totals are the total over all the
  points of the class because addition of extended reals is commutative and associative (no finiteness is used);
  the zero-one weighted sum over the 1024 rows picks the point's own class's row. The end of both programs is one
  function, applied to equal tables.

  The three frames are the generated ones (the reference's is its generated run with the result dropped); the
  idealization rewrote nothing, so there is nothing to preserve.
-/
import proofs.«400231_j59957743452612_2_alg».proof.Defs
import proofs.«400231_j59957743452612_2_alg».proof.Proof.Gen.Kernel
import proofs.«400231_j59957743452612_2_alg».proof.Proof.Gen.Kernel.Skeleton
import proofs.«400231_j59957743452612_2_alg».proof.Proof.Gen.Kernel.Launch
import proofs.«400231_j59957743452612_2_alg».proof.Proof.Gen.Kernel.Points
import proofs.«400231_j59957743452612_2_alg».proof.Proof.Gen.Kernel.Frame
import proofs.«400231_j59957743452612_2_alg».proof.Proof.Gen.KernelIdeal
import proofs.«400231_j59957743452612_2_alg».proof.Proof.Gen.KernelIdeal.Skeleton
import proofs.«400231_j59957743452612_2_alg».proof.Proof.Gen.KernelIdeal.Launch
import proofs.«400231_j59957743452612_2_alg».proof.Proof.Gen.KernelIdeal.Points
import proofs.«400231_j59957743452612_2_alg».proof.Proof.Gen.KernelIdeal.Frame
import proofs.«400231_j59957743452612_2_alg».proof.Proof.Gen.ReferenceIdeal
import proofs.«400231_j59957743452612_2_alg».proof.Proof.Gen.ReferenceIdeal.Run
import proofs.«400231_j59957743452612_2_alg».proof.Proof.Gen.ReferenceIdeal.Read
import proofs.«400231_j59957743452612_2_alg».proof.Proof.Gen.Pre_finite_inputs
import proofs.«400231_j59957743452612_2_alg».proof.Proof.PreRead
import proofs.«400231_j59957743452612_2_alg».proof.Proof.KRun
import proofs.«400231_j59957743452612_2_alg».proof.Proof.HostB
import proofs.«400231_j59957743452612_2_alg».proof.Proof.Bridge
import proofs.«400231_j59957743452612_2_alg».proof.Proof.RefVal
import proofs.«400231_j59957743452612_2_alg».proof.Proof.RefVal2
import Idealize.ShloMosaic.Adequacy
import Idealize.ShloMosaic.Init

noncomputable section

namespace Cert.Proof

open Idealize.ShloMosaic Idealize.ShloMosaic.TcCoe Idealize.SL.Sem Idealize.ShloMosaic.ValueIdx

/-- The end of the two programs is one function: the same host operations in the same order. -/
theorem tail_eq (a : FVec Ideal Cert.KernelIdeal.S1000x32 .f32) (b c : FVec Ideal Cert.KernelIdeal.S1000x1 .f32) :
    Cert.KernelIdeal.HostB.tailK a b c = Cert.ReferenceIdeal.RefVal.tailR a b c := rfl

/-- The common result: the end of the programs applied to the specification's moved rows and spreads. -/
def value (pred : (⟨2, ![2000000, 32]⟩ : Shape).Idx → EReal) (cen : (⟨2, ![1000, 32]⟩ : Shape).Idx → EReal)
    (dist cnt : (⟨2, ![1000, 1]⟩ : Shape).Idx → EReal) (tgt : (⟨1, ![2000000]⟩ : Shape).Idx → BitVec 32) :
    FVec Ideal Cert.KernelIdeal.S1 .f32 :=
  Cert.KernelIdeal.HostB.tailK (fun i => Cert.Spec.cent2 pred cen cnt tgt (i 0) (i 1))
    (fun i => Cert.Spec.spread pred cen dist cnt tgt (i 0)) cnt

/-- The kernel program's result buffer holds the common result of its arguments. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Gen.W12 m ρ c (Proc.devRef .tc Cert.KernelIdeal.main_v59)
      = value (Cert.KernelIdeal.HostA.predM m c) (Cert.KernelIdeal.HostA.cenM m c) (Cert.KernelIdeal.HostA.distM m c)
          (Cert.KernelIdeal.HostA.cntM m c) (Cert.KernelIdeal.HostA.tgtM m c) := by
  obtain ⟨hcnt, htgt⟩ := Cert.PreRead.of_pre _ _ _ _ _ (hpre c)
  rw [Cert.KernelIdeal.HostB.result_eq, Cert.KernelIdeal.Bridge.cent2K_eq m ρ c hcnt htgt,
    Cert.KernelIdeal.Bridge.sK_eq m ρ c hcnt htgt]
  rfl

/-- The reference program's last stage is the common result of its arguments, when every class word is in range. -/
theorem reference_value (x0 : FVec Ideal Cert.ReferenceIdeal.S2000000x32 .f32) (x1 : FVec Ideal Cert.ReferenceIdeal.S1000x32 .f32)
    (x2 x3 : FVec Ideal Cert.ReferenceIdeal.S1000x1 .f32) (x4 : IVec Cert.ReferenceIdeal.S2000000 32)
    (htgt : ∀ e : Fin 2000000, 0 ≤ (x4 (ix1 e)).toInt ∧ (x4 (ix1 e)).toInt < 1000) :
    Cert.ReferenceIdeal.Read.val_main_v66 (F := Ideal) x0 x1 x2 x3 x4 = value x0 x1 x2 x3 x4 := by
  have h15 : (Cert.ReferenceIdeal.Read.val_main_v15 (F := Ideal) x0 x1 x3 x4 : Cert.ReferenceIdeal.S1000x32.Idx → EReal)
      = fun i => Cert.Spec.cent2 x0 x1 x3 x4 (i 0) (i 1) := by
    funext i
    obtain ⟨p, q, rfl⟩ : ∃ (p : Fin 1000) (q : Fin 32), i = ix2 p q := ⟨i 0, i 1, eq_ix2 i⟩
    exact Cert.ReferenceIdeal.RefVal.cent2_apply x0 x1 x3 x4 htgt p q
  have h32 : (Cert.ReferenceIdeal.Read.val_main_v32 (F := Ideal) x0 x1 x2 x3 x4 : Cert.ReferenceIdeal.S1000x1.Idx → EReal)
      = fun i => Cert.Spec.spread x0 x1 x2 x3 x4 (i 0) := by
    funext i
    obtain ⟨p, q, rfl⟩ : ∃ (p : Fin 1000) (q : Fin 1), i = ix2 p q := ⟨i 0, i 1, eq_ix2 i⟩
    obtain rfl : q = 0 := Subsingleton.elim _ _
    exact Cert.ReferenceIdeal.RefVal.spread_apply x0 x1 x2 x3 x4 htgt p
  rw [Cert.ReferenceIdeal.RefVal.result_eq, h15, h32]
  exact (tail_eq _ _ _).symm

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the common result of those arguments. -/
theorem algebraic : Cert.algebraic_KernelIdeal_ReferenceIdeal := by
  intro m ρ m' ρ' hpre hagree
  refine ⟨fun c => value (Cert.KernelIdeal.HostA.predM m c) (Cert.KernelIdeal.HostA.cenM m c) (Cert.KernelIdeal.HostA.distM m c)
    (Cert.KernelIdeal.HostA.cntM m c) (Cert.KernelIdeal.HostA.tgtM m c), ?_, ?_⟩
  · exact (θ_run Cert.KernelIdeal.defs _ _).mono (fun r h c => ⟨(h c).1.trans (kernel_value m ρ hpre c), (h c).2⟩)
      (Cert.KernelIdeal.RunVal.run_val (F := Ideal) m ρ)
  · refine (θ_run Cert.ReferenceIdeal.defs _ _).mono (fun r h c => ⟨(h c).1.trans ?_, (h c).2⟩)
      (Cert.ReferenceIdeal.Value.run (F := Ideal) m' ρ')
    obtain ⟨-, htgt⟩ := Cert.PreRead.of_pre _ _ _ _ _ (hpre c)
    rw [Cert.ReferenceIdeal.Read.val_main_v66_eq, (hagree c).1, (hagree c).2.1, (hagree c).2.2.1, (hagree c).2.2.2.1,
      (hagree c).2.2.2.2]
    exact reference_value _ _ _ _ _ htgt

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
